-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S128x2 .f32) (main_arg14 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x2 .f32 := Host.absf main_arg13
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x2 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩
abbrev S2000x128 : Shape := ⟨2, ![2000, 128]⟩
abbrev S2000x1 : Shape := ⟨2, ![2000, 1]⟩
abbrev S512x128 : Shape := ⟨2, ![512, 128]⟩
abbrev S2000x512 : Shape := ⟨2, ![2000, 512]⟩

abbrev nBuf : Space → Nat
  | .hbm => 139
  | .vmem => 41
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S50000x1, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x128, .bf16⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .bf16⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x1, .f32⟩
  | 48 => ⟨S50000x128, .f32⟩
  | 49 => ⟨S50000x128, .f32⟩
  | 50 => ⟨S1x128, .f32⟩
  | 51 => ⟨S50000x128, .f32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S50000x128, .bf16⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .bf16⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x1, .f32⟩
  | 94 => ⟨S50000x128, .f32⟩
  | 95 => ⟨S50000x128, .f32⟩
  | 96 => ⟨S1x128, .f32⟩
  | 97 => ⟨S50000x128, .f32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S50000x128, .f32⟩
  | 124 => ⟨S_, .f32⟩
  | 125 => ⟨S50000, .f32⟩
  | 126 => ⟨S_, .f32⟩
  | 127 => ⟨S512, .f32⟩
  | _ => ⟨S50000x128, .f32⟩

abbrev hbmTy0_1 (i : Nat) : BufTy := match i % 128 with
  | 0 => ⟨S50000x1, .i32⟩
  | 1 => ⟨S512, .f32⟩
  | 2 => ⟨S_, .f32⟩
  | 3 => ⟨S512, .f32⟩
  | 4 => ⟨S512, .f32⟩
  | 5 => ⟨S_, .f32⟩
  | 6 => ⟨S512, .f32⟩
  | 7 => ⟨S512, .f32⟩
  | 8 => ⟨S512x1, .f32⟩
  | 9 => ⟨S1x2, .f32⟩
  | 10 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S2000x128, .f32⟩
  | .local _ .vmem, ⟨33, _⟩ => ⟨S2000x128, .f32⟩
  | .local _ .vmem, ⟨34, _⟩ => ⟨S2000x1, .i32⟩
  | .local _ .vmem, ⟨35, _⟩ => ⟨S2000x1, .i32⟩
  | .local _ .vmem, ⟨36, _⟩ => ⟨S512x1, .f32⟩
  | .local _ .vmem, ⟨37, _⟩ => ⟨S128x2, .f32⟩
  | .local _ .vmem, ⟨38, _⟩ => ⟨S1x2, .f32⟩
  | .local _ .vmem, ⟨39, _⟩ => ⟨S512x2, .f32⟩
  | .local _ .vmem, ⟨40, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_20 : Ref sig .tc := ⟨.hbm, 124, rfl⟩
abbrev main_v87 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_22 : Ref sig .tc := ⟨.hbm, 130, rfl⟩
abbrev main_v91 : Ref sig .tc := ⟨.hbm, 131, rfl⟩
abbrev main_v92 : Ref sig .tc := ⟨.hbm, 132, rfl⟩
abbrev main_cst_23 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  shapeCasts_S512_S512x1 : S512.ShapeCasts S512x1
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512_S50000x1_S50000_n_0_0_1_wf : ScatterDims.WF S512 S50000x1 S50000 [] [0] [0] 1
  dot_S2000x512_S2000x128_S512x128_0_0_1_1_n_n_wf : DotDims.WF S2000x512 S2000x128 S512x128 [0] [0] [1] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S512x1.size a
  hwx4_2 : ∀ i : grid4.Coords, EltTy.bits .f32 = 32 ∨ (Rect.block (s := S512x1) S512x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x2.size a ≤ S512x2.size a
  hwx4_5 : ∀ i : grid4.Coords, EltTy.bits .f32 = 32 ∨ (Rect.block (s := S512x2) S512x2.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v86) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S512x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S512x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S_, .f32⟩
  | 95 => ⟨S800000, .f32⟩
  | 96 => ⟨S_, .f32⟩
  | 97 => ⟨S50000, .f32⟩
  | 98 => ⟨S800000x1, .i32⟩
  | 99 => ⟨S50000, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S512x128, .f32⟩
  | 17 => ⟨S50000x1, .i32⟩
  | 18 => ⟨S512x128, .f32⟩
  | 19 => ⟨S_, .f32⟩
  | 20 => ⟨S50000, .f32⟩
  | 21 => ⟨S_, .f32⟩
  | 22 => ⟨S512, .f32⟩
  | 23 => ⟨S50000x1, .i32⟩
  | 24 => ⟨S512, .f32⟩
  | 25 => ⟨S_, .f32⟩
  | 26 => ⟨S512, .f32⟩
  | 27 => ⟨S512, .f32⟩
  | 28 => ⟨S512x1, .f32⟩
  | 29 => ⟨S512x128, .f32⟩
  | 30 => ⟨S512x128, .f32⟩
  | 31 => ⟨S512x2, .f32⟩
  | 32 => ⟨S1x2, .f32⟩
  | 33 => ⟨S512x2, .f32⟩
  | 34 => ⟨S512x2, .f32⟩
  | 35 => ⟨S512x2, .f32⟩
  | 36 => ⟨S512x2, .f32⟩
  | 37 => ⟨S_, .f32⟩
  | 38 => ⟨S512x2, .f32⟩
  | 39 => ⟨S512x2, .f32⟩
  | 40 => ⟨S_, .f32⟩
  | 41 => ⟨S512x2, .f32⟩
  | 42 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call0_cst : Ref sig .tc := ⟨.hbm, 78, rfl⟩
abbrev main_call0_v0 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call1_cst : Ref sig .tc := ⟨.hbm, 140, rfl⟩
abbrev main_call1_v0 : Ref sig .tc := ⟨.hbm, 141, rfl⟩
abbrev main_v101 : Ref sig .tc := ⟨.hbm, 142, rfl⟩
abbrev main_cst_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_cst_22 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_24 : Ref sig .tc := ⟨.hbm, 165, rfl⟩
abbrev main_v120 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_v123 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x2_S512x2_1_0_0_1_n_n_wf : DotDims.WF S512x128 S128x2 S512x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.Hand.K.Region0.lean ====
import proofs.«429563_j84585085928054_2_alg».proof.Proof.Gen.Kernel.Launch
import proofs.«429563_j84585085928054_2_alg».proof.Proof.Gen.Kernel.Skeleton
import proofs.«429563_j84585085928054_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The first SAGE layer's linear step (pipeline 0), at the contents the region is entered with

One grid point of this pipeline takes a 5000-row tile of the aggregated neighbour features and the
matching tile of the node features, the two 128x128 weight matrices and the bias row, and stores
agg_tile @ wl + x_tile @ wr + bias (the four matrix operands rounded to bf16, the products
accumulated in f32) over the whole output tile. Every input buffer is only read, so
each holds its array's block at every point; the output buffer is overwritten whole by one store, so
what it holds after the body is a function of the five input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input buffer holds its block whether or not it was just fetched

The two row tiles move with the grid point and are fetched at each one; the weights and the bias sit
at a constant block index and are fetched once. In both cases a buffer the body never writes still
holds the block its index names: an unfetched point has the index of the point before it. -/

section Inputs
variable {c : Dev nD} (dat : Dat τ (Elt F) Unit ℕ (UR sig nD τ) ℕ cfg0 c)

/-- The aggregated-features tile (window 0). -/
theorem aggTile0_of (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The node-features tile (window 1). -/
theorem xTile0_of (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- The neighbour weight matrix (window 2), resident across the grid. -/
theorem wl0_of (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- The root weight matrix (window 3), resident across the grid. -/
theorem wr0_of (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- The bias row (window 4), resident across the grid. -/
theorem bias0_of (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

end Inputs

/-! ## The rectangles the body touches: each buffer, whole -/

abbrev rowTile0 : Rect S5000x128 := Rect.unit (s := S5000x128) ![0, 0] S5000x128.size inb_S5000x128_S5000x128_0_0
abbrev weight0 : Rect S128x128 := Rect.unit (s := S128x128) ![0, 0] S128x128.size inb_S128x128_S128x128_0_0
abbrev biasRow0 : Rect S1x128 := Rect.unit (s := S1x128) ![0, 0] S1x128.size inb_S1x128_S1x128_0_0

/-! ## What the body leaves in the output buffer -/

/-- The output tile after the body: one store over the whole tile, of the payload
    agg @ wl + x @ wr + bias taken of the five loaded inputs. The arguments are the input buffers'
    contents in window order, which is the order the payload takes its loads: the aggregated tile
    (window 0), the node tile (window 1), wl (window 2), wr (window 3), the bias row (window 4). -/
def out0 (agg x : Vec F S5000x128 .f32) (wl wr : Vec F S128x128 .f32) (bias : Vec F S1x128 .f32) : Vec F S5000x128 .f32 :=
  View.canon [⟨rowTile0, k0_pay1 (View.ld agg rowTile0) (View.ld x rowTile0) (View.ld wl weight0) (View.ld wr weight0) (View.ld bias biasRow0)⟩]

/-- The one store is over the whole tile, so it covers every index of it. -/
theorem storeCovers0 (p : Vec F S5000x128 .f32) (y : S5000x128.Idx) :
    ∃ pc ∈ ([⟨rowTile0, p⟩] : List (View.Piece (Elt F) S5000x128 .f32)), y ∈ pc.1.set :=
  View.cover_of_tiled [⟨rowTile0, p⟩] S5000x128.size (by rfl) y

/-! ## The body's triple -/

set_option maxHeartbeats 1000000 in
/-- The kernel body on whole buffers: the five inputs at read contents agg, x, wl, wr, bias and the
    output at anything. It reads each input whole, reads the output buffer (a value it never uses) and
    stores the payload over the whole output; so it hands back the inputs as they were and the output
    at out0 of them. The printed function is its skeleton of loads and one store, which the symbolic
    executor runs; the store's cover turns the written buffer into the closed form. -/
theorem sound_kernel0 (c : Dev nD) (E : Set ℕ) (i : grid0.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (agg x : Vec F S5000x128 .f32) (wl wr : Vec F S128x128 .f32) (bias : Vec F S1x128 .f32) (K : PUnit → sProp 𝕄) :
    iprop(owns (c : Thread nD τ) arg1 fullShare agg ∗ owns (c : Thread nD τ) arg2 fullShare x
        ∗ owns (c : Thread nD τ) arg3 fullShare wl ∗ owns (c : Thread nD τ) arg4 fullShare wr
        ∗ owns (c : Thread nD τ) arg5 fullShare bias ∗ (∃ d, owns (c : Thread nD τ) arg6 fullShare d)
        ∗ (iprop(owns (c : Thread nD τ) arg1 fullShare agg ∗ owns (c : Thread nD τ) arg2 fullShare x
            ∗ owns (c : Thread nD τ) arg3 fullShare wl ∗ owns (c : Thread nD τ) arg4 fullShare wr
            ∗ owns (c : Thread nD τ) arg5 fullShare bias
            ∗ owns (c : Thread nD τ) arg6 fullShare (out0 agg x wl wr bias)) -∗ K ⟨⟩))
      ⊢ wp frame (wpE (defs₀ (F := F)) Variants.none c none) E
          (cc0__matmul_bn_kernel i arg1 harg1 arg2 harg2 arg3 harg3 arg4 harg4 arg5 harg5 arg6 harg6) K := by
  simp only [cc0__matmul_bn_kernel_eq_skeleton]; unfold cc0__matmul_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers0 _)

/-! ## The pipeline's proof data -/

/-- Pipeline 0 on core c: the arrays as the region finds them; after the body at point t every input
    buffer still at its block and the output buffer at out0 of the five input blocks; the invariant
    is the scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0 (iblk0 V c 0 t) (iblk0 V c 1 t) (iblk0 V c 2 t) (iblk0 V c 3 t) (iblk0 V c 4 t) := by dsimp only [dat0]

/-- What the body finds in each input buffer: its block, at every point. -/
theorem before0_0 (c : Dev nD) (t : Fin cfg0.N) (d) : (dat0 V c).before 0 t d = iblk0 V c 0 t :=
  aggTile0_of V (dat0 V c) (A_eq0 V c 0) (after0_0 V c) t d
theorem before0_1 (c : Dev nD) (t : Fin cfg0.N) (d) : (dat0 V c).before 1 t d = iblk0 V c 1 t :=
  xTile0_of V (dat0 V c) (A_eq0 V c 1) (after0_1 V c) t d
theorem before0_2 (c : Dev nD) (t : Fin cfg0.N) (d) : (dat0 V c).before 2 t d = iblk0 V c 2 t :=
  wl0_of V (dat0 V c) (A_eq0 V c 2) (after0_2 V c) t d
theorem before0_3 (c : Dev nD) (t : Fin cfg0.N) (d) : (dat0 V c).before 3 t d = iblk0 V c 3 t :=
  wr0_of V (dat0 V c) (A_eq0 V c 3) (after0_3 V c) t d
theorem before0_4 (c : Dev nD) (t : Fin cfg0.N) (d) : (dat0 V c).before 4 t d = iblk0 V c 4 t :=
  bias0_of V (dat0 V c) (A_eq0 V c 4) (after0_4 V c) t d

/-! ## The body obligation, at a generic point -/

/-- What the body is called with at point t: the invariant, the core's debt, and each window's
    current buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies at
    those five blocks; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Hand.K.Region1.lean ====
import proofs.«429563_j84585085928054_2_alg».proof.Proof.Gen.Kernel.Launch
import proofs.«429563_j84585085928054_2_alg».proof.Proof.Gen.Kernel.Skeleton
import proofs.«429563_j84585085928054_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The normalise-and-rectify call number 1, point by point, at given entry contents

The call walks the 50000x128 pre-activation array in ten row tiles of 5000x128. At each tile it reads the tile and
three 1x128 rows (the column means, the reciprocal standard deviations, the shifts), and writes
`max((pre - mean) * invstd + beta, 0)` over the whole output tile. This file states, for ANY contents `V` of the
core's buffers when the call is entered, what each staging buffer holds before and after the body at every tile, and
proves the body's Hoare triple there. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the windows show -/

/-- Window `w`'s block at tile `t`, read off its array as the call finds it (`V`): for window 0 rows
    `5000 t … 5000 t + 4999` of the pre-activations; for windows 1, 2, 3 the whole mean, invstd and beta row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pre-activation tile's staging buffer holds tile `t` when the body runs: it is fetched afresh at every tile,
    and for any proof data over `V`'s array whose body leaves the tile in place that fetch is what `before` is. -/
theorem before1_pre_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mean row's staging buffer holds the row at every tile. Its block index is constant, so it is fetched at the
    first tile only; at a later tile the index has not moved and the body left the row in place, so the buffer still
    holds what a fetch there would bring. -/
theorem before1_mean_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reciprocal-standard-deviation row's staging buffer holds the row at every tile (as for the mean row). -/
theorem before1_invstd_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The shift row's staging buffer holds the row at every tile (as for the mean row). -/
theorem before1_beta_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 tile: what the body loads of the pre-activation buffer and stores of the output buffer. -/
abbrev tile1 : Rect S5000x128 := Rect.unit (s := S5000x128) ![0, 0] S5000x128.size inb_S5000x128_S5000x128_0_0

/-- The whole 1x128 row: what the body loads of each of the three row buffers. -/
abbrev row1 : Rect S1x128 := Rect.unit (s := S1x128) ![0, 0] S1x128.size inb_S1x128_S1x128_0_0

/-! ## What the body leaves in the output buffer -/

/-- The output tile's staging buffer after the body, from the four input buffers, in window order:
    `x0` the pre-activation tile (window 0), `x1` the mean row (window 1), `x2` the invstd row (window 2),
    `x3` the beta row (window 3) — the order in which the body loads them and the payload takes them.
    One store of the whole tile, of `max((x0 - x1) * x2 + x3, 0)` with the rows broadcast down the tile. -/
def out1 (x0 : Vec F S5000x128 .f32) (x1 : Vec F S1x128 .f32) (x2 : Vec F S1x128 .f32) (x3 : Vec F S1x128 .f32) : Vec F S5000x128 .f32 :=
  View.canon [⟨tile1, k1_pay1 (View.ld x0 tile1) (View.ld x1 row1) (View.ld x2 row1) (View.ld x3 row1)⟩]

/-- That one store is of the whole tile, so it covers the buffer. -/
theorem out1_cover (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

/-! ## The body's triple -/

set_option maxHeartbeats 1000000 in
/-- The body on whole staging memrefs — the four inputs' at contents `x0 … x3`, the output's at anything — runs to a
    continuation that holds the inputs' as they were and the output's at `out1 x0 x1 x2 x3`. The printed function is
    its skeleton: four loads of the inputs, a load of the output buffer whose value is dropped, and one store of the
    payload over the whole output buffer; a buffer written through one whole-buffer store reads back as that piece. -/
theorem bnRelu1_triple (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1 x0 x1 x2 x3)) -∗ K ⟨⟩))
      ⊢ wp frame (wpE (defs₀ (F := F)) Variants.none c none) E (cc1__bn_relu_kernel i arg0 harg0 arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out1_cover _)

/-! ## The call's proof data -/

/-- The proof data of the call on core `c`: the arrays as the call finds them (`V`); after the body at tile `t` the
    pre-activation buffer at tile `t` and the three row buffers at their rows (the body writes none of them), the output
    buffer at `out1` of those four; the invariant that the scoped rest and the generator register are untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

/-- Each input's current staging buffer holds its block at every tile, fetched there or not. -/
theorem before1_pre (c : Dev nD) (t : Fin cfg1.N) (d) : (dat1 V c).before 0 t d = iblk1 V c 0 t :=
  before1_pre_of V (dat1 V c) (A_eq1 V c 0) (after1_0 V c) t d
theorem before1_mean (c : Dev nD) (t : Fin cfg1.N) (d) : (dat1 V c).before 1 t d = iblk1 V c 1 t :=
  before1_mean_of V (dat1 V c) (A_eq1 V c 1) (after1_1 V c) t d
theorem before1_invstd (c : Dev nD) (t : Fin cfg1.N) (d) : (dat1 V c).before 2 t d = iblk1 V c 2 t :=
  before1_invstd_of V (dat1 V c) (A_eq1 V c 2) (after1_2 V c) t d
theorem before1_beta (c : Dev nD) (t : Fin cfg1.N) (d) : (dat1 V c).before 3 t d = iblk1 V c 3 t :=
  before1_beta_of V (dat1 V c) (A_eq1 V c 3) (after1_3 V c) t d

/-! ## The body obligation, at a generic tile -/

/-- What the body is called with at tile `t`, the windows one by one, -/
def bnRelu1Pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bnRelu1Post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' memrefs hold their blocks, so the triple applies; the invariant and the core's
    debts pass through unread. -/
theorem bnRelu1_at_point (c : Dev nD) (t : Fin cfg1.N) :
    bnRelu1Pre V c t ⊢ wp frame (wpE (defs₀ (F := F)) Variants.none c none) Set.univ (bodyAt1 t) (fun _ => bnRelu1Post V c t) := by
  unfold bnRelu1Pre bnRelu1Post bodyAt1
  simp only [before1_pre, before1_mean, before1_invstd, before1_beta]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (bnRelu1_triple c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation1 (c : Dev nD) : BodyObligation (dat1 (F := F) V c) (defs₀ (F := F)) Variants.none () Set.univ := fun t => by
  rw [bigSep_W1, bigSep_W1]
  exact bnRelu1_at_point V c t

end Cert.Kernel.Hand

end
-- ==== Proof.Hand.K.Region2.lean ====
import proofs.«429563_j84585085928054_2_alg».proof.Proof.Gen.Kernel.Launch
import proofs.«429563_j84585085928054_2_alg».proof.Proof.Gen.Kernel.Skeleton
import proofs.«429563_j84585085928054_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The second SAGE layer's linear step (pipeline 2), at the contents the region is entered with

One grid point of this pipeline takes a 5000-row tile of the neighbour mean of the first layer's
activations and the matching tile of those activations themselves, the second layer's two 128x128
weight matrices and its bias row, and stores agg_tile @ wl + h_tile @ wr + bias (the four matrix operands rounded to bf16, the products
accumulated in f32) over the whole output tile. Every input buffer is only read, so
each holds its array's block at every point; the output buffer is overwritten whole by one store, so
what it holds after the body is a function of the five input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input buffer holds its block whether or not it was just fetched

The two row tiles move with the grid point and are fetched at each one; the weights and the bias sit
at a constant block index and are fetched once. In both cases a buffer the body never writes still
holds the block its index names: an unfetched point has the index of the point before it. -/

section Inputs
variable {c : Dev nD} (dat : Dat τ (Elt F) Unit ℕ (UR sig nD τ) ℕ cfg2 c)

/-- The tile of aggregated first-layer activations (window 0). -/
theorem aggTile2_of (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- The tile of first-layer activations (window 1). -/
theorem hTile2_of (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-- The neighbour weight matrix (window 2), resident across the grid. -/
theorem wl2_of (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

/-- The root weight matrix (window 3), resident across the grid. -/
theorem wr2_of (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

/-- The bias row (window 4), resident across the grid. -/
theorem bias2_of (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

end Inputs

/-! ## The rectangles the body touches: each buffer, whole -/

abbrev rowTile2 : Rect S5000x128 := Rect.unit (s := S5000x128) ![0, 0] S5000x128.size inb_S5000x128_S5000x128_0_0
abbrev weight2 : Rect S128x128 := Rect.unit (s := S128x128) ![0, 0] S128x128.size inb_S128x128_S128x128_0_0
abbrev biasRow2 : Rect S1x128 := Rect.unit (s := S1x128) ![0, 0] S1x128.size inb_S1x128_S1x128_0_0

/-! ## What the body leaves in the output buffer -/

/-- The output tile after the body: one store over the whole tile, of the payload
    agg @ wl + h @ wr + bias taken of the five loaded inputs. The arguments are the input buffers'
    contents in window order, which is the order the payload takes its loads: the aggregated tile
    (window 0), the activations tile (window 1), wl (window 2), wr (window 3), the bias row (window 4). -/
def out2 (agg x : Vec F S5000x128 .f32) (wl wr : Vec F S128x128 .f32) (bias : Vec F S1x128 .f32) : Vec F S5000x128 .f32 :=
  View.canon [⟨rowTile2, k2_pay1 (View.ld agg rowTile2) (View.ld x rowTile2) (View.ld wl weight2) (View.ld wr weight2) (View.ld bias biasRow2)⟩]

/-- The one store is over the whole tile, so it covers every index of it. -/
theorem storeCovers2 (p : Vec F S5000x128 .f32) (y : S5000x128.Idx) :
    ∃ pc ∈ ([⟨rowTile2, p⟩] : List (View.Piece (Elt F) S5000x128 .f32)), y ∈ pc.1.set :=
  View.cover_of_tiled [⟨rowTile2, p⟩] S5000x128.size (by rfl) y

/-! ## The body's triple -/

set_option maxHeartbeats 1000000 in
/-- The kernel body on whole buffers: the five inputs at read contents agg, x, wl, wr, bias and the
    output at anything. It reads each input whole, reads the output buffer (a value it never uses) and
    stores the payload over the whole output; so it hands back the inputs as they were and the output
    at out2 of them. The printed function is its skeleton of loads and one store, which the symbolic
    executor runs; the store's cover turns the written buffer into the closed form. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (agg x : Vec F S5000x128 .f32) (wl wr : Vec F S128x128 .f32) (bias : Vec F S1x128 .f32) (K : PUnit → sProp 𝕄) :
    iprop(owns (c : Thread nD τ) arg1 fullShare agg ∗ owns (c : Thread nD τ) arg2 fullShare x
        ∗ owns (c : Thread nD τ) arg3 fullShare wl ∗ owns (c : Thread nD τ) arg4 fullShare wr
        ∗ owns (c : Thread nD τ) arg5 fullShare bias ∗ (∃ d, owns (c : Thread nD τ) arg6 fullShare d)
        ∗ (iprop(owns (c : Thread nD τ) arg1 fullShare agg ∗ owns (c : Thread nD τ) arg2 fullShare x
            ∗ owns (c : Thread nD τ) arg3 fullShare wl ∗ owns (c : Thread nD τ) arg4 fullShare wr
            ∗ owns (c : Thread nD τ) arg5 fullShare bias
            ∗ owns (c : Thread nD τ) arg6 fullShare (out2 agg x wl wr bias)) -∗ K ⟨⟩))
      ⊢ wp frame (wpE (defs₀ (F := F)) Variants.none c none) E
          (cc2__matmul_bn_kernel i arg1 harg1 arg2 harg2 arg3 harg3 arg4 harg4 arg5 harg5 arg6 harg6) K := by
  simp only [cc2__matmul_bn_kernel_eq_skeleton]; unfold cc2__matmul_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers2 _)

/-! ## The pipeline's proof data -/

/-- Pipeline 2 on core c: the arrays as the region finds them; after the body at point t every input
    buffer still at its block and the output buffer at out2 of the five input blocks; the invariant
    is the scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- Its arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

/-- What the body finds in each input buffer: its block, at every point. -/
theorem before2_0 (c : Dev nD) (t : Fin cfg2.N) (d) : (dat2 V c).before 0 t d = iblk2 V c 0 t :=
  aggTile2_of V (dat2 V c) (A_eq2 V c 0) (after2_0 V c) t d
theorem before2_1 (c : Dev nD) (t : Fin cfg2.N) (d) : (dat2 V c).before 1 t d = iblk2 V c 1 t :=
  hTile2_of V (dat2 V c) (A_eq2 V c 1) (after2_1 V c) t d
theorem before2_2 (c : Dev nD) (t : Fin cfg2.N) (d) : (dat2 V c).before 2 t d = iblk2 V c 2 t :=
  wl2_of V (dat2 V c) (A_eq2 V c 2) (after2_2 V c) t d
theorem before2_3 (c : Dev nD) (t : Fin cfg2.N) (d) : (dat2 V c).before 3 t d = iblk2 V c 3 t :=
  wr2_of V (dat2 V c) (A_eq2 V c 3) (after2_3 V c) t d
theorem before2_4 (c : Dev nD) (t : Fin cfg2.N) (d) : (dat2 V c).before 4 t d = iblk2 V c 4 t :=
  bias2_of V (dat2 V c) (A_eq2 V c 4) (after2_4 V c) t d

/-! ## The body obligation, at a generic point -/

/-- What the body is called with at point t: the invariant, the core's debt, and each window's
    current buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies at
    those five blocks; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Hand.K.Region3.lean ====
import proofs.«429563_j84585085928054_2_alg».proof.Proof.Gen.Kernel.Launch
import proofs.«429563_j84585085928054_2_alg».proof.Proof.Gen.Kernel.Skeleton
import proofs.«429563_j84585085928054_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The normalise-and-rectify call number 3, point by point, at given entry contents

The call walks the 50000x128 pre-activation array in ten row tiles of 5000x128. At each tile it reads the tile and
three 1x128 rows (the column means, the reciprocal standard deviations, the shifts), and writes
`max((pre - mean) * invstd + beta, 0)` over the whole output tile. This file states, for ANY contents `V` of the
core's buffers when the call is entered, what each staging buffer holds before and after the body at every tile, and
proves the body's Hoare triple there. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the windows show -/

/-- Window `w`'s block at tile `t`, read off its array as the call finds it (`V`): for window 0 rows
    `5000 t … 5000 t + 4999` of the pre-activations; for windows 1, 2, 3 the whole mean, invstd and beta row. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pre-activation tile's staging buffer holds tile `t` when the body runs: it is fetched afresh at every tile,
    and for any proof data over `V`'s array whose body leaves the tile in place that fetch is what `before` is. -/
theorem before3_pre_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The mean row's staging buffer holds the row at every tile. Its block index is constant, so it is fetched at the
    first tile only; at a later tile the index has not moved and the body left the row in place, so the buffer still
    holds what a fetch there would bring. -/
theorem before3_mean_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The reciprocal-standard-deviation row's staging buffer holds the row at every tile (as for the mean row). -/
theorem before3_invstd_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The shift row's staging buffer holds the row at every tile (as for the mean row). -/
theorem before3_beta_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 tile: what the body loads of the pre-activation buffer and stores of the output buffer. -/
abbrev tile3 : Rect S5000x128 := Rect.unit (s := S5000x128) ![0, 0] S5000x128.size inb_S5000x128_S5000x128_0_0

/-- The whole 1x128 row: what the body loads of each of the three row buffers. -/
abbrev row3 : Rect S1x128 := Rect.unit (s := S1x128) ![0, 0] S1x128.size inb_S1x128_S1x128_0_0

/-! ## What the body leaves in the output buffer -/

/-- The output tile's staging buffer after the body, from the four input buffers, in window order:
    `x0` the pre-activation tile (window 0), `x1` the mean row (window 1), `x2` the invstd row (window 2),
    `x3` the beta row (window 3) — the order in which the body loads them and the payload takes them.
    One store of the whole tile, of `max((x0 - x1) * x2 + x3, 0)` with the rows broadcast down the tile. -/
def out3 (x0 : Vec F S5000x128 .f32) (x1 : Vec F S1x128 .f32) (x2 : Vec F S1x128 .f32) (x3 : Vec F S1x128 .f32) : Vec F S5000x128 .f32 :=
  View.canon [⟨tile3, k3_pay1 (View.ld x0 tile3) (View.ld x1 row3) (View.ld x2 row3) (View.ld x3 row3)⟩]

/-- That one store is of the whole tile, so it covers the buffer. -/
theorem out3_cover (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

/-! ## The body's triple -/

set_option maxHeartbeats 1000000 in
/-- The body on whole staging memrefs — the four inputs' at contents `x0 … x3`, the output's at anything — runs to a
    continuation that holds the inputs' as they were and the output's at `out3 x0 x1 x2 x3`. The printed function is
    its skeleton: four loads of the inputs, a load of the output buffer whose value is dropped, and one store of the
    payload over the whole output buffer; a buffer written through one whole-buffer store reads back as that piece. -/
theorem bnRelu3_triple (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3 x0 x1 x2 x3)) -∗ K ⟨⟩))
      ⊢ wp frame (wpE (defs₀ (F := F)) Variants.none c none) E (cc3__bn_relu_kernel i arg0 harg0 arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out3_cover _)

/-! ## The call's proof data -/

/-- The proof data of the call on core `c`: the arrays as the call finds them (`V`); after the body at tile `t` the
    pre-activation buffer at tile `t` and the three row buffers at their rows (the body writes none of them), the output
    buffer at `out3` of those four; the invariant that the scoped rest and the generator register are untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

/-- Each input's current staging buffer holds its block at every tile, fetched there or not. -/
theorem before3_pre (c : Dev nD) (t : Fin cfg3.N) (d) : (dat3 V c).before 0 t d = iblk3 V c 0 t :=
  before3_pre_of V (dat3 V c) (A_eq3 V c 0) (after3_0 V c) t d
theorem before3_mean (c : Dev nD) (t : Fin cfg3.N) (d) : (dat3 V c).before 1 t d = iblk3 V c 1 t :=
  before3_mean_of V (dat3 V c) (A_eq3 V c 1) (after3_1 V c) t d
theorem before3_invstd (c : Dev nD) (t : Fin cfg3.N) (d) : (dat3 V c).before 2 t d = iblk3 V c 2 t :=
  before3_invstd_of V (dat3 V c) (A_eq3 V c 2) (after3_2 V c) t d
theorem before3_beta (c : Dev nD) (t : Fin cfg3.N) (d) : (dat3 V c).before 3 t d = iblk3 V c 3 t :=
  before3_beta_of V (dat3 V c) (A_eq3 V c 3) (after3_3 V c) t d

/-! ## The body obligation, at a generic tile -/

/-- What the body is called with at tile `t`, the windows one by one, -/
def bnRelu3Pre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bnRelu3Post (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any tile: the inputs' memrefs hold their blocks, so the triple applies; the invariant and the core's
    debts pass through unread. -/
theorem bnRelu3_at_point (c : Dev nD) (t : Fin cfg3.N) :
    bnRelu3Pre V c t ⊢ wp frame (wpE (defs₀ (F := F)) Variants.none c none) Set.univ (bodyAt3 t) (fun _ => bnRelu3Post V c t) := by
  unfold bnRelu3Pre bnRelu3Post bodyAt3
  simp only [before3_pre, before3_mean, before3_invstd, before3_beta]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (bnRelu3_triple c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation3 (c : Dev nD) : BodyObligation (dat3 (F := F) V c) (defs₀ (F := F)) Variants.none () Set.univ := fun t => by
  rw [bigSep_W3, bigSep_W3]
  exact bnRelu3_at_point V c t

end Cert.Kernel.Hand

end
-- ==== Proof.Hand.K.Region4.Base.lean ====
import proofs.«429563_j84585085928054_2_alg».proof.Proof.Gen.Kernel.Launch
import proofs.«429563_j84585085928054_2_alg».proof.Proof.Gen.Kernel.Skeleton
import proofs.«429563_j84585085928054_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The pooling pipeline (pipeline 4): what its three kinds of grid point share

The grid has 25 points, each taking a 2000-row tile of the node features and the matching tile of graph
ids. A 512x128 accumulator lives beside the staging buffers for the whole grid: the first point zeroes
it, every point adds onehot(ids)ᵀ @ tile into it, and the last point alone turns it into the output —
the per-graph mean scaled through the final linear layer and the logistic. So a point is of one of three
kinds (first; neither first nor last; last), told apart by two comparisons of the grid coordinate, and
the output window is written — and written back — at the last point only. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two comparisons, in closed form over the grid -/

/-- "This is the first point": the guard of the zeroing store, as the body computes it from the coordinate. -/
abbrev isFirst4 (i : grid4.Coords) : Prop :=
  (Scalar.cmpi .ne (Scalar.extui (Scalar.cmpi .eq (BitVec.ofNat 32 (i 0).val) 0#32)) 0#32) = 1#1
/-- It holds at point 0 and nowhere else. -/
theorem isFirst4_iff : ∀ t : Fin cfg4.N, isFirst4 (grid4.coords t) ↔ t.val = 0 :=
  (by decide +kernel : ∀ t : Fin grid4.N, isFirst4 (grid4.coords t) ↔ t.val = 0)

/-- "This is the last point": the guard of the output store. -/
abbrev isLast4 (i : grid4.Coords) : Prop := k4_cond2 i = 1#1
/-- It holds at point 24 and nowhere else. -/
theorem isLast4_iff : ∀ t : Fin cfg4.N, isLast4 (grid4.coords t) ↔ t.val = 24 :=
  (by decide +kernel : ∀ t : Fin grid4.N, isLast4 (grid4.coords t) ↔ t.val = 24)

/-! ## Where the output window is idle -/

/-- Off the last point the output window is idle: the body stores nothing into it there, -/
theorem outIdle4 : ∀ t : Fin cfg4.N, ¬isLast4 (grid4.coords t) → cfg4.idle 5 (grid4.coords t) = true := by decide +kernel
/-- and the pipeline does not write its block back there. -/
theorem outNoFlush4 : ∀ t : Fin cfg4.N, ¬isLast4 (grid4.coords t) → (cfg4.win 5).flush t = false := by decide +kernel
/-- At the last point it is live. -/
theorem outLive4 : ∀ t : Fin cfg4.N, isLast4 (grid4.coords t) → cfg4.idle 5 (grid4.coords t) = false := by decide +kernel

/-! ## The buffers the body is called on -/

/-- Each window's current staging buffer at point t, as the pipeline passes it, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x2 .f32 := win4_5.stage (cfg4.slots t 5)
abbrev hs4_5 (t : Fin cfg4.N) : (ms4_5 t).IsWhole := hstage4_5 ((cfg4.slots t 5).cast nbuf4_5)

/-- The accumulator: a whole scoped buffer of the kernel's own, passed beside the windows at every point. -/
abbrev accM4 : Memref sig .tc .vmem S512x128 .f32 := Memref.whole cc4_scratch0

/-- The rectangles the body loads and stores through: each buffer, whole. -/
abbrev accRect4 : Rect S512x128 := Rect.unit (s := S512x128) ![0, 0] S512x128.size inb_S512x128_S512x128_0_0
abbrev featRect4 : Rect S2000x128 := Rect.unit (s := S2000x128) ![0, 0] S2000x128.size inb_S2000x128_S2000x128_0_0
abbrev idRect4 : Rect S2000x1 := Rect.unit (s := S2000x1) ![0, 0] S2000x1.size inb_S2000x1_S2000x1_0_0
abbrev invRect4 : Rect S512x1 := Rect.unit (s := S512x1) ![0, 0] S512x1.size inb_S512x1_S512x1_0_0
abbrev linRect4 : Rect S128x2 := Rect.unit (s := S128x2) ![0, 0] S128x2.size inb_S128x2_S128x2_0_0
abbrev biasRect4 : Rect S1x2 := Rect.unit (s := S1x2) ![0, 0] S1x2.size inb_S1x2_S1x2_0_0
abbrev outRect4 : Rect S512x2 := Rect.unit (s := S512x2) ![0, 0] S512x2.size inb_S512x2_S512x2_0_0

/-- The offsets of all of them are zero. -/
theorem zeroOff4 : (![0, 0] : Fin 2 → Nat) = fun _ => 0 := by funext a; fin_cases a <;> rfl

/-! ## The region invariant with the accumulator taken out

What the region is entered with — every scoped buffer that is no staging buffer at some contents, and
the generator register at some state — is the accumulator at some contents beside all the others, which
the body never touches and which are carried along unopened. -/

/-- The scoped buffers other than the accumulator (and the staging buffers), unopened. -/
abbrev otherScoped4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) accM4 fullShare d)) ∗ otherScoped4 c) ∗ (∃ r, prngReg c r)) := by
  unfold Pipeline.ΦA; rw [scopedRest4_split]; simp only [accM4, owns_whole]; try rfl

end Cert.Kernel.Hand

end
-- ==== Proof.Hand.K.Region4.RunA.lean ====
import proofs.«429563_j84585085928054_2_alg».proof.Proof.Hand.K.Region4.Base
import Idealize.ShloMosaic.Lib.Pipeline.Value

/-! # The pooling body at the first grid point

The accumulator is at whatever the region was entered with. The body zeroes it, then does what it does at
every point: accumulator += onehot(ids)ᵀ @ tile, a load of what the zeroing store has just left followed by a
store of the sum over the whole accumulator. So it ends at the first tiles' product added to the zeros. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: whatever the accumulator held, the body stores zeros over it whole, then — as at every
    point — loads the feature tile (x0), the id tile (x1) and the accumulator (now the zeros), and stores the
    one-hot product of the tiles added to those zeros back over it; it touches nothing else. -/
theorem run4_first (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : isFirst4 i) (hlast : ¬isLast4 i)
    (x0 : Vec F S2000x128 .f32) (x1 : Vec F S2000x1 .i32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1 ∗ owns (c : Thread nD τ) arg7 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons.mpr (Or.inl rfl), View.mem_set_unit_zero zeroOff4 inb_S512x128_S512x128_0_0 y⟩),
    View.canon_cons_unit_zero (S := S512x128) zeroOff4]
  simp only [View.readAt_eq_ld, Memref.IsWhole.read_unread, View.ld_unit_zero (S := S2000x128) zeroOff4,
    View.ld_unit_zero (S := S2000x1) zeroOff4, View.readCov_unit_zero (S := S512x128) _ zeroOff4]

end Cert.Kernel.Hand

end
-- ==== Proof.Hand.K.Region4.RunB.lean ====
import proofs.«429563_j84585085928054_2_alg».proof.Proof.Hand.K.Region4.RunA

/-! # The pooling body at a grid point that is neither first nor last

No guard fires: the body only does accumulator += onehot(ids)ᵀ @ tile, over the accumulator as the point
before left it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that is neither first nor last: with the feature tile at x0, the id tile at x1 and the
    accumulator at xs, the body loads all three, adds the one-hot product of the two tiles to the
    accumulator and stores the sum back over it whole; it touches nothing else. -/
theorem run4_mid (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : ¬isFirst4 i) (hlast : ¬isLast4 i)
    (x0 : Vec F S2000x128 .f32) (x1 : Vec F S2000x1 .i32) (xs : Vec F S512x128 .f32) (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1 ∗ owns (c : Thread nD τ) arg7 fullShare (k4_pay2 x0 x1 xs)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  rw [View.read_writes_eq_canon _ _ _ (fun y => ⟨_, List.mem_singleton_self _, View.mem_set_unit_zero zeroOff4 inb_S512x128_S512x128_0_0 y⟩),
    View.canon_unit_zero zeroOff4]
  simp only [View.readAt_eq_ld, Memref.IsWhole.read_unread, View.ld_unit_zero (S := S2000x128) zeroOff4,
    View.ld_unit_zero (S := S2000x1) zeroOff4, View.ld_unit_zero (S := S512x128) zeroOff4]

end Cert.Kernel.Hand

end
-- ==== Proof.Hand.K.Region4.RunC.lean ====
import proofs.«429563_j84585085928054_2_alg».proof.Proof.Hand.K.Region4.RunB

/-! # The pooling body at the last grid point

After the accumulation every point does, the guard of the output store fires: the body reads the accumulator
back — the sum it has just stored —, scales each graph's row by that graph's inverse node count, applies the
final linear layer with its bias and the logistic, and stores the result over the whole output buffer. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: after the same accumulation as at every point, the body loads the accumulator back (it
    reads the sum it has just stored), the inverse counts (x2), the linear layer (x3) and its bias (x4), and
    stores logistic((sum * inverse counts) @ layer + bias) over the whole output buffer, whatever that held. -/
theorem run4_last (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : ¬isFirst4 i) (hlast : isLast4 i)
    (x0 : Vec F S2000x128 .f32) (x1 : Vec F S2000x1 .i32) (x2 : Vec F S512x1 .f32) (x3 : Vec F S128x2 .f32) (x4 : Vec F S1x2 .f32)
    (xs : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay3 (k4_pay2 x0 x1 xs) x2 x3 x4)
            ∗ owns (c : Thread nD τ) arg7 fullShare (k4_pay2 x0 x1 xs)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_singleton_self _, View.mem_set_unit_zero zeroOff4 inb_S512x2_S512x2_0_0 y⟩),
      View.canon_unit_zero (S := S512x2) zeroOff4]
    simp only [View.readAt_eq_ld, Memref.IsWhole.read_unread, View.readCov_unit_zero (S := S512x128) _ zeroOff4,
      View.ld_unit_zero (S := S2000x128) zeroOff4, View.ld_unit_zero (S := S2000x1) zeroOff4, View.ld_unit_zero (S := S512x128) zeroOff4,
      View.ld_unit_zero (S := S512x1) zeroOff4, View.ld_unit_zero (S := S128x2) zeroOff4, View.ld_unit_zero (S := S1x2) zeroOff4]
  iexists _; isplitr
  swap; · iexact HS
  ipureintro
  sl_unfold_words
  rw [View.read_writes_eq_canon _ _ _ (fun y => ⟨_, List.mem_singleton_self _, View.mem_set_unit_zero zeroOff4 inb_S512x128_S512x128_0_0 y⟩),
    View.canon_unit_zero (S := S512x128) zeroOff4]
  simp only [View.readAt_eq_ld, Memref.IsWhole.read_unread, View.ld_unit_zero (S := S2000x128) zeroOff4,
    View.ld_unit_zero (S := S2000x1) zeroOff4, View.ld_unit_zero (S := S512x128) zeroOff4]

end Cert.Kernel.Hand

end
-- ==== Proof.Hand.K.Region4.lean ====
import proofs.«429563_j84585085928054_2_alg».proof.Proof.Hand.K.Region4.RunC

/-! # The pooling pipeline (pipeline 4): its proof data and its body obligation

Entered with its arrays at given contents, the pipeline runs 25 points. The five input windows are only
read: each buffer holds its array's block at every point. The accumulator — a buffer of the kernel's own,
not a window — carries the running per-graph sums from point to point: what it holds after each point is
a recursion on the point, from the zeros the first point stores. The output window is idle until the last
point, which alone stores into it (and alone has it written back): the pooled means through the final
linear layer and the logistic. The region invariant says what the accumulator holds between points; on
entry and on exit it is the plain one, the accumulator at anything. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the contents the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The last grid point. -/
theorem lastLt4 : 24 < cfg4.N := by decide
abbrev lastPt4 : Fin cfg4.N := ⟨24, lastLt4⟩

/-! ## What the accumulator holds after each point

After point 0: the one-hot product of the first tiles added to the zeros the point has just stored.
After point n + 1: the product of that point's tiles added to what point n left. -/

def acc4 (c : Dev nD) : (n : ℕ) → n < cfg4.N → Vec F S512x128 .f32
  | 0, h0 => k4_pay2 (iblk4 V c 0 ⟨0, h0⟩) (iblk4 V c 1 ⟨0, h0⟩) (k4_pay1 (F := F))
  | n + 1, hn => k4_pay2 (iblk4 V c 0 ⟨n + 1, hn⟩) (iblk4 V c 1 ⟨n + 1, hn⟩) (acc4 c n (Nat.lt_of_succ_lt hn))

theorem acc4_zero (c : Dev nD) (h0 : 0 < cfg4.N) :
    acc4 V c 0 h0 = k4_pay2 (iblk4 V c 0 ⟨0, h0⟩) (iblk4 V c 1 ⟨0, h0⟩) (k4_pay1 (F := F)) := rfl

theorem acc4_succ (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- At the first point, in the form the body's run leaves it. -/
theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- At a later point, over what the point before left. -/
theorem acc4_later (c : Dev nD) (t : Fin cfg4.N) (h0 : t.val ≠ 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-- What the last point stores over the output buffer: the accumulated sums scaled by the inverse counts, through
    the final linear layer, its bias and the logistic. -/
def out4 (c : Dev nD) : Vec F S512x2 .f32 :=
  k4_pay3 (acc4 V c 24 lastLt4) (iblk4 V c 2 lastPt4) (iblk4 V c 3 lastPt4) (iblk4 V c 4 lastPt4)

/-! ## The invariant between points -/

/-- Before point n: at the first point what the region is entered with (the accumulator at anything); afterwards the
    accumulator at what the point before left, beside the untouched scoped buffers and the generator register. -/
def Phi4 (c : Dev nD) : (n : ℕ) → n ≤ cfg4.N → sProp 𝕄
  | 0, _ => Pipeline.ΦA spec4 c
  | n + 1, hn => iprop(iprop(owns (c : Thread nD τ) accM4 fullShare (acc4 V c n hn) ∗ otherScoped4 c) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) accM4 fullShare (acc4 V c n hn) ∗ otherScoped4 c) ∗ (∃ r, prngReg c r)) := rfl

theorem Phi4_pos (c : Dev nD) (n : ℕ) (h : n ≤ cfg4.N) (hz : n ≠ 0) :
    Phi4 V c n h = iprop(iprop(owns (c : Thread nD τ) accM4 fullShare (acc4 V c (n - 1) (by omega)) ∗ otherScoped4 c) ∗ (∃ r, prngReg c r)) := by
  cases n with
  | zero => exact absurd rfl hz
  | succ n => rfl

/-! ## The pipeline's proof data -/

/-- The arrays as the region finds them; after the body each input buffer still at its block, the output buffer at
    the last point's store (at the other points it is idle, and the entry there is never consulted); the invariant
    above; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 V c
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 V c := by dsimp only [dat4]

theorem after4_5_last (c : Dev nD) (t : Fin cfg4.N) (ht : t.val = 24) : (dat4 V c).after 5 t = out4 V c := after4_5 V c t

/-! ## An input buffer holds its block whether or not it was just fetched

The two tiles move with the grid point and are fetched at each one; the inverse counts, the linear layer and its
bias sit at a constant block index and are fetched once. A buffer the body never writes still holds the block its
index names: an unfetched point has the index of the point before it. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

/-! ## What the body hands back, window by window -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel

/-- An input window is live at every point: its buffer goes back at the block the body left in place. -/
theorem leaves4_0 (c : Dev nD) (t : Fin cfg4.N) :
    (dat4 V c).leavesExact 0 t = owns (c : Thread nD τ) (ms4_0 t) fullShare (iblk4 V c 0 t) := by
  unfold Dat.leavesExact; rw [live4_0 t, after4_0]
theorem leaves4_1 (c : Dev nD) (t : Fin cfg4.N) :
    (dat4 V c).leavesExact 1 t = owns (c : Thread nD τ) (ms4_1 t) fullShare (iblk4 V c 1 t) := by
  unfold Dat.leavesExact; rw [live4_1 t, after4_1]
theorem leaves4_2 (c : Dev nD) (t : Fin cfg4.N) :
    (dat4 V c).leavesExact 2 t = owns (c : Thread nD τ) (ms4_2 t) fullShare (iblk4 V c 2 t) := by
  unfold Dat.leavesExact; rw [live4_2 t, after4_2]
theorem leaves4_3 (c : Dev nD) (t : Fin cfg4.N) :
    (dat4 V c).leavesExact 3 t = owns (c : Thread nD τ) (ms4_3 t) fullShare (iblk4 V c 3 t) := by
  unfold Dat.leavesExact; rw [live4_3 t, after4_3]
theorem leaves4_4 (c : Dev nD) (t : Fin cfg4.N) :
    (dat4 V c).leavesExact 4 t = owns (c : Thread nD τ) (ms4_4 t) fullShare (iblk4 V c 4 t) := by
  unfold Dat.leavesExact; rw [live4_4 t, after4_4]

/-- The output window at the last point, where it is live: its buffer goes back at the point's store. -/
theorem leaves4_5_last (c : Dev nD) (t : Fin cfg4.N) (h : isLast4 (grid4.coords t)) :
    (dat4 V c).leavesExact 5 t = owns (c : Thread nD τ) (ms4_5 t) fullShare (out4 V c) := by
  unfold Dat.leavesExact; rw [outLive4 t h, after4_5]

/-- The last point's store, over that point's own blocks. -/
theorem out4_last (c : Dev nD) (t : Fin cfg4.N) (hl : t.val = 24) :
    out4 V c = k4_pay3 (acc4 V c t.val t.isLt) (iblk4 V c 2 t) (iblk4 V c 3 t) (iblk4 V c 4 t) := by
  have e : t = lastPt4 := Fin.ext hl
  subst e; rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The input buffers hold their blocks; the point is first, last or neither, and that
    kind's run applies. The invariant hands the body the accumulator — at anything at the first point, else at
    what the point before left — and takes it back at this point's sum; the other scoped buffers and the
    generator register pass through untouched; the core owes nothing throughout. Off the last point the output
    buffer goes back as it came; at the last point it goes back at the store. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4]
  have hN : t.val < 25 := lt_of_lt_of_eq t.isLt (show cfg4.N = 25 from N_4)
  by_cases h0 : t.val = 0
  · have hl : ¬t.val = 24 := by omega
    rw [Dat.leavesExact_idle (dat4 V c) 5 t (outIdle4 t (fun h => hl ((isLast4_iff t).mp h))) (outNoFlush4 t (fun h => hl ((isLast4_iff t).mp h)))]
    rw [acc4_first V c t h0]
    rw [Phi4_castSucc V c t, Phi4_zero V c _ _ h0, PhiA4_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run4_first c (grid4.coords t) _ _ _ _ _ _ _ _ _ _ _ _ _ _ ((isFirst4_iff t).mpr h0) (fun h => hl ((isLast4_iff t).mp h))
      (iblk4 V c 0 t) (iblk4 V c 1 t) Set.univ _)
    isplitl [H0]; · iexact H0
    isplitl [H1]; · iexact H1
    isplitl [HS]; · iexact HS
    iintro ⟨H0, H1, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases hl : t.val = 24
    · rw [leaves4_5_last V c t ((isLast4_iff t).mpr hl)]
      rw [out4_last V c t hl, acc4_later V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_last c (grid4.coords t) _ _ _ _ _ _ _ _ _ _ _ _ _ _ (fun h => h0 ((isFirst4_iff t).mp h)) ((isLast4_iff t).mpr hl)
        (iblk4 V c 0 t) (iblk4 V c 1 t) (iblk4 V c 2 t) (iblk4 V c 3 t) (iblk4 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 5 t (outIdle4 t (fun h => hl ((isLast4_iff t).mp h))) (outNoFlush4 t (fun h => hl ((isLast4_iff t).mp h)))]
      rw [acc4_later V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_mid c (grid4.coords t) _ _ _ _ _ _ _ _ _ _ _ _ _ _ (fun h => h0 ((isFirst4_iff t).mp h)) (fun h => hl ((isLast4_iff t).mp h))
        (iblk4 V c 0 t) (iblk4 V c 1 t) _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point the invariant gives that back: what the accumulator holds is forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, Hrest⟩, Hg⟩
  isplitl [HS Hrest]
  · isplitl [HS]
    · iexists _; iexact HS
    iexact Hrest
  iexact Hg

/-- In particular after the last point. -/
theorem hout4 (c : Dev nD) : (dat4 V c).Φ (Fin.last cfg4.N) ⊢ Pipeline.ΦA spec4 c :=
  Phi4_out V c _ (by rw [Fin.val_last]; have : cfg4.N = 25 := N_4; omega)

end Cert.Kernel.Hand

end
-- ==== Proof.Hand.K.Fold.lean ====
/-
  The contents of the TensorCore's buffers at every boundary of @main. The program alternates five stretches of host
  operations with five kernel regions. A host stretch maps the contents before it to those after it (the fold of
  its operations); a region changes exactly one buffer, the array its output window writes back, and leaves there
  what its write-backs assemble from the per-point blocks. So the contents at each boundary are determined, one
  after the other, from the launch memory: before region k they are the host stretch applied to the contents after
  region k − 1, and after region k they are those with the region's result array replaced.
-/
import proofs.«429563_j84585085928054_2_alg».proof.Proof.Gen.Kernel.Regions
import proofs.«429563_j84585085928054_2_alg».proof.Proof.Hand.K.Region0
import proofs.«429563_j84585085928054_2_alg».proof.Proof.Hand.K.Region1
import proofs.«429563_j84585085928054_2_alg».proof.Proof.Hand.K.Region2
import proofs.«429563_j84585085928054_2_alg».proof.Proof.Hand.K.Region3
import proofs.«429563_j84585085928054_2_alg».proof.Proof.Hand.K.Region4

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## The boundaries, one after the other -/

/-- Before region 0: the first host stretch applied to the launch contents. -/
abbrev B1 (c : Dev nD) : Valuation τ sig (Elt F) := Gen.V1 m c
/-- The same read at the TensorCore's references. -/
abbrev E1 (c : Dev nD) (b : Ref sig .tc) : Buf (Elt F) ((c : Thread nD τ).loc b) := B1 m c b
/-- What region 0 leaves in its result array. -/
def o2 (c : Dev nD) : Buf (Elt F) ((c : Thread nD τ).loc main_v29) := (dat0 (E1 m) c).arrAt 5 cfg0.N
/-- After region 0. -/
abbrev B2 (c : Dev nD) : Valuation τ sig (Elt F) := Function.update (B1 m c) main_v29 (o2 m c)
/-- Before region 1. -/
abbrev B3 (c : Dev nD) : Valuation τ sig (Elt F) := StableHlo.after hostOps1 (B2 m c)
abbrev E3 (c : Dev nD) (b : Ref sig .tc) : Buf (Elt F) ((c : Thread nD τ).loc b) := B3 m c b
/-- What region 1 leaves in its result array. -/
def o4 (c : Dev nD) : Buf (Elt F) ((c : Thread nD τ).loc main_v49) := (dat1 (E3 m) c).arrAt 4 cfg1.N
abbrev B4 (c : Dev nD) : Valuation τ sig (Elt F) := Function.update (B3 m c) main_v49 (o4 m c)
abbrev B5 (c : Dev nD) : Valuation τ sig (Elt F) := StableHlo.after hostOps2 (B4 m c)
abbrev E5 (c : Dev nD) (b : Ref sig .tc) : Buf (Elt F) ((c : Thread nD τ).loc b) := B5 m c b
/-- What region 2 leaves in its result array. -/
def o6 (c : Dev nD) : Buf (Elt F) ((c : Thread nD τ).loc main_v66) := (dat2 (E5 m) c).arrAt 5 cfg2.N
abbrev B6 (c : Dev nD) : Valuation τ sig (Elt F) := Function.update (B5 m c) main_v66 (o6 m c)
abbrev B7 (c : Dev nD) : Valuation τ sig (Elt F) := StableHlo.after hostOps3 (B6 m c)
abbrev E7 (c : Dev nD) (b : Ref sig .tc) : Buf (Elt F) ((c : Thread nD τ).loc b) := B7 m c b
/-- What region 3 leaves in its result array. -/
def o8 (c : Dev nD) : Buf (Elt F) ((c : Thread nD τ).loc main_v86) := (dat3 (E7 m) c).arrAt 4 cfg3.N
abbrev B8 (c : Dev nD) : Valuation τ sig (Elt F) := Function.update (B7 m c) main_v86 (o8 m c)
abbrev B9 (c : Dev nD) : Valuation τ sig (Elt F) := StableHlo.after hostOps4 (B8 m c)
abbrev E9 (c : Dev nD) (b : Ref sig .tc) : Buf (Elt F) ((c : Thread nD τ).loc b) := B9 m c b
/-- What region 4 leaves in its result array: the program's result. -/
def o10 (c : Dev nD) : Buf (Elt F) ((c : Thread nD τ).loc main_v97) := (dat4 (E9 m) c).arrAt 5 cfg4.N

/-- What the regions leave, as the family the conditional frame is stated over: each region's result array at what
    the region leaves in it, any other buffer (never consulted) at its launch contents. -/
def outsH : Outs (F := F) := fun _ r c =>
  if h : r = main_v29 then h ▸ o2 m c
  else if h : r = main_v49 then h ▸ o4 m c
  else if h : r = main_v66 then h ▸ o6 m c
  else if h : r = main_v86 then h ▸ o8 m c
  else if h : r = main_v97 then h ▸ o10 m c
  else m ((c : Thread nD τ).loc r)

theorem outsH_v29 (J : ℕ) (c : Dev nD) : outsH m J main_v29 c = o2 m c := by
  unfold outsH; rw [dif_pos rfl]
theorem outsH_v49 (J : ℕ) (c : Dev nD) : outsH m J main_v49 c = o4 m c := by
  unfold outsH; rw [dif_neg (by decide), dif_pos rfl]
theorem outsH_v66 (J : ℕ) (c : Dev nD) : outsH m J main_v66 c = o6 m c := by
  unfold outsH; rw [dif_neg (by decide), dif_neg (by decide), dif_pos rfl]
theorem outsH_v86 (J : ℕ) (c : Dev nD) : outsH m J main_v86 c = o8 m c := by
  unfold outsH; rw [dif_neg (by decide), dif_neg (by decide), dif_neg (by decide), dif_pos rfl]
theorem outsH_v97 (J : ℕ) (c : Dev nD) : outsH m J main_v97 c = o10 m c := by
  unfold outsH; rw [dif_neg (by decide), dif_neg (by decide), dif_neg (by decide), dif_neg (by decide), dif_pos rfl]

/-! ## The conditional frame's valuations are these boundaries -/

theorem V2_eq (c : Dev nD) : Gen.V2 m (outsH m) c = B2 m c := by
  show Function.update (Gen.V1 m c) main_v29 (outsH m 2 main_v29 c) = _
  rw [outsH_v29]
theorem V3_eq (c : Dev nD) : Gen.V3 m (outsH m) c = B3 m c := by
  show StableHlo.after hostOps1 (Gen.V2 m (outsH m) c) = _
  rw [V2_eq]
theorem V4_eq (c : Dev nD) : Gen.V4 m (outsH m) c = B4 m c := by
  show Function.update (Gen.V3 m (outsH m) c) main_v49 (outsH m 4 main_v49 c) = _
  rw [outsH_v49, V3_eq]
theorem V5_eq (c : Dev nD) : Gen.V5 m (outsH m) c = B5 m c := by
  show StableHlo.after hostOps2 (Gen.V4 m (outsH m) c) = _
  rw [V4_eq]
theorem V6_eq (c : Dev nD) : Gen.V6 m (outsH m) c = B6 m c := by
  show Function.update (Gen.V5 m (outsH m) c) main_v66 (outsH m 6 main_v66 c) = _
  rw [outsH_v66, V5_eq]
theorem V7_eq (c : Dev nD) : Gen.V7 m (outsH m) c = B7 m c := by
  show StableHlo.after hostOps3 (Gen.V6 m (outsH m) c) = _
  rw [V6_eq]
theorem V8_eq (c : Dev nD) : Gen.V8 m (outsH m) c = B8 m c := by
  show Function.update (Gen.V7 m (outsH m) c) main_v86 (outsH m 8 main_v86 c) = _
  rw [outsH_v86, V7_eq]
theorem V9_eq (c : Dev nD) : Gen.V9 m (outsH m) c = B9 m c := by
  show StableHlo.after hostOps4 (Gen.V8 m (outsH m) c) = _
  rw [V8_eq]

/-! ## Every pipeline's proof data, each at its region's entry contents -/

/-- No pipeline has a prefetched table. -/
abbrev admH : (p : Fin 5) → (pcfgs (F := F) p).Adm := fun p => (cfgs p).toPCfg_adm

/-- The proof data of the five pipelines: a literal match, so that at a numeral it reduces to the region's own. -/
def pdatsH : (p : Fin 5) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

end Cert.Kernel.Hand

end
-- ==== Proof.Hand.K.Regs.lean ====
/-
  The five kernel regions as segments of @main. Between two items of @main a core holds every unscoped buffer at the
  contents the fold gives for that boundary, its generator register at some state, and owes nothing. A region takes
  its windows' arrays out of those buffers, runs its pipeline over them, and puts them back with its result array
  at what the write-backs assembled; everything else bypasses the region untouched.
-/
import proofs.«429563_j84585085928054_2_alg».proof.Proof.Hand.K.Fold
import Idealize.ShloMosaic.Lib.Pipeline.RegionsLoop
import Idealize.ShloMosaic.Lib.Pipeline.FrameSuffix
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)

/-- After region 4: the program's result array replaced. -/
abbrev B10 (c : Dev nD) : Valuation τ sig (Elt F) := Function.update (B9 m c) main_v97 (o10 m c)
theorem V10_eq (c : Dev nD) : Gen.V10 m (outsH m) c = B10 m c := by
  show Function.update (Gen.V9 m (outsH m) c) main_v97 (outsH m 10 main_v97 c) = _
  rw [outsH_v97, V9_eq]

/-! ## Region 0 -/

set_option maxHeartbeats 2000000 in
/-- For ANY contents before region 0: after it each of its arrays holds what the pipeline leaves — an input's array is as the
    region found it, and the result array is the replaced entry. -/
theorem leaves0_of (Bin : Dev nD → Valuation τ sig (Elt F)) (c : Dev nD) (w : Fin cfg0.W) :
    (dat0 (fun c b => Bin c b) c).arrAt w cfg0.N
      = Function.update (Bin c) main_v29 (show Buf (Elt F) ((c : Thread nD τ).loc main_v29) from (dat0 (fun c b => Bin c b) c).arrAt 5 cfg0.N) (Proc.devRef .tc (Pipeline.arrRef spec0 w)) := by
  obtain ⟨k, hk⟩ := w
  have hk' : k < 6 := hk
  interval_cases k
  · exact (((dat0 (fun c b => Bin c b) c).arrAt_in 0 rfl _).trans (A_eq0 (fun c b => Bin c b) c _)).trans (Function.update_of_ne (StableHlo.devRef_ne_of_ne (by decide)) _ _).symm
  · exact (((dat0 (fun c b => Bin c b) c).arrAt_in 1 rfl _).trans (A_eq0 (fun c b => Bin c b) c _)).trans (Function.update_of_ne (StableHlo.devRef_ne_of_ne (by decide)) _ _).symm
  · exact (((dat0 (fun c b => Bin c b) c).arrAt_in 2 rfl _).trans (A_eq0 (fun c b => Bin c b) c _)).trans (Function.update_of_ne (StableHlo.devRef_ne_of_ne (by decide)) _ _).symm
  · exact (((dat0 (fun c b => Bin c b) c).arrAt_in 3 rfl _).trans (A_eq0 (fun c b => Bin c b) c _)).trans (Function.update_of_ne (StableHlo.devRef_ne_of_ne (by decide)) _ _).symm
  · exact (((dat0 (fun c b => Bin c b) c).arrAt_in 4 rfl _).trans (A_eq0 (fun c b => Bin c b) c _)).trans (Function.update_of_ne (StableHlo.devRef_ne_of_ne (by decide)) _ _).symm
  · exact (Function.update_self (f := Bin c) (Proc.devRef .tc main_v29) _).symm

theorem leaves0 (c : Dev nD) (w : Fin cfg0.W) : (dat0 (E1 m) c).arrAt w cfg0.N = B2 m c (Proc.devRef .tc (Pipeline.arrRef spec0 w)) :=
  leaves0_of (B1 m) c w

/-- Every buffer that is no array of region 0 is as the region found it. -/
theorem keeps0 (c : Dev nD) : ∀ b : Ref sig .tc, b ∉ Finset.univ.image (Pipeline.arrRef spec0) → B2 m c b = B1 m c b :=
  fun b hb => Function.update_of_ne (StableHlo.devRef_ne_of_ne fun e => hb (Finset.mem_image.mpr ⟨5, Finset.mem_univ _, e.symm⟩)) _ _

/-! ## Region 1 -/

set_option maxHeartbeats 2000000 in
/-- For ANY contents before region 1: after it each of its arrays holds what the pipeline leaves — an input's array is as the
    region found it, and the result array is the replaced entry. -/
theorem leaves1_of (Bin : Dev nD → Valuation τ sig (Elt F)) (c : Dev nD) (w : Fin cfg1.W) :
    (dat1 (fun c b => Bin c b) c).arrAt w cfg1.N
      = Function.update (Bin c) main_v49 (show Buf (Elt F) ((c : Thread nD τ).loc main_v49) from (dat1 (fun c b => Bin c b) c).arrAt 4 cfg1.N) (Proc.devRef .tc (Pipeline.arrRef spec1 w)) := by
  obtain ⟨k, hk⟩ := w
  have hk' : k < 5 := hk
  interval_cases k
  · exact (((dat1 (fun c b => Bin c b) c).arrAt_in 0 rfl _).trans (A_eq1 (fun c b => Bin c b) c _)).trans (Function.update_of_ne (StableHlo.devRef_ne_of_ne (by decide)) _ _).symm
  · exact (((dat1 (fun c b => Bin c b) c).arrAt_in 1 rfl _).trans (A_eq1 (fun c b => Bin c b) c _)).trans (Function.update_of_ne (StableHlo.devRef_ne_of_ne (by decide)) _ _).symm
  · exact (((dat1 (fun c b => Bin c b) c).arrAt_in 2 rfl _).trans (A_eq1 (fun c b => Bin c b) c _)).trans (Function.update_of_ne (StableHlo.devRef_ne_of_ne (by decide)) _ _).symm
  · exact (((dat1 (fun c b => Bin c b) c).arrAt_in 3 rfl _).trans (A_eq1 (fun c b => Bin c b) c _)).trans (Function.update_of_ne (StableHlo.devRef_ne_of_ne (by decide)) _ _).symm
  · exact (Function.update_self (f := Bin c) (Proc.devRef .tc main_v49) _).symm

theorem leaves1 (c : Dev nD) (w : Fin cfg1.W) : (dat1 (E3 m) c).arrAt w cfg1.N = B4 m c (Proc.devRef .tc (Pipeline.arrRef spec1 w)) :=
  leaves1_of (B3 m) c w

/-- Every buffer that is no array of region 1 is as the region found it. -/
theorem keeps1 (c : Dev nD) : ∀ b : Ref sig .tc, b ∉ Finset.univ.image (Pipeline.arrRef spec1) → B4 m c b = B3 m c b :=
  fun b hb => Function.update_of_ne (StableHlo.devRef_ne_of_ne fun e => hb (Finset.mem_image.mpr ⟨4, Finset.mem_univ _, e.symm⟩)) _ _

/-! ## Region 2 -/

set_option maxHeartbeats 2000000 in
/-- For ANY contents before region 2: after it each of its arrays holds what the pipeline leaves — an input's array is as the
    region found it, and the result array is the replaced entry. -/
theorem leaves2_of (Bin : Dev nD → Valuation τ sig (Elt F)) (c : Dev nD) (w : Fin cfg2.W) :
    (dat2 (fun c b => Bin c b) c).arrAt w cfg2.N
      = Function.update (Bin c) main_v66 (show Buf (Elt F) ((c : Thread nD τ).loc main_v66) from (dat2 (fun c b => Bin c b) c).arrAt 5 cfg2.N) (Proc.devRef .tc (Pipeline.arrRef spec2 w)) := by
  obtain ⟨k, hk⟩ := w
  have hk' : k < 6 := hk
  interval_cases k
  · exact (((dat2 (fun c b => Bin c b) c).arrAt_in 0 rfl _).trans (A_eq2 (fun c b => Bin c b) c _)).trans (Function.update_of_ne (StableHlo.devRef_ne_of_ne (by decide)) _ _).symm
  · exact (((dat2 (fun c b => Bin c b) c).arrAt_in 1 rfl _).trans (A_eq2 (fun c b => Bin c b) c _)).trans (Function.update_of_ne (StableHlo.devRef_ne_of_ne (by decide)) _ _).symm
  · exact (((dat2 (fun c b => Bin c b) c).arrAt_in 2 rfl _).trans (A_eq2 (fun c b => Bin c b) c _)).trans (Function.update_of_ne (StableHlo.devRef_ne_of_ne (by decide)) _ _).symm
  · exact (((dat2 (fun c b => Bin c b) c).arrAt_in 3 rfl _).trans (A_eq2 (fun c b => Bin c b) c _)).trans (Function.update_of_ne (StableHlo.devRef_ne_of_ne (by decide)) _ _).symm
  · exact (((dat2 (fun c b => Bin c b) c).arrAt_in 4 rfl _).trans (A_eq2 (fun c b => Bin c b) c _)).trans (Function.update_of_ne (StableHlo.devRef_ne_of_ne (by decide)) _ _).symm
  · exact (Function.update_self (f := Bin c) (Proc.devRef .tc main_v66) _).symm

theorem leaves2 (c : Dev nD) (w : Fin cfg2.W) : (dat2 (E5 m) c).arrAt w cfg2.N = B6 m c (Proc.devRef .tc (Pipeline.arrRef spec2 w)) :=
  leaves2_of (B5 m) c w

/-- Every buffer that is no array of region 2 is as the region found it. -/
theorem keeps2 (c : Dev nD) : ∀ b : Ref sig .tc, b ∉ Finset.univ.image (Pipeline.arrRef spec2) → B6 m c b = B5 m c b :=
  fun b hb => Function.update_of_ne (StableHlo.devRef_ne_of_ne fun e => hb (Finset.mem_image.mpr ⟨5, Finset.mem_univ _, e.symm⟩)) _ _

/-! ## Region 3 -/

set_option maxHeartbeats 2000000 in
/-- For ANY contents before region 3: after it each of its arrays holds what the pipeline leaves — an input's array is as the
    region found it, and the result array is the replaced entry. -/
theorem leaves3_of (Bin : Dev nD → Valuation τ sig (Elt F)) (c : Dev nD) (w : Fin cfg3.W) :
    (dat3 (fun c b => Bin c b) c).arrAt w cfg3.N
      = Function.update (Bin c) main_v86 (show Buf (Elt F) ((c : Thread nD τ).loc main_v86) from (dat3 (fun c b => Bin c b) c).arrAt 4 cfg3.N) (Proc.devRef .tc (Pipeline.arrRef spec3 w)) := by
  obtain ⟨k, hk⟩ := w
  have hk' : k < 5 := hk
  interval_cases k
  · exact (((dat3 (fun c b => Bin c b) c).arrAt_in 0 rfl _).trans (A_eq3 (fun c b => Bin c b) c _)).trans (Function.update_of_ne (StableHlo.devRef_ne_of_ne (by decide)) _ _).symm
  · exact (((dat3 (fun c b => Bin c b) c).arrAt_in 1 rfl _).trans (A_eq3 (fun c b => Bin c b) c _)).trans (Function.update_of_ne (StableHlo.devRef_ne_of_ne (by decide)) _ _).symm
  · exact (((dat3 (fun c b => Bin c b) c).arrAt_in 2 rfl _).trans (A_eq3 (fun c b => Bin c b) c _)).trans (Function.update_of_ne (StableHlo.devRef_ne_of_ne (by decide)) _ _).symm
  · exact (((dat3 (fun c b => Bin c b) c).arrAt_in 3 rfl _).trans (A_eq3 (fun c b => Bin c b) c _)).trans (Function.update_of_ne (StableHlo.devRef_ne_of_ne (by decide)) _ _).symm
  · exact (Function.update_self (f := Bin c) (Proc.devRef .tc main_v86) _).symm

theorem leaves3 (c : Dev nD) (w : Fin cfg3.W) : (dat3 (E7 m) c).arrAt w cfg3.N = B8 m c (Proc.devRef .tc (Pipeline.arrRef spec3 w)) :=
  leaves3_of (B7 m) c w

/-- Every buffer that is no array of region 3 is as the region found it. -/
theorem keeps3 (c : Dev nD) : ∀ b : Ref sig .tc, b ∉ Finset.univ.image (Pipeline.arrRef spec3) → B8 m c b = B7 m c b :=
  fun b hb => Function.update_of_ne (StableHlo.devRef_ne_of_ne fun e => hb (Finset.mem_image.mpr ⟨4, Finset.mem_univ _, e.symm⟩)) _ _

/-! ## Region 4 -/

set_option maxHeartbeats 2000000 in
/-- For ANY contents before region 4: after it each of its arrays holds what the pipeline leaves — an input's array is as the
    region found it, and the result array is the replaced entry. -/
theorem leaves4_of (Bin : Dev nD → Valuation τ sig (Elt F)) (c : Dev nD) (w : Fin cfg4.W) :
    (dat4 (fun c b => Bin c b) c).arrAt w cfg4.N
      = Function.update (Bin c) main_v97 (show Buf (Elt F) ((c : Thread nD τ).loc main_v97) from (dat4 (fun c b => Bin c b) c).arrAt 5 cfg4.N) (Proc.devRef .tc (Pipeline.arrRef spec4 w)) := by
  obtain ⟨k, hk⟩ := w
  have hk' : k < 6 := hk
  interval_cases k
  · exact (((dat4 (fun c b => Bin c b) c).arrAt_in 0 rfl _).trans (A_eq4 (fun c b => Bin c b) c _)).trans (Function.update_of_ne (StableHlo.devRef_ne_of_ne (by decide)) _ _).symm
  · exact (((dat4 (fun c b => Bin c b) c).arrAt_in 1 rfl _).trans (A_eq4 (fun c b => Bin c b) c _)).trans (Function.update_of_ne (StableHlo.devRef_ne_of_ne (by decide)) _ _).symm
  · exact (((dat4 (fun c b => Bin c b) c).arrAt_in 2 rfl _).trans (A_eq4 (fun c b => Bin c b) c _)).trans (Function.update_of_ne (StableHlo.devRef_ne_of_ne (by decide)) _ _).symm
  · exact (((dat4 (fun c b => Bin c b) c).arrAt_in 3 rfl _).trans (A_eq4 (fun c b => Bin c b) c _)).trans (Function.update_of_ne (StableHlo.devRef_ne_of_ne (by decide)) _ _).symm
  · exact (((dat4 (fun c b => Bin c b) c).arrAt_in 4 rfl _).trans (A_eq4 (fun c b => Bin c b) c _)).trans (Function.update_of_ne (StableHlo.devRef_ne_of_ne (by decide)) _ _).symm
  · exact (Function.update_self (f := Bin c) (Proc.devRef .tc main_v97) _).symm

theorem leaves4 (c : Dev nD) (w : Fin cfg4.W) : (dat4 (E9 m) c).arrAt w cfg4.N = B10 m c (Proc.devRef .tc (Pipeline.arrRef spec4 w)) :=
  leaves4_of (B9 m) c w

/-- Every buffer that is no array of region 4 is as the region found it. -/
theorem keeps4 (c : Dev nD) : ∀ b : Ref sig .tc, b ∉ Finset.univ.image (Pipeline.arrRef spec4) → B10 m c b = B9 m c b :=
  fun b hb => Function.update_of_ne (StableHlo.devRef_ne_of_ne fun e => hb (Finset.mem_image.mpr ⟨5, Finset.mem_univ _, e.symm⟩)) _ _

/-! ## The segments -/

set_option backward.isDefEq.respectTransparency.types false in
/-- Region 0 over the thread state: entered with every unscoped buffer at the contents before it, left with them at the
    contents after it. Its arrays are split out of the unscoped buffers at entry and put back, the result array
    replaced, at exit; the generator register goes into the region's invariant and comes back; nothing is owed; the
    kernel has no semaphore of its own. -/
def reg0 : RegionSeg (pcfgs (F := F)) admH (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (fun b => B2 m c b) ((pdatsH m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers at entry and put back, the result array
    replaced, at exit; the generator register goes into the region's invariant and comes back; nothing is owed; the
    kernel has no semaphore of its own. -/
def reg1 : RegionSeg (pcfgs (F := F)) admH (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(StableHlo.held (c : Thread nD τ) (Pipeline.ucRefs τ sig) (B4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (fun b => B4 m c b) ((pdatsH m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers at entry and put back, the result array
    replaced, at exit; the generator register goes into the region's invariant and comes back; nothing is owed; the
    kernel has no semaphore of its own. -/
def reg2 : RegionSeg (pcfgs (F := F)) admH (pdatsH m) () defs₀ Variants.none LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (B5 m c) ∗ RH c)
  post c := iprop(StableHlo.held (c : Thread nD τ) (Pipeline.ucRefs τ sig) (B6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (fun b => B6 m c b) ((pdatsH m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it. Its arrays are split out of the unscoped buffers at entry and put back, the result array
    replaced, at exit; the generator register goes into the region's invariant and comes back; nothing is owed; the
    kernel has no semaphore of its own. -/
def reg3 : RegionSeg (pcfgs (F := F)) admH (pdatsH m) () defs₀ Variants.none LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (B7 m c) ∗ RH c)
  post c := iprop(StableHlo.held (c : Thread nD τ) (Pipeline.ucRefs τ sig) (B8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (fun b => B8 m c b) ((pdatsH m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at the
    contents after it. Its arrays are split out of the unscoped buffers at entry and put back, the result array
    replaced, at exit; the generator register goes into the region's invariant and comes back; nothing is owed; the
    kernel has no semaphore of its own. -/
def reg4 : RegionSeg (pcfgs (F := F)) admH (pdatsH m) () defs₀ Variants.none LH lvH 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LH lvH 4 fun _ _ => rfl
  pre c := iprop(StableHlo.held (c : Thread nD τ) (Pipeline.ucRefs τ sig) (B9 m c) ∗ RH c)
  post c := iprop(StableHlo.held (c : Thread nD τ) (Pipeline.ucRefs τ sig) (B10 m c) ∗ RH c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = (dat4 (E9 m) c).Φ 0 from rfl]
    have h4 := hin4 (E9 m) c
    unfold Pipeline.ΦA at h4
    iintro ⟨Hp, -, Hr⟩
    iapply h4
    isplitl [Hr]; · iexact Hr
    iexact Hp
  hout c := by
    rw [Pipeline.ownSems0_none, show (pdatsH m 4 c).Φ (Fin.last _) = (dat4 (E9 m) c).Φ (Fin.last cfg4.N) from rfl]
    have h4 := hout4 (E9 m) c
    unfold Pipeline.ΦA at h4
    iintro H
    ihave H' := h4 $$ H
    icases H' with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (E9 m c) (fun b => B10 m c b) ((pdatsH m 4 c).arrAt · cfg4.N) (leaves4 m c) (keeps4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Hand.K.Frame.lean ====
/-
  The frame of the program at any float instance: from any memory with every semaphore counter at zero, every weakly
  fair execution of @main terminates without a fault and leaves each of the fifteen argument arrays as launched.
  No host operation writes an argument and no region's output window is an argument's array, so the fold through
  @main's ten items reads every argument back to its launch contents; the five regions are the segments of the
  fold, each entered from the boundary before it and left at the one after it.
-/
import proofs.«429563_j84585085928054_2_alg».proof.Proof.Hand.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates and leaves the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (F := F) m (Ix := Unit) (U := UR sig nD τ) (Lvl := ℕ) emb₁ () Variants.none LH lvH (fun _ _ => rfl) ρ (outsH m) (pdatsH m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RH c)
    (hE0 := by
      refine Pipeline.initEach LH lvH fun c => ?_
      iintro ⟨⟨-, HO, -, Hp, -⟩, -⟩
      imodintro
      isplitl [Hp]; · iexists _; iexact Hp
      iexists ∅; iexact HO)
    (hE5 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)

end Cert.Kernel.Hand

end
-- ==== Proof.Hand.KI.Region0.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The first SAGE layer's linear step (pipeline 0), at the contents the region is entered with

One grid point of this pipeline takes a 5000-row tile of the aggregated neighbour features and the
matching tile of the node features, the two 128x128 weight matrices and the bias row, and stores
agg_tile @ wl + x_tile @ wr + bias (the four matrix operands rounded to bf16, the products
accumulated in f32) over the whole output tile. Every input buffer is only read, so
each holds its array's block at every point; the output buffer is overwritten whole by one store, so
what it holds after the body is a function of the five input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input buffer holds its block whether or not it was just fetched

The two row tiles move with the grid point and are fetched at each one; the weights and the bias sit
at a constant block index and are fetched once. In both cases a buffer the body never writes still
holds the block its index names: an unfetched point has the index of the point before it. -/

section Inputs
variable {c : Dev nD} (dat : Dat τ (Elt F) Unit ℕ (UR sig nD τ) ℕ cfg0 c)

/-- The aggregated-features tile (window 0). -/
theorem aggTile0_of (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The node-features tile (window 1). -/
theorem xTile0_of (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- The neighbour weight matrix (window 2), resident across the grid. -/
theorem wl0_of (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- The root weight matrix (window 3), resident across the grid. -/
theorem wr0_of (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- The bias row (window 4), resident across the grid. -/
theorem bias0_of (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

end Inputs

/-! ## The rectangles the body touches: each buffer, whole -/

abbrev rowTile0 : Rect S5000x128 := Rect.unit (s := S5000x128) ![0, 0] S5000x128.size inb_S5000x128_S5000x128_0_0
abbrev weight0 : Rect S128x128 := Rect.unit (s := S128x128) ![0, 0] S128x128.size inb_S128x128_S128x128_0_0
abbrev biasRow0 : Rect S1x128 := Rect.unit (s := S1x128) ![0, 0] S1x128.size inb_S1x128_S1x128_0_0

/-! ## What the body leaves in the output buffer -/

/-- The output tile after the body: one store over the whole tile, of the payload
    agg @ wl + x @ wr + bias taken of the five loaded inputs. The arguments are the input buffers'
    contents in window order, which is the order the payload takes its loads: the aggregated tile
    (window 0), the node tile (window 1), wl (window 2), wr (window 3), the bias row (window 4). -/
def out0 (agg x : Vec F S5000x128 .f32) (wl wr : Vec F S128x128 .f32) (bias : Vec F S1x128 .f32) : Vec F S5000x128 .f32 :=
  View.canon [⟨rowTile0, k0_pay1 (View.ld agg rowTile0) (View.ld x rowTile0) (View.ld wl weight0) (View.ld wr weight0) (View.ld bias biasRow0)⟩]

/-- The one store is over the whole tile, so it covers every index of it. -/
theorem storeCovers0 (p : Vec F S5000x128 .f32) (y : S5000x128.Idx) :
    ∃ pc ∈ ([⟨rowTile0, p⟩] : List (View.Piece (Elt F) S5000x128 .f32)), y ∈ pc.1.set :=
  View.cover_of_tiled [⟨rowTile0, p⟩] S5000x128.size (by rfl) y

/-! ## The body's triple -/

set_option maxHeartbeats 1000000 in
/-- The kernel body on whole buffers: the five inputs at read contents agg, x, wl, wr, bias and the
    output at anything. It reads each input whole, reads the output buffer (a value it never uses) and
    stores the payload over the whole output; so it hands back the inputs as they were and the output
    at out0 of them. The printed function is its skeleton of loads and one store, which the symbolic
    executor runs; the store's cover turns the written buffer into the closed form. -/
theorem sound_kernel0 (c : Dev nD) (E : Set ℕ) (i : grid0.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (agg x : Vec F S5000x128 .f32) (wl wr : Vec F S128x128 .f32) (bias : Vec F S1x128 .f32) (K : PUnit → sProp 𝕄) :
    iprop(owns (c : Thread nD τ) arg1 fullShare agg ∗ owns (c : Thread nD τ) arg2 fullShare x
        ∗ owns (c : Thread nD τ) arg3 fullShare wl ∗ owns (c : Thread nD τ) arg4 fullShare wr
        ∗ owns (c : Thread nD τ) arg5 fullShare bias ∗ (∃ d, owns (c : Thread nD τ) arg6 fullShare d)
        ∗ (iprop(owns (c : Thread nD τ) arg1 fullShare agg ∗ owns (c : Thread nD τ) arg2 fullShare x
            ∗ owns (c : Thread nD τ) arg3 fullShare wl ∗ owns (c : Thread nD τ) arg4 fullShare wr
            ∗ owns (c : Thread nD τ) arg5 fullShare bias
            ∗ owns (c : Thread nD τ) arg6 fullShare (out0 agg x wl wr bias)) -∗ K ⟨⟩))
      ⊢ wp frame (wpE (defs₀ (F := F)) Variants.none c none) E
          (cc0__matmul_bn_kernel i arg1 harg1 arg2 harg2 arg3 harg3 arg4 harg4 arg5 harg5 arg6 harg6) K := by
  simp only [cc0__matmul_bn_kernel_eq_skeleton]; unfold cc0__matmul_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers0 _)

/-! ## The pipeline's proof data -/

/-- Pipeline 0 on core c: the arrays as the region finds them; after the body at point t every input
    buffer still at its block and the output buffer at out0 of the five input blocks; the invariant
    is the scoped rest and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0 (iblk0 V c 0 t) (iblk0 V c 1 t) (iblk0 V c 2 t) (iblk0 V c 3 t) (iblk0 V c 4 t) := by dsimp only [dat0]

/-- What the body finds in each input buffer: its block, at every point. -/
theorem before0_0 (c : Dev nD) (t : Fin cfg0.N) (d) : (dat0 V c).before 0 t d = iblk0 V c 0 t :=
  aggTile0_of V (dat0 V c) (A_eq0 V c 0) (after0_0 V c) t d
theorem before0_1 (c : Dev nD) (t : Fin cfg0.N) (d) : (dat0 V c).before 1 t d = iblk0 V c 1 t :=
  xTile0_of V (dat0 V c) (A_eq0 V c 1) (after0_1 V c) t d
theorem before0_2 (c : Dev nD) (t : Fin cfg0.N) (d) : (dat0 V c).before 2 t d = iblk0 V c 2 t :=
  wl0_of V (dat0 V c) (A_eq0 V c 2) (after0_2 V c) t d
theorem before0_3 (c : Dev nD) (t : Fin cfg0.N) (d) : (dat0 V c).before 3 t d = iblk0 V c 3 t :=
  wr0_of V (dat0 V c) (A_eq0 V c 3) (after0_3 V c) t d
theorem before0_4 (c : Dev nD) (t : Fin cfg0.N) (d) : (dat0 V c).before 4 t d = iblk0 V c 4 t :=
  bias0_of V (dat0 V c) (A_eq0 V c 4) (after0_4 V c) t d

/-! ## The body obligation, at a generic point -/

/-- What the body is called with at point t: the invariant, the core's debt, and each window's
    current buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies at
    those five blocks; the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Hand.KI.Region1.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The normalise-and-rectify call number 1, point by point, at given entry contents

The call walks the 50000x128 pre-activation array in ten row tiles of 5000x128. At each tile it reads the tile and
three 1x128 rows (the column means, the reciprocal standard deviations, the shifts), and writes
`max((pre - mean) * invstd + beta, 0)` over the whole output tile. This file states, for ANY contents `V` of the
core's buffers when the call is entered, what each staging buffer holds before and after the body at every tile, and
proves the body's Hoare triple there. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the windows show -/

/-- Window `w`'s block at tile `t`, read off its array as the call finds it (`V`): for window 0 rows
    `5000 t … 5000 t + 4999` of the pre-activations; for windows 1, 2, 3 the whole mean, invstd and beta row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pre-activation tile's staging buffer holds tile `t` when the body runs: it is fetched afresh at every tile,
    and for any proof data over `V`'s array whose body leaves the tile in place that fetch is what `before` is. -/
theorem before1_pre_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The mean row's staging buffer holds the row at every tile. Its block index is constant, so it is fetched at the
    first tile only; at a later tile the index has not moved and the body left the row in place, so the buffer still
    holds what a fetch there would bring. -/
theorem before1_mean_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reciprocal-standard-deviation row's staging buffer holds the row at every tile (as for the mean row). -/
theorem before1_invstd_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The shift row's staging buffer holds the row at every tile (as for the mean row). -/
theorem before1_beta_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 tile: what the body loads of the pre-activation buffer and stores of the output buffer. -/
abbrev tile1 : Rect S5000x128 := Rect.unit (s := S5000x128) ![0, 0] S5000x128.size inb_S5000x128_S5000x128_0_0

/-- The whole 1x128 row: what the body loads of each of the three row buffers. -/
abbrev row1 : Rect S1x128 := Rect.unit (s := S1x128) ![0, 0] S1x128.size inb_S1x128_S1x128_0_0

/-! ## What the body leaves in the output buffer -/

/-- The output tile's staging buffer after the body, from the four input buffers, in window order:
    `x0` the pre-activation tile (window 0), `x1` the mean row (window 1), `x2` the invstd row (window 2),
    `x3` the beta row (window 3) — the order in which the body loads them and the payload takes them.
    One store of the whole tile, of `max((x0 - x1) * x2 + x3, 0)` with the rows broadcast down the tile. -/
def out1 (x0 : Vec F S5000x128 .f32) (x1 : Vec F S1x128 .f32) (x2 : Vec F S1x128 .f32) (x3 : Vec F S1x128 .f32) : Vec F S5000x128 .f32 :=
  View.canon [⟨tile1, k1_pay1 (View.ld x0 tile1) (View.ld x1 row1) (View.ld x2 row1) (View.ld x3 row1)⟩]

/-- That one store is of the whole tile, so it covers the buffer. -/
theorem out1_cover (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

/-! ## The body's triple -/

set_option maxHeartbeats 1000000 in
/-- The body on whole staging memrefs — the four inputs' at contents `x0 … x3`, the output's at anything — runs to a
    continuation that holds the inputs' as they were and the output's at `out1 x0 x1 x2 x3`. The printed function is
    its skeleton: four loads of the inputs, a load of the output buffer whose value is dropped, and one store of the
    payload over the whole output buffer; a buffer written through one whole-buffer store reads back as that piece. -/
theorem bnRelu1_triple (c : Dev nD) (E : Set ℕ) (i : grid1.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1 x0 x1 x2 x3)) -∗ K ⟨⟩))
      ⊢ wp frame (wpE (defs₀ (F := F)) Variants.none c none) E (cc1__bn_relu_kernel i arg0 harg0 arg1 harg1 arg2 harg2 arg3 harg3 arg4 harg4) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out1_cover _)

/-! ## The call's proof data -/

/-- The proof data of the call on core `c`: the arrays as the call finds them (`V`); after the body at tile `t` the
    pre-activation buffer at tile `t` and the three row buffers at their rows (the body writes none of them), the output
    buffer at `out1` of those four; the invariant that the scoped rest and the generator register are untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

/-- Each input's current staging buffer holds its block at every tile, fetched there or not. -/
theorem before1_pre (c : Dev nD) (t : Fin cfg1.N) (d) : (dat1 V c).before 0 t d = iblk1 V c 0 t :=
  before1_pre_of V (dat1 V c) (A_eq1 V c 0) (after1_0 V c) t d
theorem before1_mean (c : Dev nD) (t : Fin cfg1.N) (d) : (dat1 V c).before 1 t d = iblk1 V c 1 t :=
  before1_mean_of V (dat1 V c) (A_eq1 V c 1) (after1_1 V c) t d
theorem before1_invstd (c : Dev nD) (t : Fin cfg1.N) (d) : (dat1 V c).before 2 t d = iblk1 V c 2 t :=
  before1_invstd_of V (dat1 V c) (A_eq1 V c 2) (after1_2 V c) t d
theorem before1_beta (c : Dev nD) (t : Fin cfg1.N) (d) : (dat1 V c).before 3 t d = iblk1 V c 3 t :=
  before1_beta_of V (dat1 V c) (A_eq1 V c 3) (after1_3 V c) t d

/-! ## The body obligation, at a generic tile -/

/-- What the body is called with at tile `t`, the windows one by one, -/
def bnRelu1Pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bnRelu1Post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any tile: the inputs' memrefs hold their blocks, so the triple applies; the invariant and the core's
    debts pass through unread. -/
theorem bnRelu1_at_point (c : Dev nD) (t : Fin cfg1.N) :
    bnRelu1Pre V c t ⊢ wp frame (wpE (defs₀ (F := F)) Variants.none c none) Set.univ (bodyAt1 t) (fun _ => bnRelu1Post V c t) := by
  unfold bnRelu1Pre bnRelu1Post bodyAt1
  simp only [before1_pre, before1_mean, before1_invstd, before1_beta]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (bnRelu1_triple c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation1 (c : Dev nD) : BodyObligation (dat1 (F := F) V c) (defs₀ (F := F)) Variants.none () Set.univ := fun t => by
  rw [bigSep_W1, bigSep_W1]
  exact bnRelu1_at_point V c t

end Cert.KernelIdeal.Hand

end
-- ==== Proof.Hand.KI.Region2.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The second SAGE layer's linear step (pipeline 2), at the contents the region is entered with

One grid point of this pipeline takes a 5000-row tile of the neighbour mean of the first layer's
activations and the matching tile of those activations themselves, the second layer's two 128x128
weight matrices and its bias row, and stores agg_tile @ wl + h_tile @ wr + bias (the four matrix operands rounded to bf16, the products
accumulated in f32) over the whole output tile. Every input buffer is only read, so
each holds its array's block at every point; the output buffer is overwritten whole by one store, so
what it holds after the body is a function of the five input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input buffer holds its block whether or not it was just fetched

The two row tiles move with the grid point and are fetched at each one; the weights and the bias sit
at a constant block index and are fetched once. In both cases a buffer the body never writes still
holds the block its index names: an unfetched point has the index of the point before it. -/

section Inputs
variable {c : Dev nD} (dat : Dat τ (Elt F) Unit ℕ (UR sig nD τ) ℕ cfg2 c)

/-- The tile of aggregated first-layer activations (window 0). -/
theorem aggTile2_of (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- The tile of first-layer activations (window 1). -/
theorem hTile2_of (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-- The neighbour weight matrix (window 2), resident across the grid. -/
theorem wl2_of (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

/-- The root weight matrix (window 3), resident across the grid. -/
theorem wr2_of (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

/-- The bias row (window 4), resident across the grid. -/
theorem bias2_of (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

end Inputs

/-! ## The rectangles the body touches: each buffer, whole -/

abbrev rowTile2 : Rect S5000x128 := Rect.unit (s := S5000x128) ![0, 0] S5000x128.size inb_S5000x128_S5000x128_0_0
abbrev weight2 : Rect S128x128 := Rect.unit (s := S128x128) ![0, 0] S128x128.size inb_S128x128_S128x128_0_0
abbrev biasRow2 : Rect S1x128 := Rect.unit (s := S1x128) ![0, 0] S1x128.size inb_S1x128_S1x128_0_0

/-! ## What the body leaves in the output buffer -/

/-- The output tile after the body: one store over the whole tile, of the payload
    agg @ wl + h @ wr + bias taken of the five loaded inputs. The arguments are the input buffers'
    contents in window order, which is the order the payload takes its loads: the aggregated tile
    (window 0), the activations tile (window 1), wl (window 2), wr (window 3), the bias row (window 4). -/
def out2 (agg x : Vec F S5000x128 .f32) (wl wr : Vec F S128x128 .f32) (bias : Vec F S1x128 .f32) : Vec F S5000x128 .f32 :=
  View.canon [⟨rowTile2, k2_pay1 (View.ld agg rowTile2) (View.ld x rowTile2) (View.ld wl weight2) (View.ld wr weight2) (View.ld bias biasRow2)⟩]

/-- The one store is over the whole tile, so it covers every index of it. -/
theorem storeCovers2 (p : Vec F S5000x128 .f32) (y : S5000x128.Idx) :
    ∃ pc ∈ ([⟨rowTile2, p⟩] : List (View.Piece (Elt F) S5000x128 .f32)), y ∈ pc.1.set :=
  View.cover_of_tiled [⟨rowTile2, p⟩] S5000x128.size (by rfl) y

/-! ## The body's triple -/

set_option maxHeartbeats 1000000 in
/-- The kernel body on whole buffers: the five inputs at read contents agg, x, wl, wr, bias and the
    output at anything. It reads each input whole, reads the output buffer (a value it never uses) and
    stores the payload over the whole output; so it hands back the inputs as they were and the output
    at out2 of them. The printed function is its skeleton of loads and one store, which the symbolic
    executor runs; the store's cover turns the written buffer into the closed form. -/
theorem sound_kernel2 (c : Dev nD) (E : Set ℕ) (i : grid2.Coords)
    (arg1 : Memref sig .tc .vmem S5000x128 .f32) (harg1 : arg1.IsWhole)
    (arg2 : Memref sig .tc .vmem S5000x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (agg x : Vec F S5000x128 .f32) (wl wr : Vec F S128x128 .f32) (bias : Vec F S1x128 .f32) (K : PUnit → sProp 𝕄) :
    iprop(owns (c : Thread nD τ) arg1 fullShare agg ∗ owns (c : Thread nD τ) arg2 fullShare x
        ∗ owns (c : Thread nD τ) arg3 fullShare wl ∗ owns (c : Thread nD τ) arg4 fullShare wr
        ∗ owns (c : Thread nD τ) arg5 fullShare bias ∗ (∃ d, owns (c : Thread nD τ) arg6 fullShare d)
        ∗ (iprop(owns (c : Thread nD τ) arg1 fullShare agg ∗ owns (c : Thread nD τ) arg2 fullShare x
            ∗ owns (c : Thread nD τ) arg3 fullShare wl ∗ owns (c : Thread nD τ) arg4 fullShare wr
            ∗ owns (c : Thread nD τ) arg5 fullShare bias
            ∗ owns (c : Thread nD τ) arg6 fullShare (out2 agg x wl wr bias)) -∗ K ⟨⟩))
      ⊢ wp frame (wpE (defs₀ (F := F)) Variants.none c none) E
          (cc2__matmul_bn_kernel i arg1 harg1 arg2 harg2 arg3 harg3 arg4 harg4 arg5 harg5 arg6 harg6) K := by
  simp only [cc2__matmul_bn_kernel_eq_skeleton]; unfold cc2__matmul_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (storeCovers2 _)

/-! ## The pipeline's proof data -/

/-- Pipeline 2 on core c: the arrays as the region finds them; after the body at point t every input
    buffer still at its block and the output buffer at out2 of the five input blocks; the invariant
    is the scoped rest and the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

/-- Its arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

/-- What the body finds in each input buffer: its block, at every point. -/
theorem before2_0 (c : Dev nD) (t : Fin cfg2.N) (d) : (dat2 V c).before 0 t d = iblk2 V c 0 t :=
  aggTile2_of V (dat2 V c) (A_eq2 V c 0) (after2_0 V c) t d
theorem before2_1 (c : Dev nD) (t : Fin cfg2.N) (d) : (dat2 V c).before 1 t d = iblk2 V c 1 t :=
  hTile2_of V (dat2 V c) (A_eq2 V c 1) (after2_1 V c) t d
theorem before2_2 (c : Dev nD) (t : Fin cfg2.N) (d) : (dat2 V c).before 2 t d = iblk2 V c 2 t :=
  wl2_of V (dat2 V c) (A_eq2 V c 2) (after2_2 V c) t d
theorem before2_3 (c : Dev nD) (t : Fin cfg2.N) (d) : (dat2 V c).before 3 t d = iblk2 V c 3 t :=
  wr2_of V (dat2 V c) (A_eq2 V c 3) (after2_3 V c) t d
theorem before2_4 (c : Dev nD) (t : Fin cfg2.N) (d) : (dat2 V c).before 4 t d = iblk2 V c 4 t :=
  bias2_of V (dat2 V c) (A_eq2 V c 4) (after2_4 V c) t d

/-! ## The body obligation, at a generic point -/

/-- What the body is called with at point t: the invariant, the core's debt, and each window's
    current buffer at what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies at
    those five blocks; the invariant and the debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Hand.KI.Region3.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The normalise-and-rectify call number 3, point by point, at given entry contents

The call walks the 50000x128 pre-activation array in ten row tiles of 5000x128. At each tile it reads the tile and
three 1x128 rows (the column means, the reciprocal standard deviations, the shifts), and writes
`max((pre - mean) * invstd + beta, 0)` over the whole output tile. This file states, for ANY contents `V` of the
core's buffers when the call is entered, what each staging buffer holds before and after the body at every tile, and
proves the body's Hoare triple there. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The blocks the windows show -/

/-- Window `w`'s block at tile `t`, read off its array as the call finds it (`V`): for window 0 rows
    `5000 t … 5000 t + 4999` of the pre-activations; for windows 1, 2, 3 the whole mean, invstd and beta row. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The pre-activation tile's staging buffer holds tile `t` when the body runs: it is fetched afresh at every tile,
    and for any proof data over `V`'s array whose body leaves the tile in place that fetch is what `before` is. -/
theorem before3_pre_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The mean row's staging buffer holds the row at every tile. Its block index is constant, so it is fetched at the
    first tile only; at a later tile the index has not moved and the body left the row in place, so the buffer still
    holds what a fetch there would bring. -/
theorem before3_mean_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The reciprocal-standard-deviation row's staging buffer holds the row at every tile (as for the mean row). -/
theorem before3_invstd_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The shift row's staging buffer holds the row at every tile (as for the mean row). -/
theorem before3_beta_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 tile: what the body loads of the pre-activation buffer and stores of the output buffer. -/
abbrev tile3 : Rect S5000x128 := Rect.unit (s := S5000x128) ![0, 0] S5000x128.size inb_S5000x128_S5000x128_0_0

/-- The whole 1x128 row: what the body loads of each of the three row buffers. -/
abbrev row3 : Rect S1x128 := Rect.unit (s := S1x128) ![0, 0] S1x128.size inb_S1x128_S1x128_0_0

/-! ## What the body leaves in the output buffer -/

/-- The output tile's staging buffer after the body, from the four input buffers, in window order:
    `x0` the pre-activation tile (window 0), `x1` the mean row (window 1), `x2` the invstd row (window 2),
    `x3` the beta row (window 3) — the order in which the body loads them and the payload takes them.
    One store of the whole tile, of `max((x0 - x1) * x2 + x3, 0)` with the rows broadcast down the tile. -/
def out3 (x0 : Vec F S5000x128 .f32) (x1 : Vec F S1x128 .f32) (x2 : Vec F S1x128 .f32) (x3 : Vec F S1x128 .f32) : Vec F S5000x128 .f32 :=
  View.canon [⟨tile3, k3_pay1 (View.ld x0 tile3) (View.ld x1 row3) (View.ld x2 row3) (View.ld x3 row3)⟩]

/-- That one store is of the whole tile, so it covers the buffer. -/
theorem out3_cover (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

/-! ## The body's triple -/

set_option maxHeartbeats 1000000 in
/-- The body on whole staging memrefs — the four inputs' at contents `x0 … x3`, the output's at anything — runs to a
    continuation that holds the inputs' as they were and the output's at `out3 x0 x1 x2 x3`. The printed function is
    its skeleton: four loads of the inputs, a load of the output buffer whose value is dropped, and one store of the
    payload over the whole output buffer; a buffer written through one whole-buffer store reads back as that piece. -/
theorem bnRelu3_triple (c : Dev nD) (E : Set ℕ) (i : grid3.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3 x0 x1 x2 x3)) -∗ K ⟨⟩))
      ⊢ wp frame (wpE (defs₀ (F := F)) Variants.none c none) E (cc3__bn_relu_kernel i arg0 harg0 arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out3_cover _)

/-! ## The call's proof data -/

/-- The proof data of the call on core `c`: the arrays as the call finds them (`V`); after the body at tile `t` the
    pre-activation buffer at tile `t` and the three row buffers at their rows (the body writes none of them), the output
    buffer at `out3` of those four; the invariant that the scoped rest and the generator register are untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]

/-- Each input's current staging buffer holds its block at every tile, fetched there or not. -/
theorem before3_pre (c : Dev nD) (t : Fin cfg3.N) (d) : (dat3 V c).before 0 t d = iblk3 V c 0 t :=
  before3_pre_of V (dat3 V c) (A_eq3 V c 0) (after3_0 V c) t d
theorem before3_mean (c : Dev nD) (t : Fin cfg3.N) (d) : (dat3 V c).before 1 t d = iblk3 V c 1 t :=
  before3_mean_of V (dat3 V c) (A_eq3 V c 1) (after3_1 V c) t d
theorem before3_invstd (c : Dev nD) (t : Fin cfg3.N) (d) : (dat3 V c).before 2 t d = iblk3 V c 2 t :=
  before3_invstd_of V (dat3 V c) (A_eq3 V c 2) (after3_2 V c) t d
theorem before3_beta (c : Dev nD) (t : Fin cfg3.N) (d) : (dat3 V c).before 3 t d = iblk3 V c 3 t :=
  before3_beta_of V (dat3 V c) (A_eq3 V c 3) (after3_3 V c) t d

/-! ## The body obligation, at a generic tile -/

/-- What the body is called with at tile `t`, the windows one by one, -/
def bnRelu3Pre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bnRelu3Post (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any tile: the inputs' memrefs hold their blocks, so the triple applies; the invariant and the core's
    debts pass through unread. -/
theorem bnRelu3_at_point (c : Dev nD) (t : Fin cfg3.N) :
    bnRelu3Pre V c t ⊢ wp frame (wpE (defs₀ (F := F)) Variants.none c none) Set.univ (bodyAt3 t) (fun _ => bnRelu3Post V c t) := by
  unfold bnRelu3Pre bnRelu3Post bodyAt3
  simp only [before3_pre, before3_mean, before3_invstd, before3_beta]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (bnRelu3_triple c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every tile. -/
theorem body_obligation3 (c : Dev nD) : BodyObligation (dat3 (F := F) V c) (defs₀ (F := F)) Variants.none () Set.univ := fun t => by
  rw [bigSep_W3, bigSep_W3]
  exact bnRelu3_at_point V c t

end Cert.KernelIdeal.Hand

end
-- ==== Proof.Hand.KI.Region4.Base.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The pooling pipeline (pipeline 4): what its three kinds of grid point share

The grid has 25 points, each taking a 2000-row tile of the node features and the matching tile of graph
ids. A 512x128 accumulator lives beside the staging buffers for the whole grid: the first point zeroes
it, every point adds onehot(ids)ᵀ @ tile into it, and the last point alone turns it into the output —
the per-graph mean scaled through the final linear layer and the logistic. So a point is of one of three
kinds (first; neither first nor last; last), told apart by two comparisons of the grid coordinate, and
the output window is written — and written back — at the last point only. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two comparisons, in closed form over the grid -/

/-- "This is the first point": the guard of the zeroing store, as the body computes it from the coordinate. -/
abbrev isFirst4 (i : grid4.Coords) : Prop :=
  (Scalar.cmpi .ne (Scalar.extui (Scalar.cmpi .eq (BitVec.ofNat 32 (i 0).val) 0#32)) 0#32) = 1#1
/-- It holds at point 0 and nowhere else. -/
theorem isFirst4_iff : ∀ t : Fin cfg4.N, isFirst4 (grid4.coords t) ↔ t.val = 0 :=
  (by decide +kernel : ∀ t : Fin grid4.N, isFirst4 (grid4.coords t) ↔ t.val = 0)

/-- "This is the last point": the guard of the output store. -/
abbrev isLast4 (i : grid4.Coords) : Prop := k4_cond2 i = 1#1
/-- It holds at point 24 and nowhere else. -/
theorem isLast4_iff : ∀ t : Fin cfg4.N, isLast4 (grid4.coords t) ↔ t.val = 24 :=
  (by decide +kernel : ∀ t : Fin grid4.N, isLast4 (grid4.coords t) ↔ t.val = 24)

/-! ## Where the output window is idle -/

/-- Off the last point the output window is idle: the body stores nothing into it there, -/
theorem outIdle4 : ∀ t : Fin cfg4.N, ¬isLast4 (grid4.coords t) → cfg4.idle 5 (grid4.coords t) = true := by decide +kernel
/-- and the pipeline does not write its block back there. -/
theorem outNoFlush4 : ∀ t : Fin cfg4.N, ¬isLast4 (grid4.coords t) → (cfg4.win 5).flush t = false := by decide +kernel
/-- At the last point it is live. -/
theorem outLive4 : ∀ t : Fin cfg4.N, isLast4 (grid4.coords t) → cfg4.idle 5 (grid4.coords t) = false := by decide +kernel

/-! ## The buffers the body is called on -/

/-- Each window's current staging buffer at point t, as the pipeline passes it, and its wholeness. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x2 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x2 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x2 .f32 := win4_5.stage (cfg4.slots t 5)
abbrev hs4_5 (t : Fin cfg4.N) : (ms4_5 t).IsWhole := hstage4_5 ((cfg4.slots t 5).cast nbuf4_5)

/-- The accumulator: a whole scoped buffer of the kernel's own, passed beside the windows at every point. -/
abbrev accM4 : Memref sig .tc .vmem S512x128 .f32 := Memref.whole cc4_scratch0

/-- The rectangles the body loads and stores through: each buffer, whole. -/
abbrev accRect4 : Rect S512x128 := Rect.unit (s := S512x128) ![0, 0] S512x128.size inb_S512x128_S512x128_0_0
abbrev featRect4 : Rect S2000x128 := Rect.unit (s := S2000x128) ![0, 0] S2000x128.size inb_S2000x128_S2000x128_0_0
abbrev idRect4 : Rect S2000x1 := Rect.unit (s := S2000x1) ![0, 0] S2000x1.size inb_S2000x1_S2000x1_0_0
abbrev invRect4 : Rect S512x1 := Rect.unit (s := S512x1) ![0, 0] S512x1.size inb_S512x1_S512x1_0_0
abbrev linRect4 : Rect S128x2 := Rect.unit (s := S128x2) ![0, 0] S128x2.size inb_S128x2_S128x2_0_0
abbrev biasRect4 : Rect S1x2 := Rect.unit (s := S1x2) ![0, 0] S1x2.size inb_S1x2_S1x2_0_0
abbrev outRect4 : Rect S512x2 := Rect.unit (s := S512x2) ![0, 0] S512x2.size inb_S512x2_S512x2_0_0

/-- The offsets of all of them are zero. -/
theorem zeroOff4 : (![0, 0] : Fin 2 → Nat) = fun _ => 0 := by funext a; fin_cases a <;> rfl

/-! ## The region invariant with the accumulator taken out

What the region is entered with — every scoped buffer that is no staging buffer at some contents, and
the generator register at some state — is the accumulator at some contents beside all the others, which
the body never touches and which are carried along unopened. -/

/-- The scoped buffers other than the accumulator (and the staging buffers), unopened. -/
abbrev otherScoped4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) accM4 fullShare d)) ∗ otherScoped4 c) ∗ (∃ r, prngReg c r)) := by
  unfold Pipeline.ΦA; rw [scopedRest4_split]; simp only [accM4, owns_whole]; try rfl

end Cert.KernelIdeal.Hand

end
-- ==== Proof.Hand.KI.Region4.RunA.lean ====
import proofs.«429563_j84585085928054_2_alg».proof.Proof.Hand.KI.Region4.Base
import Idealize.ShloMosaic.Lib.Pipeline.Value

/-! # The pooling body at the first grid point

The accumulator is at whatever the region was entered with. The body zeroes it, then does what it does at
every point: accumulator += onehot(ids)ᵀ @ tile, a load of what the zeroing store has just left followed by a
store of the sum over the whole accumulator. So it ends at the first tiles' product added to the zeros. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: whatever the accumulator held, the body stores zeros over it whole, then — as at every
    point — loads the feature tile (x0), the id tile (x1) and the accumulator (now the zeros), and stores the
    one-hot product of the tiles added to those zeros back over it; it touches nothing else. -/
theorem run4_first (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : isFirst4 i) (hlast : ¬isLast4 i)
    (x0 : Vec F S2000x128 .f32) (x1 : Vec F S2000x1 .i32) (E : Set ℕ) (K : PUnit → sProp 𝕄) :
    iprop(owns (c : Thread nD τ) arg1 fullShare x0 ∗ owns (c : Thread nD τ) arg2 fullShare x1 ∗ (∃ d, owns (c : Thread nD τ) arg7 fullShare d)
        ∗ (iprop(owns (c : Thread nD τ) arg1 fullShare x0 ∗ owns (c : Thread nD τ) arg2 fullShare x1 ∗ owns (c : Thread nD τ) arg7 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  sl_unfold_words
  rw [View.read_writes_eq_canon _ _ _ (fun y => ⟨_, List.mem_cons.mpr (Or.inl rfl), View.mem_set_unit_zero zeroOff4 inb_S512x128_S512x128_0_0 y⟩),
    View.canon_cons_unit_zero (S := S512x128) zeroOff4]
  simp only [View.readAt_eq_ld, Memref.IsWhole.read_unread, View.ld_unit_zero (S := S2000x128) zeroOff4,
    View.ld_unit_zero (S := S2000x1) zeroOff4, View.readCov_unit_zero (S := S512x128) _ zeroOff4]

end Cert.KernelIdeal.Hand

end
-- ==== Proof.Hand.KI.Region4.RunB.lean ====
import proofs.«429563_j84585085928054_2_alg».proof.Proof.Hand.KI.Region4.RunA

/-! # The pooling body at a grid point that is neither first nor last

No guard fires: the body only does accumulator += onehot(ids)ᵀ @ tile, over the accumulator as the point
before left it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point that is neither first nor last: with the feature tile at x0, the id tile at x1 and the
    accumulator at xs, the body loads all three, adds the one-hot product of the two tiles to the
    accumulator and stores the sum back over it whole; it touches nothing else. -/
theorem run4_mid (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : ¬isFirst4 i) (hlast : ¬isLast4 i)
    (x0 : Vec F S2000x128 .f32) (x1 : Vec F S2000x1 .i32) (xs : Vec F S512x128 .f32) (E : Set ℕ) (K : PUnit → sProp 𝕄) :
    iprop(owns (c : Thread nD τ) arg1 fullShare x0 ∗ owns (c : Thread nD τ) arg2 fullShare x1 ∗ owns (c : Thread nD τ) arg7 fullShare xs
        ∗ (iprop(owns (c : Thread nD τ) arg1 fullShare x0 ∗ owns (c : Thread nD τ) arg2 fullShare x1 ∗ owns (c : Thread nD τ) arg7 fullShare (k4_pay2 x0 x1 xs)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg7.eq_unread hfs
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  rw [View.read_writes_eq_canon _ _ _ (fun y => ⟨_, List.mem_singleton_self _, View.mem_set_unit_zero zeroOff4 inb_S512x128_S512x128_0_0 y⟩),
    View.canon_unit_zero zeroOff4]
  simp only [View.readAt_eq_ld, Memref.IsWhole.read_unread, View.ld_unit_zero (S := S2000x128) zeroOff4,
    View.ld_unit_zero (S := S2000x1) zeroOff4, View.ld_unit_zero (S := S512x128) zeroOff4]

end Cert.KernelIdeal.Hand

end
-- ==== Proof.Hand.KI.Region4.RunC.lean ====
import proofs.«429563_j84585085928054_2_alg».proof.Proof.Hand.KI.Region4.RunB

/-! # The pooling body at the last grid point

After the accumulation every point does, the guard of the output store fires: the body reads the accumulator
back — the sum it has just stored —, scales each graph's row by that graph's inverse node count, applies the
final linear layer with its bias and the logistic, and stores the result over the whole output buffer. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: after the same accumulation as at every point, the body loads the accumulator back (it
    reads the sum it has just stored), the inverse counts (x2), the linear layer (x3) and its bias (x4), and
    stores logistic((sum * inverse counts) @ layer + bias) over the whole output buffer, whatever that held. -/
theorem run4_last (c : Dev nD) (i : grid4.Coords)
    (arg1 : Memref sig .tc .vmem S2000x128 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S128x2 .f32) (harg4 : arg4.IsWhole)
    (arg5 : Memref sig .tc .vmem S1x2 .f32) (harg5 : arg5.IsWhole) (arg6 : Memref sig .tc .vmem S512x2 .f32) (harg6 : arg6.IsWhole)
    (arg7 : Memref sig .tc .vmem S512x128 .f32) (harg7 : arg7.IsWhole)
    (hfirst : ¬isFirst4 i) (hlast : isLast4 i)
    (x0 : Vec F S2000x128 .f32) (x1 : Vec F S2000x1 .i32) (x2 : Vec F S512x1 .f32) (x3 : Vec F S128x2 .f32) (x4 : Vec F S1x2 .f32)
    (xs : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k4_pay3 (k4_pay2 x0 x1 xs) x2 x3 x4)
            ∗ owns (c : Thread nD τ) arg7 fullShare (k4_pay2 x0 x1 xs)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs
  sl_exec (disch := first | exact hfirst | exact hlast)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_singleton_self _, View.mem_set_unit_zero zeroOff4 inb_S512x2_S512x2_0_0 y⟩),
      View.canon_unit_zero (S := S512x2) zeroOff4]
    simp only [View.readAt_eq_ld, Memref.IsWhole.read_unread, View.readCov_unit_zero (S := S512x128) _ zeroOff4,
      View.ld_unit_zero (S := S2000x128) zeroOff4, View.ld_unit_zero (S := S2000x1) zeroOff4, View.ld_unit_zero (S := S512x128) zeroOff4,
      View.ld_unit_zero (S := S512x1) zeroOff4, View.ld_unit_zero (S := S128x2) zeroOff4, View.ld_unit_zero (S := S1x2) zeroOff4]
  iexists _; isplitr
  swap; · iexact HS
  ipureintro
  sl_unfold_words
  rw [View.read_writes_eq_canon _ _ _ (fun y => ⟨_, List.mem_singleton_self _, View.mem_set_unit_zero zeroOff4 inb_S512x128_S512x128_0_0 y⟩),
    View.canon_unit_zero (S := S512x128) zeroOff4]
  simp only [View.readAt_eq_ld, Memref.IsWhole.read_unread, View.ld_unit_zero (S := S2000x128) zeroOff4,
    View.ld_unit_zero (S := S2000x1) zeroOff4, View.ld_unit_zero (S := S512x128) zeroOff4]

end Cert.KernelIdeal.Hand

end
-- ==== Proof.Hand.KI.Region4.lean ====
import proofs.«429563_j84585085928054_2_alg».proof.Proof.Hand.KI.Region4.RunC

/-! # The pooling pipeline (pipeline 4): its proof data and its body obligation

Entered with its arrays at given contents, the pipeline runs 25 points. The five input windows are only
read: each buffer holds its array's block at every point. The accumulator — a buffer of the kernel's own,
not a window — carries the running per-graph sums from point to point: what it holds after each point is
a recursion on the point, from the zeros the first point stores. The output window is idle until the last
point, which alone stores into it (and alone has it written back): the pooled means through the final
linear layer and the logistic. The region invariant says what the accumulator holds between points; on
entry and on exit it is the plain one, the accumulator at anything. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each window's block of its array -/

/-- The block of window w's array that grid point t addresses, read off the contents the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The last grid point. -/
theorem lastLt4 : 24 < cfg4.N := by decide
abbrev lastPt4 : Fin cfg4.N := ⟨24, lastLt4⟩

/-! ## What the accumulator holds after each point

After point 0: the one-hot product of the first tiles added to the zeros the point has just stored.
After point n + 1: the product of that point's tiles added to what point n left. -/

def acc4 (c : Dev nD) : (n : ℕ) → n < cfg4.N → Vec F S512x128 .f32
  | 0, h0 => k4_pay2 (iblk4 V c 0 ⟨0, h0⟩) (iblk4 V c 1 ⟨0, h0⟩) (k4_pay1 (F := F))
  | n + 1, hn => k4_pay2 (iblk4 V c 0 ⟨n + 1, hn⟩) (iblk4 V c 1 ⟨n + 1, hn⟩) (acc4 c n (Nat.lt_of_succ_lt hn))

theorem acc4_zero (c : Dev nD) (h0 : 0 < cfg4.N) :
    acc4 V c 0 h0 = k4_pay2 (iblk4 V c 0 ⟨0, h0⟩) (iblk4 V c 1 ⟨0, h0⟩) (k4_pay1 (F := F)) := rfl

theorem acc4_succ (c : Dev nD) (n : ℕ) (hn : n + 1 < cfg4.N) :
    acc4 V c (n + 1) hn = k4_pay2 (iblk4 V c 0 ⟨n + 1, hn⟩) (iblk4 V c 1 ⟨n + 1, hn⟩) (acc4 V c n (Nat.lt_of_succ_lt hn)) := rfl

/-- At the first point, in the form the body's run leaves it. -/
theorem acc4_first (c : Dev nD) (t : Fin cfg4.N) (h0 : t.val = 0) :
    acc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- At a later point, over what the point before left. -/
theorem acc4_later (c : Dev nD) (t : Fin cfg4.N) (h0 : t.val ≠ 0) :
    acc4 V c t.val t.isLt
      = k4_pay2 (iblk4 V c 0 t) (iblk4 V c 1 t) (acc4 V c (t.val - 1) (Nat.lt_of_le_of_lt (Nat.sub_le _ _) t.isLt)) := by
  obtain ⟨n, hn⟩ := t
  cases n with
  | zero => exact absurd rfl h0
  | succ n => rfl

/-- What the last point stores over the output buffer: the accumulated sums scaled by the inverse counts, through
    the final linear layer, its bias and the logistic. -/
def out4 (c : Dev nD) : Vec F S512x2 .f32 :=
  k4_pay3 (acc4 V c 24 lastLt4) (iblk4 V c 2 lastPt4) (iblk4 V c 3 lastPt4) (iblk4 V c 4 lastPt4)

/-! ## The invariant between points -/

/-- Before point n: at the first point what the region is entered with (the accumulator at anything); afterwards the
    accumulator at what the point before left, beside the untouched scoped buffers and the generator register. -/
def Phi4 (c : Dev nD) : (n : ℕ) → n ≤ cfg4.N → sProp 𝕄
  | 0, _ => Pipeline.ΦA spec4 c
  | n + 1, hn => iprop(iprop(owns (c : Thread nD τ) accM4 fullShare (acc4 V c n hn) ∗ otherScoped4 c) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) accM4 fullShare (acc4 V c n hn) ∗ otherScoped4 c) ∗ (∃ r, prngReg c r)) := rfl

theorem Phi4_pos (c : Dev nD) (n : ℕ) (h : n ≤ cfg4.N) (hz : n ≠ 0) :
    Phi4 V c n h = iprop(iprop(owns (c : Thread nD τ) accM4 fullShare (acc4 V c (n - 1) (by omega)) ∗ otherScoped4 c) ∗ (∃ r, prngReg c r)) := by
  cases n with
  | zero => exact absurd rfl hz
  | succ n => rfl

/-! ## The pipeline's proof data -/

/-- The arrays as the region finds them; after the body each input buffer still at its block, the output buffer at
    the last point's store (at the other points it is idle, and the entry there is never consulted); the invariant
    above; full shares; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 V c
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 V c := by dsimp only [dat4]

theorem after4_5_last (c : Dev nD) (t : Fin cfg4.N) (ht : t.val = 24) : (dat4 V c).after 5 t = out4 V c := after4_5 V c t

/-! ## An input buffer holds its block whether or not it was just fetched

The two tiles move with the grid point and are fetched at each one; the inverse counts, the linear layer and its
bias sit at a constant block index and are fetched once. A buffer the body never writes still holds the block its
index names: an unfetched point has the index of the point before it. -/

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

/-! ## What the body hands back, window by window -/

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
theorem live4_4 : ∀ t : Fin cfg4.N, cfg4.idle 4 (grid4.coords t) = false := by decide +kernel

/-- An input window is live at every point: its buffer goes back at the block the body left in place. -/
theorem leaves4_0 (c : Dev nD) (t : Fin cfg4.N) :
    (dat4 V c).leavesExact 0 t = owns (c : Thread nD τ) (ms4_0 t) fullShare (iblk4 V c 0 t) := by
  unfold Dat.leavesExact; rw [live4_0 t, after4_0]
theorem leaves4_1 (c : Dev nD) (t : Fin cfg4.N) :
    (dat4 V c).leavesExact 1 t = owns (c : Thread nD τ) (ms4_1 t) fullShare (iblk4 V c 1 t) := by
  unfold Dat.leavesExact; rw [live4_1 t, after4_1]
theorem leaves4_2 (c : Dev nD) (t : Fin cfg4.N) :
    (dat4 V c).leavesExact 2 t = owns (c : Thread nD τ) (ms4_2 t) fullShare (iblk4 V c 2 t) := by
  unfold Dat.leavesExact; rw [live4_2 t, after4_2]
theorem leaves4_3 (c : Dev nD) (t : Fin cfg4.N) :
    (dat4 V c).leavesExact 3 t = owns (c : Thread nD τ) (ms4_3 t) fullShare (iblk4 V c 3 t) := by
  unfold Dat.leavesExact; rw [live4_3 t, after4_3]
theorem leaves4_4 (c : Dev nD) (t : Fin cfg4.N) :
    (dat4 V c).leavesExact 4 t = owns (c : Thread nD τ) (ms4_4 t) fullShare (iblk4 V c 4 t) := by
  unfold Dat.leavesExact; rw [live4_4 t, after4_4]

/-- The output window at the last point, where it is live: its buffer goes back at the point's store. -/
theorem leaves4_5_last (c : Dev nD) (t : Fin cfg4.N) (h : isLast4 (grid4.coords t)) :
    (dat4 V c).leavesExact 5 t = owns (c : Thread nD τ) (ms4_5 t) fullShare (out4 V c) := by
  unfold Dat.leavesExact; rw [outLive4 t h, after4_5]

/-- The last point's store, over that point's own blocks. -/
theorem out4_last (c : Dev nD) (t : Fin cfg4.N) (hl : t.val = 24) :
    out4 V c = k4_pay3 (acc4 V c t.val t.isLt) (iblk4 V c 2 t) (iblk4 V c 3 t) (iblk4 V c 4 t) := by
  have e : t = lastPt4 := Fin.ext hl
  subst e; rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The body at any point. The input buffers hold their blocks; the point is first, last or neither, and that
    kind's run applies. The invariant hands the body the accumulator — at anything at the first point, else at
    what the point before left — and takes it back at this point's sum; the other scoped buffers and the
    generator register pass through untouched; the core owes nothing throughout. Off the last point the output
    buffer goes back as it came; at the last point it goes back at the store. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  rw [leaves4_0, leaves4_1, leaves4_2, leaves4_3, leaves4_4]
  have hN : t.val < 25 := lt_of_lt_of_eq t.isLt (show cfg4.N = 25 from N_4)
  by_cases h0 : t.val = 0
  · have hl : ¬t.val = 24 := by omega
    rw [Dat.leavesExact_idle (dat4 V c) 5 t (outIdle4 t (fun h => hl ((isLast4_iff t).mp h))) (outNoFlush4 t (fun h => hl ((isLast4_iff t).mp h)))]
    rw [acc4_first V c t h0]
    rw [Phi4_castSucc V c t, Phi4_zero V c _ _ h0, PhiA4_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run4_first c (grid4.coords t) _ _ _ _ _ _ _ _ _ _ _ _ _ _ ((isFirst4_iff t).mpr h0) (fun h => hl ((isLast4_iff t).mp h))
      (iblk4 V c 0 t) (iblk4 V c 1 t) Set.univ _)
    isplitl [H0]; · iexact H0
    isplitl [H1]; · iexact H1
    isplitl [HS]; · iexact HS
    iintro ⟨H0, H1, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases hl : t.val = 24
    · rw [leaves4_5_last V c t ((isLast4_iff t).mpr hl)]
      rw [out4_last V c t hl, acc4_later V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_last c (grid4.coords t) _ _ _ _ _ _ _ _ _ _ _ _ _ _ (fun h => h0 ((isFirst4_iff t).mp h)) ((isLast4_iff t).mpr hl)
        (iblk4 V c 0 t) (iblk4 V c 1 t) (iblk4 V c 2 t) (iblk4 V c 3 t) (iblk4 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat4 V c) 5 t (outIdle4 t (fun h => hl ((isLast4_iff t).mp h))) (outNoFlush4 t (fun h => hl ((isLast4_iff t).mp h)))]
      rw [acc4_later V c t h0]
      rw [Phi4_castSucc V c t, Phi4_pos V c _ _ h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run4_mid c (grid4.coords t) _ _ _ _ _ _ _ _ _ _ _ _ _ _ (fun h => h0 ((isFirst4_iff t).mp h)) (fun h => hl ((isLast4_iff t).mp h))
        (iblk4 V c 0 t) (iblk4 V c 1 t) _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point the invariant gives that back: what the accumulator holds is forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, Hrest⟩, Hg⟩
  isplitl [HS Hrest]
  · isplitl [HS]
    · iexists _; iexact HS
    iexact Hrest
  iexact Hg

/-- In particular after the last point. -/
theorem hout4 (c : Dev nD) : (dat4 V c).Φ (Fin.last cfg4.N) ⊢ Pipeline.ΦA spec4 c :=
  Phi4_out V c _ (by rw [Fin.val_last]; have : cfg4.N = 25 := N_4; omega)

end Cert.KernelIdeal.Hand

end
-- ==== Proof.Hand.KI.Fold.lean ====
/-
  The contents of the TensorCore's buffers at every boundary of @main. The program alternates five stretches of host
  operations with five kernel regions. A host stretch maps the contents before it to those after it (the fold of
  its operations); a region changes exactly one buffer, the array its output window writes back, and leaves there
  what its write-backs assemble from the per-point blocks. So the contents at each boundary are determined, one
  after the other, from the launch memory: before region k they are the host stretch applied to the contents after
  region k − 1, and after region k they are those with the region's result array replaced.
-/
import proofs.«429563_j84585085928054_2_alg».proof.Proof.Gen.KernelIdeal.Regions
import proofs.«429563_j84585085928054_2_alg».proof.Proof.Hand.KI.Region0
import proofs.«429563_j84585085928054_2_alg».proof.Proof.Hand.KI.Region1
import proofs.«429563_j84585085928054_2_alg».proof.Proof.Hand.KI.Region2
import proofs.«429563_j84585085928054_2_alg».proof.Proof.Hand.KI.Region3
import proofs.«429563_j84585085928054_2_alg».proof.Proof.Hand.KI.Region4

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## The boundaries, one after the other -/

/-- Before region 0: the first host stretch applied to the launch contents. -/
abbrev B1 (c : Dev nD) : Valuation τ sig (Elt F) := Gen.V1 m c
/-- The same read at the TensorCore's references. -/
abbrev E1 (c : Dev nD) (b : Ref sig .tc) : Buf (Elt F) ((c : Thread nD τ).loc b) := B1 m c b
/-- What region 0 leaves in its result array. -/
def o2 (c : Dev nD) : Buf (Elt F) ((c : Thread nD τ).loc main_v29) := (dat0 (E1 m) c).arrAt 5 cfg0.N
/-- After region 0. -/
abbrev B2 (c : Dev nD) : Valuation τ sig (Elt F) := Function.update (B1 m c) main_v29 (o2 m c)
/-- Before region 1. -/
abbrev B3 (c : Dev nD) : Valuation τ sig (Elt F) := StableHlo.after hostOps1 (B2 m c)
abbrev E3 (c : Dev nD) (b : Ref sig .tc) : Buf (Elt F) ((c : Thread nD τ).loc b) := B3 m c b
/-- What region 1 leaves in its result array. -/
def o4 (c : Dev nD) : Buf (Elt F) ((c : Thread nD τ).loc main_v49) := (dat1 (E3 m) c).arrAt 4 cfg1.N
abbrev B4 (c : Dev nD) : Valuation τ sig (Elt F) := Function.update (B3 m c) main_v49 (o4 m c)
abbrev B5 (c : Dev nD) : Valuation τ sig (Elt F) := StableHlo.after hostOps2 (B4 m c)
abbrev E5 (c : Dev nD) (b : Ref sig .tc) : Buf (Elt F) ((c : Thread nD τ).loc b) := B5 m c b
/-- What region 2 leaves in its result array. -/
def o6 (c : Dev nD) : Buf (Elt F) ((c : Thread nD τ).loc main_v66) := (dat2 (E5 m) c).arrAt 5 cfg2.N
abbrev B6 (c : Dev nD) : Valuation τ sig (Elt F) := Function.update (B5 m c) main_v66 (o6 m c)
abbrev B7 (c : Dev nD) : Valuation τ sig (Elt F) := StableHlo.after hostOps3 (B6 m c)
abbrev E7 (c : Dev nD) (b : Ref sig .tc) : Buf (Elt F) ((c : Thread nD τ).loc b) := B7 m c b
/-- What region 3 leaves in its result array. -/
def o8 (c : Dev nD) : Buf (Elt F) ((c : Thread nD τ).loc main_v86) := (dat3 (E7 m) c).arrAt 4 cfg3.N
abbrev B8 (c : Dev nD) : Valuation τ sig (Elt F) := Function.update (B7 m c) main_v86 (o8 m c)
abbrev B9 (c : Dev nD) : Valuation τ sig (Elt F) := StableHlo.after hostOps4 (B8 m c)
abbrev E9 (c : Dev nD) (b : Ref sig .tc) : Buf (Elt F) ((c : Thread nD τ).loc b) := B9 m c b
/-- What region 4 leaves in its result array: the program's result. -/
def o10 (c : Dev nD) : Buf (Elt F) ((c : Thread nD τ).loc main_v97) := (dat4 (E9 m) c).arrAt 5 cfg4.N

/-- What the regions leave, as the family the conditional frame is stated over: each region's result array at what
    the region leaves in it, any other buffer (never consulted) at its launch contents. -/
def outsH : Outs (F := F) := fun _ r c =>
  if h : r = main_v29 then h ▸ o2 m c
  else if h : r = main_v49 then h ▸ o4 m c
  else if h : r = main_v66 then h ▸ o6 m c
  else if h : r = main_v86 then h ▸ o8 m c
  else if h : r = main_v97 then h ▸ o10 m c
  else m ((c : Thread nD τ).loc r)

theorem outsH_v29 (J : ℕ) (c : Dev nD) : outsH m J main_v29 c = o2 m c := by
  unfold outsH; rw [dif_pos rfl]
theorem outsH_v49 (J : ℕ) (c : Dev nD) : outsH m J main_v49 c = o4 m c := by
  unfold outsH; rw [dif_neg (by decide), dif_pos rfl]
theorem outsH_v66 (J : ℕ) (c : Dev nD) : outsH m J main_v66 c = o6 m c := by
  unfold outsH; rw [dif_neg (by decide), dif_neg (by decide), dif_pos rfl]
theorem outsH_v86 (J : ℕ) (c : Dev nD) : outsH m J main_v86 c = o8 m c := by
  unfold outsH; rw [dif_neg (by decide), dif_neg (by decide), dif_neg (by decide), dif_pos rfl]
theorem outsH_v97 (J : ℕ) (c : Dev nD) : outsH m J main_v97 c = o10 m c := by
  unfold outsH; rw [dif_neg (by decide), dif_neg (by decide), dif_neg (by decide), dif_neg (by decide), dif_pos rfl]

/-! ## The conditional frame's valuations are these boundaries -/

theorem V2_eq (c : Dev nD) : Gen.V2 m (outsH m) c = B2 m c := by
  show Function.update (Gen.V1 m c) main_v29 (outsH m 2 main_v29 c) = _
  rw [outsH_v29]
theorem V3_eq (c : Dev nD) : Gen.V3 m (outsH m) c = B3 m c := by
  show StableHlo.after hostOps1 (Gen.V2 m (outsH m) c) = _
  rw [V2_eq]
theorem V4_eq (c : Dev nD) : Gen.V4 m (outsH m) c = B4 m c := by
  show Function.update (Gen.V3 m (outsH m) c) main_v49 (outsH m 4 main_v49 c) = _
  rw [outsH_v49, V3_eq]
theorem V5_eq (c : Dev nD) : Gen.V5 m (outsH m) c = B5 m c := by
  show StableHlo.after hostOps2 (Gen.V4 m (outsH m) c) = _
  rw [V4_eq]
theorem V6_eq (c : Dev nD) : Gen.V6 m (outsH m) c = B6 m c := by
  show Function.update (Gen.V5 m (outsH m) c) main_v66 (outsH m 6 main_v66 c) = _
  rw [outsH_v66, V5_eq]
theorem V7_eq (c : Dev nD) : Gen.V7 m (outsH m) c = B7 m c := by
  show StableHlo.after hostOps3 (Gen.V6 m (outsH m) c) = _
  rw [V6_eq]
theorem V8_eq (c : Dev nD) : Gen.V8 m (outsH m) c = B8 m c := by
  show Function.update (Gen.V7 m (outsH m) c) main_v86 (outsH m 8 main_v86 c) = _
  rw [outsH_v86, V7_eq]
theorem V9_eq (c : Dev nD) : Gen.V9 m (outsH m) c = B9 m c := by
  show StableHlo.after hostOps4 (Gen.V8 m (outsH m) c) = _
  rw [V8_eq]

/-! ## Every pipeline's proof data, each at its region's entry contents -/

/-- No pipeline has a prefetched table. -/
abbrev admH : (p : Fin 5) → (pcfgs (F := F) p).Adm := fun p => (cfgs p).toPCfg_adm

/-- The proof data of the five pipelines: a literal match, so that at a numeral it reduces to the region's own. -/
def pdatsH : (p : Fin 5) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

end Cert.KernelIdeal.Hand

end
-- ==== Proof.Hand.KI.Regs.lean ====
/-
  The five kernel regions as segments of @main. Between two items of @main a core holds every unscoped buffer at the
  contents the fold gives for that boundary, its generator register at some state, and owes nothing. A region takes
  its windows' arrays out of those buffers, runs its pipeline over them, and puts them back with its result array
  at what the write-backs assembled; everything else bypasses the region untouched.
-/
import proofs.«429563_j84585085928054_2_alg».proof.Proof.Hand.KI.Fold
import Idealize.ShloMosaic.Lib.Pipeline.RegionsLoop
import Idealize.ShloMosaic.Lib.Pipeline.FrameSuffix
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)

/-- After region 4: the program's result array replaced. -/
abbrev B10 (c : Dev nD) : Valuation τ sig (Elt F) := Function.update (B9 m c) main_v97 (o10 m c)
theorem V10_eq (c : Dev nD) : Gen.V10 m (outsH m) c = B10 m c := by
  show Function.update (Gen.V9 m (outsH m) c) main_v97 (outsH m 10 main_v97 c) = _
  rw [outsH_v97, V9_eq]

/-! ## Region 0 -/

set_option maxHeartbeats 2000000 in
/-- For ANY contents before region 0: after it each of its arrays holds what the pipeline leaves — an input's array is as the
    region found it, and the result array is the replaced entry. -/
theorem leaves0_of (Bin : Dev nD → Valuation τ sig (Elt F)) (c : Dev nD) (w : Fin cfg0.W) :
    (dat0 (fun c b => Bin c b) c).arrAt w cfg0.N
      = Function.update (Bin c) main_v29 (show Buf (Elt F) ((c : Thread nD τ).loc main_v29) from (dat0 (fun c b => Bin c b) c).arrAt 5 cfg0.N) (Proc.devRef .tc (Pipeline.arrRef spec0 w)) := by
  obtain ⟨k, hk⟩ := w
  have hk' : k < 6 := hk
  interval_cases k
  · exact (((dat0 (fun c b => Bin c b) c).arrAt_in 0 rfl _).trans (A_eq0 (fun c b => Bin c b) c _)).trans (Function.update_of_ne (StableHlo.devRef_ne_of_ne (by decide)) _ _).symm
  · exact (((dat0 (fun c b => Bin c b) c).arrAt_in 1 rfl _).trans (A_eq0 (fun c b => Bin c b) c _)).trans (Function.update_of_ne (StableHlo.devRef_ne_of_ne (by decide)) _ _).symm
  · exact (((dat0 (fun c b => Bin c b) c).arrAt_in 2 rfl _).trans (A_eq0 (fun c b => Bin c b) c _)).trans (Function.update_of_ne (StableHlo.devRef_ne_of_ne (by decide)) _ _).symm
  · exact (((dat0 (fun c b => Bin c b) c).arrAt_in 3 rfl _).trans (A_eq0 (fun c b => Bin c b) c _)).trans (Function.update_of_ne (StableHlo.devRef_ne_of_ne (by decide)) _ _).symm
  · exact (((dat0 (fun c b => Bin c b) c).arrAt_in 4 rfl _).trans (A_eq0 (fun c b => Bin c b) c _)).trans (Function.update_of_ne (StableHlo.devRef_ne_of_ne (by decide)) _ _).symm
  · exact (Function.update_self (f := Bin c) (Proc.devRef .tc main_v29) _).symm

theorem leaves0 (c : Dev nD) (w : Fin cfg0.W) : (dat0 (E1 m) c).arrAt w cfg0.N = B2 m c (Proc.devRef .tc (Pipeline.arrRef spec0 w)) :=
  leaves0_of (B1 m) c w

/-- Every buffer that is no array of region 0 is as the region found it. -/
theorem keeps0 (c : Dev nD) : ∀ b : Ref sig .tc, b ∉ Finset.univ.image (Pipeline.arrRef spec0) → B2 m c b = B1 m c b :=
  fun b hb => Function.update_of_ne (StableHlo.devRef_ne_of_ne fun e => hb (Finset.mem_image.mpr ⟨5, Finset.mem_univ _, e.symm⟩)) _ _

/-! ## Region 1 -/

set_option maxHeartbeats 2000000 in
/-- For ANY contents before region 1: after it each of its arrays holds what the pipeline leaves — an input's array is as the
    region found it, and the result array is the replaced entry. -/
theorem leaves1_of (Bin : Dev nD → Valuation τ sig (Elt F)) (c : Dev nD) (w : Fin cfg1.W) :
    (dat1 (fun c b => Bin c b) c).arrAt w cfg1.N
      = Function.update (Bin c) main_v49 (show Buf (Elt F) ((c : Thread nD τ).loc main_v49) from (dat1 (fun c b => Bin c b) c).arrAt 4 cfg1.N) (Proc.devRef .tc (Pipeline.arrRef spec1 w)) := by
  obtain ⟨k, hk⟩ := w
  have hk' : k < 5 := hk
  interval_cases k
  · exact (((dat1 (fun c b => Bin c b) c).arrAt_in 0 rfl _).trans (A_eq1 (fun c b => Bin c b) c _)).trans (Function.update_of_ne (StableHlo.devRef_ne_of_ne (by decide)) _ _).symm
  · exact (((dat1 (fun c b => Bin c b) c).arrAt_in 1 rfl _).trans (A_eq1 (fun c b => Bin c b) c _)).trans (Function.update_of_ne (StableHlo.devRef_ne_of_ne (by decide)) _ _).symm
  · exact (((dat1 (fun c b => Bin c b) c).arrAt_in 2 rfl _).trans (A_eq1 (fun c b => Bin c b) c _)).trans (Function.update_of_ne (StableHlo.devRef_ne_of_ne (by decide)) _ _).symm
  · exact (((dat1 (fun c b => Bin c b) c).arrAt_in 3 rfl _).trans (A_eq1 (fun c b => Bin c b) c _)).trans (Function.update_of_ne (StableHlo.devRef_ne_of_ne (by decide)) _ _).symm
  · exact (Function.update_self (f := Bin c) (Proc.devRef .tc main_v49) _).symm

theorem leaves1 (c : Dev nD) (w : Fin cfg1.W) : (dat1 (E3 m) c).arrAt w cfg1.N = B4 m c (Proc.devRef .tc (Pipeline.arrRef spec1 w)) :=
  leaves1_of (B3 m) c w

/-- Every buffer that is no array of region 1 is as the region found it. -/
theorem keeps1 (c : Dev nD) : ∀ b : Ref sig .tc, b ∉ Finset.univ.image (Pipeline.arrRef spec1) → B4 m c b = B3 m c b :=
  fun b hb => Function.update_of_ne (StableHlo.devRef_ne_of_ne fun e => hb (Finset.mem_image.mpr ⟨4, Finset.mem_univ _, e.symm⟩)) _ _

/-! ## Region 2 -/

set_option maxHeartbeats 2000000 in
/-- For ANY contents before region 2: after it each of its arrays holds what the pipeline leaves — an input's array is as the
    region found it, and the result array is the replaced entry. -/
theorem leaves2_of (Bin : Dev nD → Valuation τ sig (Elt F)) (c : Dev nD) (w : Fin cfg2.W) :
    (dat2 (fun c b => Bin c b) c).arrAt w cfg2.N
      = Function.update (Bin c) main_v66 (show Buf (Elt F) ((c : Thread nD τ).loc main_v66) from (dat2 (fun c b => Bin c b) c).arrAt 5 cfg2.N) (Proc.devRef .tc (Pipeline.arrRef spec2 w)) := by
  obtain ⟨k, hk⟩ := w
  have hk' : k < 6 := hk
  interval_cases k
  · exact (((dat2 (fun c b => Bin c b) c).arrAt_in 0 rfl _).trans (A_eq2 (fun c b => Bin c b) c _)).trans (Function.update_of_ne (StableHlo.devRef_ne_of_ne (by decide)) _ _).symm
  · exact (((dat2 (fun c b => Bin c b) c).arrAt_in 1 rfl _).trans (A_eq2 (fun c b => Bin c b) c _)).trans (Function.update_of_ne (StableHlo.devRef_ne_of_ne (by decide)) _ _).symm
  · exact (((dat2 (fun c b => Bin c b) c).arrAt_in 2 rfl _).trans (A_eq2 (fun c b => Bin c b) c _)).trans (Function.update_of_ne (StableHlo.devRef_ne_of_ne (by decide)) _ _).symm
  · exact (((dat2 (fun c b => Bin c b) c).arrAt_in 3 rfl _).trans (A_eq2 (fun c b => Bin c b) c _)).trans (Function.update_of_ne (StableHlo.devRef_ne_of_ne (by decide)) _ _).symm
  · exact (((dat2 (fun c b => Bin c b) c).arrAt_in 4 rfl _).trans (A_eq2 (fun c b => Bin c b) c _)).trans (Function.update_of_ne (StableHlo.devRef_ne_of_ne (by decide)) _ _).symm
  · exact (Function.update_self (f := Bin c) (Proc.devRef .tc main_v66) _).symm

theorem leaves2 (c : Dev nD) (w : Fin cfg2.W) : (dat2 (E5 m) c).arrAt w cfg2.N = B6 m c (Proc.devRef .tc (Pipeline.arrRef spec2 w)) :=
  leaves2_of (B5 m) c w

/-- Every buffer that is no array of region 2 is as the region found it. -/
theorem keeps2 (c : Dev nD) : ∀ b : Ref sig .tc, b ∉ Finset.univ.image (Pipeline.arrRef spec2) → B6 m c b = B5 m c b :=
  fun b hb => Function.update_of_ne (StableHlo.devRef_ne_of_ne fun e => hb (Finset.mem_image.mpr ⟨5, Finset.mem_univ _, e.symm⟩)) _ _

/-! ## Region 3 -/

set_option maxHeartbeats 2000000 in
/-- For ANY contents before region 3: after it each of its arrays holds what the pipeline leaves — an input's array is as the
    region found it, and the result array is the replaced entry. -/
theorem leaves3_of (Bin : Dev nD → Valuation τ sig (Elt F)) (c : Dev nD) (w : Fin cfg3.W) :
    (dat3 (fun c b => Bin c b) c).arrAt w cfg3.N
      = Function.update (Bin c) main_v86 (show Buf (Elt F) ((c : Thread nD τ).loc main_v86) from (dat3 (fun c b => Bin c b) c).arrAt 4 cfg3.N) (Proc.devRef .tc (Pipeline.arrRef spec3 w)) := by
  obtain ⟨k, hk⟩ := w
  have hk' : k < 5 := hk
  interval_cases k
  · exact (((dat3 (fun c b => Bin c b) c).arrAt_in 0 rfl _).trans (A_eq3 (fun c b => Bin c b) c _)).trans (Function.update_of_ne (StableHlo.devRef_ne_of_ne (by decide)) _ _).symm
  · exact (((dat3 (fun c b => Bin c b) c).arrAt_in 1 rfl _).trans (A_eq3 (fun c b => Bin c b) c _)).trans (Function.update_of_ne (StableHlo.devRef_ne_of_ne (by decide)) _ _).symm
  · exact (((dat3 (fun c b => Bin c b) c).arrAt_in 2 rfl _).trans (A_eq3 (fun c b => Bin c b) c _)).trans (Function.update_of_ne (StableHlo.devRef_ne_of_ne (by decide)) _ _).symm
  · exact (((dat3 (fun c b => Bin c b) c).arrAt_in 3 rfl _).trans (A_eq3 (fun c b => Bin c b) c _)).trans (Function.update_of_ne (StableHlo.devRef_ne_of_ne (by decide)) _ _).symm
  · exact (Function.update_self (f := Bin c) (Proc.devRef .tc main_v86) _).symm

theorem leaves3 (c : Dev nD) (w : Fin cfg3.W) : (dat3 (E7 m) c).arrAt w cfg3.N = B8 m c (Proc.devRef .tc (Pipeline.arrRef spec3 w)) :=
  leaves3_of (B7 m) c w

/-- Every buffer that is no array of region 3 is as the region found it. -/
theorem keeps3 (c : Dev nD) : ∀ b : Ref sig .tc, b ∉ Finset.univ.image (Pipeline.arrRef spec3) → B8 m c b = B7 m c b :=
  fun b hb => Function.update_of_ne (StableHlo.devRef_ne_of_ne fun e => hb (Finset.mem_image.mpr ⟨4, Finset.mem_univ _, e.symm⟩)) _ _

/-! ## Region 4 -/

set_option maxHeartbeats 2000000 in
/-- For ANY contents before region 4: after it each of its arrays holds what the pipeline leaves — an input's array is as the
    region found it, and the result array is the replaced entry. -/
theorem leaves4_of (Bin : Dev nD → Valuation τ sig (Elt F)) (c : Dev nD) (w : Fin cfg4.W) :
    (dat4 (fun c b => Bin c b) c).arrAt w cfg4.N
      = Function.update (Bin c) main_v97 (show Buf (Elt F) ((c : Thread nD τ).loc main_v97) from (dat4 (fun c b => Bin c b) c).arrAt 5 cfg4.N) (Proc.devRef .tc (Pipeline.arrRef spec4 w)) := by
  obtain ⟨k, hk⟩ := w
  have hk' : k < 6 := hk
  interval_cases k
  · exact (((dat4 (fun c b => Bin c b) c).arrAt_in 0 rfl _).trans (A_eq4 (fun c b => Bin c b) c _)).trans (Function.update_of_ne (StableHlo.devRef_ne_of_ne (by decide)) _ _).symm
  · exact (((dat4 (fun c b => Bin c b) c).arrAt_in 1 rfl _).trans (A_eq4 (fun c b => Bin c b) c _)).trans (Function.update_of_ne (StableHlo.devRef_ne_of_ne (by decide)) _ _).symm
  · exact (((dat4 (fun c b => Bin c b) c).arrAt_in 2 rfl _).trans (A_eq4 (fun c b => Bin c b) c _)).trans (Function.update_of_ne (StableHlo.devRef_ne_of_ne (by decide)) _ _).symm
  · exact (((dat4 (fun c b => Bin c b) c).arrAt_in 3 rfl _).trans (A_eq4 (fun c b => Bin c b) c _)).trans (Function.update_of_ne (StableHlo.devRef_ne_of_ne (by decide)) _ _).symm
  · exact (((dat4 (fun c b => Bin c b) c).arrAt_in 4 rfl _).trans (A_eq4 (fun c b => Bin c b) c _)).trans (Function.update_of_ne (StableHlo.devRef_ne_of_ne (by decide)) _ _).symm
  · exact (Function.update_self (f := Bin c) (Proc.devRef .tc main_v97) _).symm

theorem leaves4 (c : Dev nD) (w : Fin cfg4.W) : (dat4 (E9 m) c).arrAt w cfg4.N = B10 m c (Proc.devRef .tc (Pipeline.arrRef spec4 w)) :=
  leaves4_of (B9 m) c w

/-- Every buffer that is no array of region 4 is as the region found it. -/
theorem keeps4 (c : Dev nD) : ∀ b : Ref sig .tc, b ∉ Finset.univ.image (Pipeline.arrRef spec4) → B10 m c b = B9 m c b :=
  fun b hb => Function.update_of_ne (StableHlo.devRef_ne_of_ne fun e => hb (Finset.mem_image.mpr ⟨5, Finset.mem_univ _, e.symm⟩)) _ _

/-! ## The segments -/

set_option backward.isDefEq.respectTransparency.types false in
/-- Region 0 over the thread state: entered with every unscoped buffer at the contents before it, left with them at the
    contents after it. Its arrays are split out of the unscoped buffers at entry and put back, the result array
    replaced, at exit; the generator register goes into the region's invariant and comes back; nothing is owed; the
    kernel has no semaphore of its own. -/
def reg0 : RegionSeg (pcfgs (F := F)) admH (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (fun b => B2 m c b) ((pdatsH m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers at entry and put back, the result array
    replaced, at exit; the generator register goes into the region's invariant and comes back; nothing is owed; the
    kernel has no semaphore of its own. -/
def reg1 : RegionSeg (pcfgs (F := F)) admH (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(StableHlo.held (c : Thread nD τ) (Pipeline.ucRefs τ sig) (B4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (fun b => B4 m c b) ((pdatsH m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers at entry and put back, the result array
    replaced, at exit; the generator register goes into the region's invariant and comes back; nothing is owed; the
    kernel has no semaphore of its own. -/
def reg2 : RegionSeg (pcfgs (F := F)) admH (pdatsH m) () defs₀ Variants.none LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (B5 m c) ∗ RH c)
  post c := iprop(StableHlo.held (c : Thread nD τ) (Pipeline.ucRefs τ sig) (B6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (fun b => B6 m c b) ((pdatsH m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it. Its arrays are split out of the unscoped buffers at entry and put back, the result array
    replaced, at exit; the generator register goes into the region's invariant and comes back; nothing is owed; the
    kernel has no semaphore of its own. -/
def reg3 : RegionSeg (pcfgs (F := F)) admH (pdatsH m) () defs₀ Variants.none LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (B7 m c) ∗ RH c)
  post c := iprop(StableHlo.held (c : Thread nD τ) (Pipeline.ucRefs τ sig) (B8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (fun b => B8 m c b) ((pdatsH m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at the contents before it, left with them at the
    contents after it. Its arrays are split out of the unscoped buffers at entry and put back, the result array
    replaced, at exit; the generator register goes into the region's invariant and comes back; nothing is owed; the
    kernel has no semaphore of its own. -/
def reg4 : RegionSeg (pcfgs (F := F)) admH (pdatsH m) () defs₀ Variants.none LH lvH 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LH lvH 4 fun _ _ => rfl
  pre c := iprop(StableHlo.held (c : Thread nD τ) (Pipeline.ucRefs τ sig) (B9 m c) ∗ RH c)
  post c := iprop(StableHlo.held (c : Thread nD τ) (Pipeline.ucRefs τ sig) (B10 m c) ∗ RH c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = (dat4 (E9 m) c).Φ 0 from rfl]
    have h4 := hin4 (E9 m) c
    unfold Pipeline.ΦA at h4
    iintro ⟨Hp, -, Hr⟩
    iapply h4
    isplitl [Hr]; · iexact Hr
    iexact Hp
  hout c := by
    rw [Pipeline.ownSems0_none, show (pdatsH m 4 c).Φ (Fin.last _) = (dat4 (E9 m) c).Φ (Fin.last cfg4.N) from rfl]
    have h4 := hout4 (E9 m) c
    unfold Pipeline.ΦA at h4
    iintro H
    ihave H' := h4 $$ H
    icases H' with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (E9 m c) (fun b => B10 m c b) ((pdatsH m 4 c).arrAt · cfg4.N) (leaves4 m c) (keeps4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Hand.KI.Frame.lean ====
/-
  The frame of the program at any float instance: from any memory with every semaphore counter at zero, every weakly
  fair execution of @main terminates without a fault and leaves each of the fifteen argument arrays as launched.
  No host operation writes an argument and no region's output window is an argument's array, so the fold through
  @main's ten items reads every argument back to its launch contents; the five regions are the segments of the
  fold, each entered from the boundary before it and left at the one after it.
-/
import proofs.«429563_j84585085928054_2_alg».proof.Proof.Hand.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates and leaves the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (F := F) m (Ix := Unit) (U := UR sig nD τ) (Lvl := ℕ) emb₁ () Variants.none LH lvH (fun _ _ => rfl) ρ (outsH m) (pdatsH m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RH c)
    (hE0 := by
      refine Pipeline.initEach LH lvH fun c => ?_
      iintro ⟨⟨-, HO, -, Hp, -⟩, -⟩
      imodintro
      isplitl [Hp]; · iexists _; iexact Hp
      iexists ∅; iexact HO)
    (hE5 := fun c => by iintro ⟨-, HO⟩; iexact HO)
    (R0 := reg0 m) (hpre0 := fun c => .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V9_eq]; exact .rfl) (hpost4 := fun c => by rw [V10_eq]; exact .rfl)

end Cert.KernelIdeal.Hand

end
-- ==== Proof.Hand.RefRun.lean ====
/-
  The reference program has no kernel region: it is a straight line of host operations, so its run is the
  composition of those operations on the launch contents. Its frame — it terminates, nothing faults, and every
  argument array ends as launched — is that run with the result forgotten.
-/
import proofs.«429563_j84585085928054_2_alg».proof.Defs
import proofs.«429563_j84585085928054_2_alg».proof.Proof.Gen.ReferenceIdeal
import proofs.«429563_j84585085928054_2_alg».proof.Proof.Gen.Pre_finite_inputs
import proofs.«429563_j84585085928054_2_alg».proof.Proof.Gen.ReferenceIdeal.Run
import proofs.«429563_j84585085928054_2_alg».proof.Proof.Gen.ReferenceIdeal.Read

noncomputable section

open Idealize.ShloMosaic Idealize.ShloMosaic.TcCoe Idealize.SL.Sem

namespace Cert.Proof.Hand

/-- Every weakly fair execution of the reference terminates with its fifteen arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Hand

end
-- ==== Proof.Hand.KI.RunVal.lean ====
/-
  The run of the program with its result named: besides leaving the arguments unchanged, every weakly fair execution
  ends with the result array at what region 4's write-back leaves in it, read off the last boundary of the fold.
-/
import proofs.«429563_j84585085928054_2_alg».proof.Proof.Hand.KI.Regs
import proofs.«429563_j84585085928054_2_alg».proof.Proof.Hand.KI.FrameCondVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the pool region's output and the
    arguments unchanged. -/
theorem run_val : θ_run defs (onTc (τ := τ) (main (F := F))) ⟨m, fun _ => 0, ρ⟩ (fun r => ∀ c : Dev nD,
      r.2.mem ((c.tc : Thread nD τ).loc main_v97) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have h :=
    Gen.frame_cond_val (F := F) m (Ix := Unit) (U := UR sig nD τ) (Lvl := ℕ) emb₁ () Variants.none LH lvH (fun _ _ => rfl) ρ (outsH m) (pdatsH m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => RH c)
      (hE0 := by
        refine Pipeline.initEach LH lvH fun c => ?_
        iintro ⟨⟨-, HO, -, Hp, -⟩, -⟩
        imodintro
        isplitl [Hp]; · iexists _; iexact Hp
        iexists ∅; iexact HO)
      (hE5 := fun c => by iintro ⟨-, HO⟩; iexact HO)
      (R0 := reg0 m) (hpre0 := fun c => .rfl) (hpost0 := fun c => by rw [V2_eq]; exact .rfl)
      (R1 := reg1 m) (hpre1 := fun c => by rw [V3_eq]; exact .rfl) (hpost1 := fun c => by rw [V4_eq]; exact .rfl)
      (R2 := reg2 m) (hpre2 := fun c => by rw [V5_eq]; exact .rfl) (hpost2 := fun c => by rw [V6_eq]; exact .rfl)
      (R3 := reg3 m) (hpre3 := fun c => by rw [V7_eq]; exact .rfl) (hpost3 := fun c => by rw [V8_eq]; exact .rfl)
      (R4 := reg4 m) (hpre4 := fun c => by rw [V9_eq]; exact .rfl) (hpost4 := fun c => by rw [V10_eq]; exact .rfl)
  refine (θ_run defs _ _).mono (fun r hr c => ?_) h
  have := hr c
  rw [outsH_v97] at this
  exact this

end Cert.KernelIdeal.Hand

end
-- ==== Proof.Hand.Stage.Agg.lean ====
/-
  The neighbour aggregate of a GraphSAGE layer, as a function of the node features and the edge list: on the kernel's
  side the mean is the scatter-added neighbour sum times a precomputed reciprocal of the clamped in-degree, on the
  reference's side the same sum divided by the clamped in-degree. On extended reals the two agree at every index.
-/
import proofs.«429563_j84585085928054_2_alg».proof.KernelIdeal
import proofs.«429563_j84585085928054_2_alg».proof.ReferenceIdeal
import proofs.«429563_j84585085928054_2_alg».proof.Proof.Gen.KernelIdeal
import proofs.«429563_j84585085928054_2_alg».proof.Proof.Gen.ReferenceIdeal
import proofs.«429563_j84585085928054_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Proof.Hand.Stage

open Idealize.ShloMosaic Idealize.ShloMosaic.TcCoe Idealize.SL.Sem Idealize.ShloMosaic.StableHlo

/-! ## The kernel's host side -/

section KernelSide
open Cert.KernelIdeal Cert.KernelIdeal.Gen

/-- Row 0 of the edge list: the source node of every edge. -/
def kSrc (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: the destination node of every edge. -/
def kDst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The in-degree of every node: a one per edge scatter-added into zeros at the edge's destination. -/
def kDegCount (dst : (⟨S800000, .i32⟩ : BufTy).Contents (Elt Ideal)) : (⟨S50000, .f32⟩ : BufTy).Contents (Elt Ideal) :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- One over the in-degree clamped below by one. -/
def kInvDeg (dst : (⟨S800000, .i32⟩ : BufTy).Contents (Elt Ideal)) : (⟨S50000, .f32⟩ : BufTy).Contents (Elt Ideal) :=
  Host.divf (F := Ideal) (φ := .f32)
    (broadcastInDim S50000 ![] bcast_S_S50000 (constant (F := Ideal) S_ .f32 0x3F800000#32))
    (maximumf (F := Ideal) (φ := .f32) (kDegCount dst)
      (broadcastInDim S50000 ![] bcast_S_S50000 (constant (F := Ideal) S_ .f32 0x3F800000#32)))

/-- A negative source index counts from the end: 50000 is added to it. -/
def kAggWrap (src : (⟨S800000, .i32⟩ : BufTy).Contents (Elt Ideal)) : (⟨S800000, .i32⟩ : BufTy).Contents (Elt Ideal) :=
  select
    (cmpi .slt src (broadcastInDim S800000 ![] bcast_S_S800000 (constantI S_ 32 0#32)))
    (addi src (broadcastInDim S800000 ![] bcast_S_S800000 (constantI S_ 32 50000#32)))
    src

/-- The sum over incoming edges of the source's feature row, the features passing through bf16 on the way. -/
def kAggNbrSum (feat : (⟨S50000x128, .f32⟩ : BufTy).Contents (Elt Ideal))
    (src dst : (⟨S800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (extf (F := Ideal) (φ := .bf16) .f32
      (Host.gather gather_S50000x128_S800000x1_S800000x128_1_0_n_n_0_1_1128
        (truncf (F := Ideal) (φ := .f32) .bf16 feat bitsLt_bf16_f32 : (⟨S50000x128, .bf16⟩ : BufTy).Contents (Elt Ideal))
        (broadcastInDim S800000x1 ![0] bcast_S800000_S800000x1_0 (kAggWrap src))
        : (⟨S800000x128, .bf16⟩ : BufTy).Contents (Elt Ideal))
      bitsLt_bf16_f32)

/-- The neighbour mean: the neighbour sum times the per-node reciprocal, broadcast along the feature axis. -/
def kAgg (feat : (⟨S50000x128, .f32⟩ : BufTy).Contents (Elt Ideal))
    (src dst : (⟨S800000, .i32⟩ : BufTy).Contents (Elt Ideal))
    (invdeg : (⟨S50000, .f32⟩ : BufTy).Contents (Elt Ideal)) : (⟨S50000x128, .f32⟩ : BufTy).Contents (Elt Ideal) :=
  mulf (F := Ideal) (φ := .f32) (kAggNbrSum feat src dst)
    (broadcastInDim S50000x128 ![0, 1] bcast_S50000x1_S50000x128_0_1
      (broadcastInDim S50000x1 ![0] bcast_S50000_S50000x1_0 invdeg))

end KernelSide

/-! ## The reference -/

section ReferenceSide
open Cert.ReferenceIdeal Cert.ReferenceIdeal.Gen

/-- Row 0 of the edge list. -/
def rSrc (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list. -/
def rDst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- A negative source index counts from the end. -/
def rAggWrap (src : (⟨S800000, .i32⟩ : BufTy).Contents (Elt Ideal)) : (⟨S800000, .i32⟩ : BufTy).Contents (Elt Ideal) :=
  select
    (cmpi .slt src (broadcastInDim S800000 ![] bcast_S_S800000 (constantI S_ 32 0#32)))
    (addi src (broadcastInDim S800000 ![] bcast_S_S800000 (constantI S_ 32 50000#32)))
    src

/-- The sum over incoming edges of the source's feature row. -/
def rAggNbrSum (feat : (⟨S50000x128, .f32⟩ : BufTy).Contents (Elt Ideal))
    (src dst : (⟨S800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 feat
      (broadcastInDim S800000x1 ![0] bcast_S800000_S800000x1_0 (rAggWrap src)))

/-- The in-degree of every node. -/
def rDegCount (dst : (⟨S800000, .i32⟩ : BufTy).Contents (Elt Ideal)) : (⟨S50000, .f32⟩ : BufTy).Contents (Elt Ideal) :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The neighbour mean: the neighbour sum divided by the in-degree clamped below by one. -/
def rAgg (feat : (⟨S50000x128, .f32⟩ : BufTy).Contents (Elt Ideal))
    (src dst : (⟨S800000, .i32⟩ : BufTy).Contents (Elt Ideal)) : (⟨S50000x128, .f32⟩ : BufTy).Contents (Elt Ideal) :=
  Host.divf (F := Ideal) (φ := .f32) (rAggNbrSum feat src dst)
    (broadcastInDim S50000x128 ![0, 1] bcast_S50000x1_S50000x128_0_1
      (broadcastInDim S50000x1 ![0] bcast_S50000_S50000x1_0
        (maximumf (F := Ideal) (φ := .f32) (rDegCount dst)
          (broadcastInDim S50000 ![] bcast_S_S50000 (constant (F := Ideal) S_ .f32 0x3F800000#32)))))

end ReferenceSide

/-! ## The two sides agree -/

open Idealize.ShloMosaic.ValueIdx

/-- Both programs take the same two rows of the edge list. -/
theorem src_eq (ei : (⟨Cert.KernelIdeal.S2x800000, .i32⟩ : BufTy).Contents (Elt Ideal)) : kSrc ei = rSrc ei := rfl

theorem dst_eq (ei : (⟨Cert.KernelIdeal.S2x800000, .i32⟩ : BufTy).Contents (Elt Ideal)) : kDst ei = rDst ei := rfl

/-- The index wrap is the same integer computation in both programs. -/
theorem agg_wrap_eq (src : (⟨Cert.KernelIdeal.S800000, .i32⟩ : BufTy).Contents (Elt Ideal)) : kAggWrap src = rAggWrap src := rfl

/-- The in-degree count is the same scatter-add in both programs. -/
theorem agg_count_eq (dst : (⟨Cert.KernelIdeal.S800000, .i32⟩ : BufTy).Contents (Elt Ideal)) : kDegCount dst = rDegCount dst := rfl

/-- A change of float format is the identity on extended reals, so the kernel's gather through bf16 is the reference's
    gather, and the two scatter-adds have the same dimension numbers. -/
theorem agg_nbrSum_eq (feat : (⟨Cert.KernelIdeal.S50000x128, .f32⟩ : BufTy).Contents (Elt Ideal))
    (src dst : (⟨Cert.KernelIdeal.S800000, .i32⟩ : BufTy).Contents (Elt Ideal)) :
    kAggNbrSum feat src dst = rAggNbrSum feat src dst := rfl

section AtAnIndex
open Cert.KernelIdeal Cert.KernelIdeal.Gen

/-- A per-node vector broadcast along the feature axis reads, at node `p` and feature `q`, the vector at `p`. -/
theorem agg_nodeBroadcast_apply (y : (⟨S50000, .f32⟩ : BufTy).Contents (Elt Ideal)) (p : Fin 50000) (q : Fin 128) :
    broadcastInDim S50000x128 ![0, 1] bcast_S50000x1_S50000x128_0_1
      (broadcastInDim S50000x1 ![0] bcast_S50000_S50000x1_0 y) (ix2 p q) = y (ix1 p) := by
  rw [broadcastInDim_apply _ bcast_S50000x1_S50000x128_0_1 _ (ix2 p q) (ix2 p (0 : Fin 1)) (fun a => match a with
      | ⟨0, _⟩ => by show p.val = if (50000 : Nat) = 1 then 0 else p.val; rw [if_neg (by decide)]
      | ⟨1, _⟩ => by show 0 = if (1 : Nat) = 1 then 0 else q.val; rw [if_pos rfl])]
  exact broadcastInDim_apply _ bcast_S50000_S50000x1_0 y (ix2 p (0 : Fin 1)) (ix1 p) (fun a => match a with
      | ⟨0, _⟩ => by show p.val = if (50000 : Nat) = 1 then 0 else p.val; rw [if_neg (by decide)])

/-- The kernel's aggregate at node `p`, feature `q`: the neighbour sum there times the node's factor. -/
theorem kAgg_apply (feat : (⟨S50000x128, .f32⟩ : BufTy).Contents (Elt Ideal))
    (src dst : (⟨S800000, .i32⟩ : BufTy).Contents (Elt Ideal)) (invdeg : (⟨S50000, .f32⟩ : BufTy).Contents (Elt Ideal))
    (p : Fin 50000) (q : Fin 128) :
    kAgg feat src dst invdeg (ix2 p q) = kAggNbrSum feat src dst (ix2 p q) * invdeg (ix1 p) := by
  unfold kAgg
  rw [mulf_apply, agg_nodeBroadcast_apply]

/-- The kernel's per-node factor: one over the in-degree clamped below by one (the word `0x3F800000` is one). -/
theorem kInvDeg_apply (dst : (⟨S800000, .i32⟩ : BufTy).Contents (Elt Ideal)) (p : Fin 50000) :
    kInvDeg dst (ix1 p) = Ideal.div 1 (max (kDegCount dst (ix1 p)) 1) := by
  unfold kInvDeg
  rw [hostDivf_apply, maximumf_apply, broadcastInDim_scalar_apply, constant_apply, Ideal.ofBits_one_f32]

/-- The reference's aggregate at node `p`, feature `q`: the neighbour sum there divided by the clamped in-degree. -/
theorem rAgg_apply (feat : (⟨S50000x128, .f32⟩ : BufTy).Contents (Elt Ideal))
    (src dst : (⟨S800000, .i32⟩ : BufTy).Contents (Elt Ideal)) (p : Fin 50000) (q : Fin 128) :
    rAgg feat src dst (ix2 p q) = Ideal.div (rAggNbrSum feat src dst (ix2 p q)) (max (rDegCount dst (ix1 p)) 1) := by
  unfold rAgg
  rw [hostDivf_apply, agg_nodeBroadcast_apply, maximumf_apply, broadcastInDim_scalar_apply, constant_apply,
    Ideal.ofBits_one_f32]

/-- The neighbour mean is the same extended real on both sides: the sums and the in-degrees are the same terms, and
    multiplying by `1 / max(deg, 1)` is dividing by `max(deg, 1)`, a divisor that is at least one and so not zero
    (each side is then the sum times the divisor's inverse). Nothing is asked of the sum. -/
theorem agg_eq (feat : (⟨S50000x128, .f32⟩ : BufTy).Contents (Elt Ideal))
    (src dst : (⟨S800000, .i32⟩ : BufTy).Contents (Elt Ideal)) :
    kAgg feat src dst (kInvDeg dst) = rAgg feat src dst := by
  funext i
  obtain ⟨p, q, rfl⟩ : ∃ p q, i = ix2 p q := ⟨i 0, i 1, eq_ix2 i⟩
  rw [kAgg_apply, kInvDeg_apply, rAgg_apply, agg_nbrSum_eq, agg_count_eq]
  exact Ideal.mul_one_div (lt_of_lt_of_le zero_lt_one (le_max_right _ _)).ne'

end AtAnIndex

end Cert.Proof.Hand.Stage

end
-- ==== Proof.Hand.Stage.MM.lean ====
/-
  The affine stage of each GraphSAGE layer: pre = agg · Wl + x · Wr + b.

  The kernel computes it one tile of 5000 rows at a time: two products into a zero accumulator, their sum, then the bias
  row broadcast down the tile and added last. The reference computes the two products on the host and adds the bias
  between them. At the extended reals a product into a zero accumulator is the plain sum over the contracted axis, a
  change of float format is the identity, and (P + Q) + β = (P + β) + Q is commutativity of addition, so both sides are
  the same array.
-/
import proofs.«429563_j84585085928054_2_alg».proof.KernelIdeal
import proofs.«429563_j84585085928054_2_alg».proof.ReferenceIdeal
import proofs.«429563_j84585085928054_2_alg».proof.Proof.Gen.KernelIdeal
import proofs.«429563_j84585085928054_2_alg».proof.Proof.Gen.ReferenceIdeal
import proofs.«429563_j84585085928054_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Proof.Hand.Stage

open Idealize.ShloMosaic Idealize.ShloMosaic.ValueIdx Idealize.SL.Sem
open scoped BigOperators

/-! ## The kernel's side -/

section KernelSide
open Cert.KernelIdeal Cert.KernelIdeal.Gen

/-- The bias vector laid out as one row: the host's reshape of `[128]` to `[1, 128]` ahead of each affine region. -/
def kBias2 (b : (⟨Cert.KernelIdeal.S128, .f32⟩ : BufTy).Contents (Elt Ideal)) :
    (⟨Cert.KernelIdeal.S1x128, .f32⟩ : BufTy).Contents (Elt Ideal) :=
  shapeCast Cert.KernelIdeal.S1x128 b Cert.KernelIdeal.Gen.shapeCasts_S128_S1x128

/-- What an affine region leaves in its result array: at row `r`, column `j`, the two contractions over the 128 input
    features, added, and then the bias row's entry at `j`. -/
def kMM (A x : (⟨Cert.KernelIdeal.S50000x128, .f32⟩ : BufTy).Contents (Elt Ideal))
    (wl wr : (⟨Cert.KernelIdeal.S128x128, .f32⟩ : BufTy).Contents (Elt Ideal))
    (b2 : (⟨Cert.KernelIdeal.S1x128, .f32⟩ : BufTy).Contents (Elt Ideal)) :
    (⟨Cert.KernelIdeal.S50000x128, .f32⟩ : BufTy).Contents (Elt Ideal) :=
  fun i => (∑ k : Fin 128, A (ix2 (i 0) k) * wl (ix2 k (i 1)) + ∑ k : Fin 128, x (ix2 (i 0) k) * wr (ix2 k (i 1)))
    + b2 (ix2 (0 : Fin 1) (i 1))

theorem kMM_apply (A x : (⟨Cert.KernelIdeal.S50000x128, .f32⟩ : BufTy).Contents (Elt Ideal))
    (wl wr : (⟨Cert.KernelIdeal.S128x128, .f32⟩ : BufTy).Contents (Elt Ideal))
    (b2 : (⟨Cert.KernelIdeal.S1x128, .f32⟩ : BufTy).Contents (Elt Ideal)) (r : Fin 50000) (j : Fin 128) :
    kMM A x wl wr b2 (ix2 r j)
      = (∑ k : Fin 128, A (ix2 r k) * wl (ix2 k j) + ∑ k : Fin 128, x (ix2 r k) * wr (ix2 k j)) + b2 (ix2 (0 : Fin 1) j) := rfl

end KernelSide

/-! ## The reference's side -/

section ReferenceSide
open Cert.ReferenceIdeal Cert.ReferenceIdeal.Gen

/-- The reference's affine stage as one term: the product with the neighbour weights, the bias broadcast to a row and
    then down the rows and added, and the product with the root weights added last. -/
def rMM (A x : (⟨Cert.ReferenceIdeal.S50000x128, .f32⟩ : BufTy).Contents (Elt Ideal))
    (wl wr : (⟨Cert.ReferenceIdeal.S128x128, .f32⟩ : BufTy).Contents (Elt Ideal))
    (b : (⟨Cert.ReferenceIdeal.S128, .f32⟩ : BufTy).Contents (Elt Ideal)) :
    (⟨Cert.ReferenceIdeal.S50000x128, .f32⟩ : BufTy).Contents (Elt Ideal) :=
  addf (F := Ideal) (φ := .f32)
    (addf (F := Ideal) (φ := .f32)
      (Host.dotGeneral (F := Ideal) (φ₁ := .f32) (φ₂ := .f32) dot_S50000x128_S128x128_S50000x128_1_0_0_1_n_n none A wl)
      (broadcastInDim S50000x128 ![0, 1] bcast_S1x128_S50000x128_0_1
        (broadcastInDim S1x128 ![1] bcast_S128_S1x128_1 b)))
    (Host.dotGeneral (F := Ideal) (φ₁ := .f32) (φ₂ := .f32) dot_S50000x128_S128x128_S50000x128_1_0_0_1_n_n none x wr)

end ReferenceSide

/-! ## The kernel's tile product at an index -/

section KernelTile
open Cert.KernelIdeal Cert.KernelIdeal.Gen

/-! The operand indices of the tile product `[5000,128] × [128,128]`, one axis at a time: the left operand is read at
    (output row, contracted index), the right one at (contracted index, output column). -/

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A tile product into the zero accumulator, read at `(p, q)`: the sum over the 128 contracted features. -/
theorem tile_matmul_apply {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact lhs_tile_0 _ _
      | ⟨1, _⟩ => exact (lhs_tile_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (rhs_tile_0 _ _).trans hk
      | ⟨1, _⟩ => exact rhs_tile_1 _ _)
  rw [el, er]

/-- The first affine region's stored tile at `(p, q)`: the narrowing to bf16 ahead of each product is the identity on
    extended reals, a shape cast to the same shape is the identity, and the bias row is read at column `q`. -/
theorem pay0_apply (x0 x1 : Vec Ideal S5000x128 .f32) (w0 w1 : Vec Ideal S128x128 .f32) (b : Vec Ideal S1x128 .f32)
    (p : Fin 5000) (q : Fin 128) :
    Cert.KernelIdeal.Gen.k0_pay1 (F := Ideal) x0 x1 w0 w1 b (ix2 p q)
      = (∑ k : Fin 128, x0 (ix2 p k) * w0 (ix2 k q) + ∑ k : Fin 128, x1 (ix2 p k) * w1 (ix2 k q))
        + b (ix2 (0 : Fin 1) q) := by
  unfold Cert.KernelIdeal.Gen.k0_pay1
  simp only [addf_apply, tile_matmul_apply, truncf_apply, shapeCast_self, broadcastTo_1b_ab_apply]

/-- The second affine region's stored tile at `(p, q)`: the same formula (this body casts both row tiles to their own
    shape first, the identity again). -/
theorem pay2_apply (x0 x1 : Vec Ideal S5000x128 .f32) (w0 w1 : Vec Ideal S128x128 .f32) (b : Vec Ideal S1x128 .f32)
    (p : Fin 5000) (q : Fin 128) :
    Cert.KernelIdeal.Gen.k2_pay1 (F := Ideal) x0 x1 w0 w1 b (ix2 p q)
      = (∑ k : Fin 128, x0 (ix2 p k) * w0 (ix2 k q) + ∑ k : Fin 128, x1 (ix2 p k) * w1 (ix2 k q))
        + b (ix2 (0 : Fin 1) q) := by
  unfold Cert.KernelIdeal.Gen.k2_pay1
  simp only [addf_apply, tile_matmul_apply, truncf_apply, shapeCast_self, broadcastTo_1b_ab_apply]

end KernelTile

/-! ## The reference's products at an index, and the stage's equation -/

section ReferenceProduct
open Cert.ReferenceIdeal Cert.ReferenceIdeal.Gen

/-! The operand indices of the whole-array product `[50000,128] × [128,128]`, one axis at a time. -/

theorem lhs_whole_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_whole_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_whole_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_whole_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The host's product read at `(p, q)`: the same sum over the 128 contracted features. -/
theorem whole_dot_apply (a : FVec Ideal S50000x128 .f32) (w : FVec Ideal S128x128 .f32) (p : Fin 50000) (q : Fin 128) :
    Host.dotGeneral (F := Ideal) (φ₁ := .f32) (φ₂ := .f32) dot_S50000x128_S128x128_S50000x128_1_0_0_1_n_n none a w (ix2 p q)
      = ∑ k : Fin 128, a (ix2 p k) * w (ix2 k q) := by
  simp only [Host.dotGeneral]
  rw [Ideal.dotGeneral_apply]
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k :=
    funext fun ax => Fin.ext (by
      match ax with
      | ⟨0, _⟩ => exact lhs_whole_0 _ _
      | ⟨1, _⟩ => exact (lhs_whole_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q :=
    funext fun ax => Fin.ext (by
      match ax with
      | ⟨0, _⟩ => exact (rhs_whole_0 _ _).trans hk
      | ⟨1, _⟩ => exact rhs_whole_1 _ _)
  rw [el, er]

/-- The bias broadcast to one row and then down the 50000 rows reads, at `(p, q)`, the bias at `q`. -/
theorem bias_rows_apply (b : (⟨S128, .f32⟩ : BufTy).Contents (Elt Ideal)) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun ax => match ax with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun ax => match ax with
    | ⟨0, _⟩ => by show q.val = if (128 : Nat) = 1 then 0 else q.val; rw [if_neg (by decide)])

end ReferenceProduct

/-- The affine stage: the kernel's tiled result and the reference's host result are the same array. Both products are
    the sums over the contracted features; the kernel's reshaped bias row and the reference's twice-broadcast bias read
    the same entry; and `(P + Q) + β = (P + β) + Q` in the commutative additive monoid of extended reals. -/
theorem mm_eq (A x : (⟨Cert.KernelIdeal.S50000x128, .f32⟩ : BufTy).Contents (Elt Ideal))
    (wl wr : (⟨Cert.KernelIdeal.S128x128, .f32⟩ : BufTy).Contents (Elt Ideal))
    (b : (⟨Cert.KernelIdeal.S128, .f32⟩ : BufTy).Contents (Elt Ideal)) :
    kMM A x wl wr (kBias2 b) = rMM A x wl wr b := by
  funext i
  obtain ⟨r, j, rfl⟩ : ∃ (r : Fin 50000) (j : Fin 128), i = ix2 r j := ⟨i 0, i 1, eq_ix2 i⟩
  rw [kMM_apply]
  unfold rMM kBias2
  rw [addf_apply, addf_apply, whole_dot_apply, whole_dot_apply, bias_rows_apply, shapeCast_a_1a_apply]
  exact add_right_comm _ _ _

end Cert.Proof.Hand.Stage
-- ==== Proof.Hand.Stage.BN.lean ====
/-
  Batch normalisation over the 50000 rows followed by the rectifier, as a stage of the value bridge at the
  extended reals.

  Both programs take the column mean  μ j = (∑ r, pre (r, j)) / 50000,  the column variance
  v j = (∑ r, (pre (r, j) − μ j)²) / 50000,  and produce  max ((pre (r, j) − μ j) · γ j / √(v j + ε) + β j) 0.
  The kernel's program keeps the statistics as one-row matrices and clamps the variance from below at zero
  before adding ε; the reference keeps them as vectors and does not clamp. A variance is a sum of squares divided
  by a positive number, so the clamp is the identity, and that is the whole difference between the two.
-/
import proofs.«429563_j84585085928054_2_alg».proof.KernelIdeal
import proofs.«429563_j84585085928054_2_alg».proof.ReferenceIdeal
import proofs.«429563_j84585085928054_2_alg».proof.Proof.Gen.KernelIdeal
import proofs.«429563_j84585085928054_2_alg».proof.Proof.Gen.ReferenceIdeal
import proofs.«429563_j84585085928054_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Proof.Hand.Stage

open Idealize.ShloMosaic Idealize.ShloMosaic.ValueIdx

/-! ## The kernel's program: statistics on the host, as one-row matrices -/

section KernelSide
open Cert.KernelIdeal Cert.KernelIdeal.Gen
variable {F : FTy → Type} [FloatOps F]

/-- The column sums of an array, from a zero initial value. -/
def bnColSumK (x : (⟨S50000x128, .f32⟩ : BufTy).Contents (Elt F)) : (⟨S128, .f32⟩ : BufTy).Contents (Elt F) :=
  Host.reduceAdd x (constant S_ .f32 0x00000000#32) reducesTo_S50000x128_S128_d0 h_S_

/-- The row count 50000 as a one-row matrix. -/
def kRowCount : (⟨S1x128, .f32⟩ : BufTy).Contents (Elt F) :=
  broadcastInDim S1x128 ![] bcast_S_S1x128 (constant S_ .f32 0x47435000#32)

/-- The column means: the column sums as one row, divided by the row count. -/
def kMean (pre : (⟨S50000x128, .f32⟩ : BufTy).Contents (Elt F)) : (⟨S1x128, .f32⟩ : BufTy).Contents (Elt F) :=
  Host.divf (broadcastInDim S1x128 ![1] bcast_S128_S1x128_1 (bnColSumK pre)) kRowCount

/-- The deviations from the column means. -/
def bnDevK (pre : (⟨S50000x128, .f32⟩ : BufTy).Contents (Elt F)) : (⟨S50000x128, .f32⟩ : BufTy).Contents (Elt F) :=
  subf pre (broadcastInDim S50000x128 ![0, 1] bcast_S1x128_S50000x128_0_1 (kMean pre))

/-- The column variances: the column sums of the squared deviations as one row, divided by the row count. -/
def bnVarK (pre : (⟨S50000x128, .f32⟩ : BufTy).Contents (Elt F)) : (⟨S1x128, .f32⟩ : BufTy).Contents (Elt F) :=
  Host.divf (broadcastInDim S1x128 ![1] bcast_S128_S1x128_1 (bnColSumK (mulf (bnDevK pre) (bnDevK pre)))) kRowCount

/-- The scale per column: γ over the square root of (the variance clamped at zero, plus ε). -/
def kInvStd (pre : (⟨S50000x128, .f32⟩ : BufTy).Contents (Elt F)) (gamma : (⟨S128, .f32⟩ : BufTy).Contents (Elt F)) :
    (⟨S1x128, .f32⟩ : BufTy).Contents (Elt F) :=
  Host.divf (shapeCast S1x128 gamma shapeCasts_S128_S1x128)
    (Host.sqrt
      (addf
        (maximumf (bnVarK pre) (broadcastInDim S1x128 ![] bcast_S_S1x128 (constant S_ .f32 0x00000000#32)))
        (broadcastInDim S1x128 ![] bcast_S_S1x128 (constant S_ .f32 0x3727C5AC#32))))

/-- The shift β as one row. -/
def kBeta2 (beta : (⟨S128, .f32⟩ : BufTy).Contents (Elt F)) : (⟨S1x128, .f32⟩ : BufTy).Contents (Elt F) :=
  shapeCast S1x128 beta shapeCasts_S128_S1x128

/-- What the normalising kernel leaves in its output array: at row r and column j,
    max ((pre (r, j) − mean (0, j)) · invstd (0, j) + beta2 (0, j)) 0. -/
def kBNR (pre : (⟨S50000x128, .f32⟩ : BufTy).Contents (Elt F)) (mean invstd beta2 : (⟨S1x128, .f32⟩ : BufTy).Contents (Elt F)) :
    (⟨S50000x128, .f32⟩ : BufTy).Contents (Elt F) :=
  fun i => FloatOps.maximumf
    (FloatOps.addf
      (FloatOps.mulf (FloatOps.subf (pre i) (mean (ix2 (0 : Fin 1) (i 1)))) (invstd (ix2 (0 : Fin 1) (i 1))))
      (beta2 (ix2 (0 : Fin 1) (i 1))))
    (Scalar.ofBits .f32 0x00000000#32)

theorem kBNR_apply (pre : (⟨S50000x128, .f32⟩ : BufTy).Contents (Elt F)) (mean invstd beta2 : (⟨S1x128, .f32⟩ : BufTy).Contents (Elt F))
    (r : Fin 50000) (j : Fin 128) :
    kBNR pre mean invstd beta2 (ix2 r j)
      = FloatOps.maximumf
          (FloatOps.addf
            (FloatOps.mulf (FloatOps.subf (pre (ix2 r j)) (mean (ix2 (0 : Fin 1) j))) (invstd (ix2 (0 : Fin 1) j)))
            (beta2 (ix2 (0 : Fin 1) j)))
          (Scalar.ofBits .f32 0x00000000#32) := rfl

end KernelSide

/-! ## The reference: statistics as vectors, broadcast through one row to the array -/

section ReferenceSide
open Cert.ReferenceIdeal Cert.ReferenceIdeal.Gen
variable {F : FTy → Type} [FloatOps F]

/-- The column sums of an array, from a zero initial value. -/
def bnColSumR (x : (⟨S50000x128, .f32⟩ : BufTy).Contents (Elt F)) : (⟨S128, .f32⟩ : BufTy).Contents (Elt F) :=
  Host.reduceAdd x (constant S_ .f32 0x00000000#32) reducesTo_S50000x128_S128_d0 h_S_

/-- The row count 50000 as a vector. -/
def rRowCount : (⟨S128, .f32⟩ : BufTy).Contents (Elt F) :=
  broadcastInDim S128 ![] bcast_S_S128 (constant S_ .f32 0x47435000#32)

/-- A vector laid along every row of the array: through one row, then over the rows. -/
def bnRowsR (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The column means. -/
def rColMean (pre : (⟨S50000x128, .f32⟩ : BufTy).Contents (Elt F)) : (⟨S128, .f32⟩ : BufTy).Contents (Elt F) :=
  Host.divf (bnColSumR pre) rRowCount

/-- The deviations from the column means. -/
def bnDevR (pre : (⟨S50000x128, .f32⟩ : BufTy).Contents (Elt F)) : (⟨S50000x128, .f32⟩ : BufTy).Contents (Elt F) :=
  subf pre (bnRowsR (rColMean pre))

/-- The column variances. -/
def bnVarR (pre : (⟨S50000x128, .f32⟩ : BufTy).Contents (Elt F)) : (⟨S128, .f32⟩ : BufTy).Contents (Elt F) :=
  Host.divf (bnColSumR (mulf (bnDevR pre) (bnDevR pre))) rRowCount

/-- The scale per column: γ over the square root of (the variance plus ε). -/
def bnInvStdR (pre : (⟨S50000x128, .f32⟩ : BufTy).Contents (Elt F)) (gamma : (⟨S128, .f32⟩ : BufTy).Contents (Elt F)) :
    (⟨S128, .f32⟩ : BufTy).Contents (Elt F) :=
  Host.divf gamma
    (Host.sqrt (addf (bnVarR pre) (broadcastInDim S128 ![] bcast_S_S128 (constant S_ .f32 0x3727C5AC#32))))

/-- The reference's normalised and rectified array. -/
def rBN (pre : (⟨S50000x128, .f32⟩ : BufTy).Contents (Elt F)) (gamma beta : (⟨S128, .f32⟩ : BufTy).Contents (Elt F)) :
    (⟨S50000x128, .f32⟩ : BufTy).Contents (Elt F) :=
  maximumf
    (addf (mulf (bnDevR pre) (bnRowsR (bnInvStdR pre gamma))) (bnRowsR beta))
    (broadcastInDim S50000x128 ![] bcast_S_S50000x128 (constant S_ .f32 0x00000000#32))

end ReferenceSide

/-! ## The normalising kernels' stored tile, read at an index -/

section Payload
open Cert.KernelIdeal Cert.KernelIdeal.Gen

/-- The first normalising kernel stores, at row p and column q of its tile,
    max ((x (p, q) − μ (0, q)) · s (0, q) + b (0, q)) 0: the casts of a tile to its own shape are the identity,
    the arithmetic is pointwise, and a one-row matrix broadcast over the rows reads its one row. -/
theorem pay1_apply {F : FTy → Type} [FloatOps F] (x0 : Vec F S5000x128 .f32) (mu sd be : Vec F S1x128 .f32) (p : Fin 5000) (q : Fin 128) :
    k1_pay1 (F := F) x0 mu sd be (ix2 p q)
      = FloatOps.maximumf
          (FloatOps.addf
            (FloatOps.mulf (FloatOps.subf (x0 (ix2 p q)) (mu (ix2 (0 : Fin 1) q))) (sd (ix2 (0 : Fin 1) q)))
            (be (ix2 (0 : Fin 1) q)))
          (Scalar.ofBits .f32 0x00000000#32) := by
  unfold k1_pay1
  simp only [shapeCast_self]
  show FloatOps.maximumf
      (FloatOps.addf
        (FloatOps.mulf
          (FloatOps.subf (x0 (ix2 p q)) (broadcastTo S5000x128 mu broadcasts_S1x128_S5000x128 (ix2 p q)))
          (broadcastTo S5000x128 sd broadcasts_S1x128_S5000x128 (ix2 p q)))
        (broadcastTo S5000x128 be broadcasts_S1x128_S5000x128 (ix2 p q)))
      (Scalar.ofBits .f32 0x00000000#32) = _
  rw [broadcastTo_1b_ab_apply mu, broadcastTo_1b_ab_apply sd, broadcastTo_1b_ab_apply be]

/-- The second normalising kernel stores the same expression of its own operands. -/
theorem pay3_apply {F : FTy → Type} [FloatOps F] (x0 : Vec F S5000x128 .f32) (mu sd be : Vec F S1x128 .f32) (p : Fin 5000) (q : Fin 128) :
    k3_pay1 (F := F) x0 mu sd be (ix2 p q)
      = FloatOps.maximumf
          (FloatOps.addf
            (FloatOps.mulf (FloatOps.subf (x0 (ix2 p q)) (mu (ix2 (0 : Fin 1) q))) (sd (ix2 (0 : Fin 1) q)))
            (be (ix2 (0 : Fin 1) q)))
          (Scalar.ofBits .f32 0x00000000#32) := by
  unfold k3_pay1
  simp only [shapeCast_self]
  show FloatOps.maximumf
      (FloatOps.addf
        (FloatOps.mulf
          (FloatOps.subf (x0 (ix2 p q)) (broadcastTo S5000x128 mu broadcasts_S1x128_S5000x128 (ix2 p q)))
          (broadcastTo S5000x128 sd broadcasts_S1x128_S5000x128 (ix2 p q)))
        (broadcastTo S5000x128 be broadcasts_S1x128_S5000x128 (ix2 p q)))
      (Scalar.ofBits .f32 0x00000000#32) = _
  rw [broadcastTo_1b_ab_apply mu, broadcastTo_1b_ab_apply sd, broadcastTo_1b_ab_apply be]

end Payload

/-! ## Broadcasts read at an index -/

section Reading
open Cert.KernelIdeal Cert.KernelIdeal.Gen
variable {α : Type}

/-- A scalar spread over any shape reads the scalar everywhere. -/
theorem bn_splat_apply {t : Shape} (h : S_.BroadcastsInDim t (![] : Fin 0 → Fin t.rank)) (c : S_.Idx → α) (i : t.Idx) :
    broadcastInDim t ![] h c i = c ix0 :=
  broadcastInDim_apply _ h c i ix0 (fun a => a.elim0)

/-- A vector laid as one row reads, at column j, the vector at j. -/
theorem bn_row_apply (v : S128.Idx → α) (j : Fin 128) :
    broadcastInDim S1x128 ![1] bcast_S128_S1x128_1 v (ix2 (0 : Fin 1) j) = v (ix1 j) :=
  broadcastInDim_apply _ bcast_S128_S1x128_1 v _ _ (fun a => match a with
    | ⟨0, _⟩ => by show j.val = if (128 : Nat) = 1 then 0 else j.val; rw [if_neg (by decide)])

/-- One row laid over the 50000 rows reads, at (r, j), the row at j. -/
theorem bn_rows_apply (m : S1x128.Idx → α) (r : Fin 50000) (j : Fin 128) :
    broadcastInDim S50000x128 ![0, 1] bcast_S1x128_S50000x128_0_1 m (ix2 r j) = m (ix2 (0 : Fin 1) j) :=
  broadcastInDim_apply _ bcast_S1x128_S50000x128_0_1 m _ _ (fun a => match a with
    | ⟨0, _⟩ => by show 0 = if (1 : Nat) = 1 then 0 else r.val; rw [if_pos rfl]
    | ⟨1, _⟩ => by show j.val = if (128 : Nat) = 1 then 0 else j.val; rw [if_neg (by decide)])

end Reading

section Agreement
open Cert.KernelIdeal Cert.KernelIdeal.Gen
variable {F : FTy → Type} [FloatOps F]

/-- A vector laid along every row reads, at (r, j), the vector at j. -/
theorem bnRowsR_apply (v : (⟨S128, .f32⟩ : BufTy).Contents (Elt F)) (r : Fin 50000) (j : Fin 128) :
    bnRowsR v (ix2 r j) = v (ix1 j) := by
  unfold bnRowsR
  exact (bn_rows_apply _ r j).trans (bn_row_apply v j)

/-- The two programs sum the columns by the same operation. -/
theorem bnColSum_eq (x : (⟨S50000x128, .f32⟩ : BufTy).Contents (Elt F)) : bnColSumK x = bnColSumR x := rfl

/-- The kernel's row of means reads, at column j, the reference's mean of that column: the same column sum divided
    by the same count, the division being pointwise. -/
theorem bn_kMean_row (pre : (⟨S50000x128, .f32⟩ : BufTy).Contents (Elt F)) (j : Fin 128) :
    kMean pre (ix2 (0 : Fin 1) j) = rColMean pre (ix1 j) := by
  unfold kMean rColMean kRowCount rRowCount
  show FloatOps.hostDivf (broadcastInDim S1x128 ![1] bcast_S128_S1x128_1 (bnColSumK pre) (ix2 (0 : Fin 1) j))
      (broadcastInDim S1x128 ![] bcast_S_S1x128 (constant S_ .f32 0x47435000#32) (ix2 (0 : Fin 1) j))
    = FloatOps.hostDivf (bnColSumR pre (ix1 j)) (broadcastInDim Cert.ReferenceIdeal.S128 ![] Cert.ReferenceIdeal.Gen.bcast_S_S128 (constant S_ .f32 0x47435000#32) (ix1 j))
  rw [bn_row_apply, bn_splat_apply, bn_splat_apply, bnColSum_eq]

/-- So the deviations from the means are the same array. -/
theorem bnDev_eq (pre : (⟨S50000x128, .f32⟩ : BufTy).Contents (Elt F)) : bnDevK pre = bnDevR pre := by
  funext i
  obtain ⟨r, j, rfl⟩ : ∃ (r : Fin 50000) (j : Fin 128), i = ix2 r j := ⟨i 0, i 1, eq_ix2 i⟩
  unfold bnDevK bnDevR
  show FloatOps.subf (pre (ix2 r j)) (broadcastInDim S50000x128 ![0, 1] bcast_S1x128_S50000x128_0_1 (kMean pre) (ix2 r j))
    = FloatOps.subf (pre (ix2 r j)) (bnRowsR (rColMean pre) (ix2 r j))
  rw [bn_rows_apply, bnRowsR_apply, bn_kMean_row]

/-- And the kernel's row of variances reads the reference's variance of each column. -/
theorem bnVar_row (pre : (⟨S50000x128, .f32⟩ : BufTy).Contents (Elt F)) (j : Fin 128) :
    bnVarK pre (ix2 (0 : Fin 1) j) = bnVarR pre (ix1 j) := by
  unfold bnVarK bnVarR kRowCount rRowCount
  rw [bnDev_eq]
  show FloatOps.hostDivf (broadcastInDim S1x128 ![1] bcast_S128_S1x128_1 (bnColSumK (mulf (bnDevR pre) (bnDevR pre))) (ix2 (0 : Fin 1) j))
      (broadcastInDim S1x128 ![] bcast_S_S1x128 (constant S_ .f32 0x47435000#32) (ix2 (0 : Fin 1) j))
    = FloatOps.hostDivf (bnColSumR (mulf (bnDevR pre) (bnDevR pre)) (ix1 j)) (broadcastInDim Cert.ReferenceIdeal.S128 ![] Cert.ReferenceIdeal.Gen.bcast_S_S128 (constant S_ .f32 0x47435000#32) (ix1 j))
  rw [bn_row_apply, bn_splat_apply, bn_splat_apply, bnColSum_eq]

end Agreement

/-! ## The variance is nonnegative, so clamping it at zero changes nothing -/

section Variance
open Cert.KernelIdeal Cert.KernelIdeal.Gen

/-- A square is nonnegative on every extended real: an infinity squared is +∞. -/
theorem bn_sq_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- The row count's word denotes the real 50000: exponent field 142, significand 2²³ + 4411392 = 12800000,
    scaled by 2^(142 − 127 − 23) = 2⁻⁸. -/
theorem bn_ofBits_rowCount : Ideal.ofBits .f32 0x47435000#32 = ((50000 : ℝ) : EReal) := by
  simp [Ideal.ofBits, Ideal.ieee]
  rw [← EReal.coe_mul]
  norm_num

/-- A column's variance is zero plus a sum of squares, divided by 50000: nonnegative whatever the entries are. -/
theorem bnVarR_nonneg (pre : (⟨S50000x128, .f32⟩ : BufTy).Contents (Elt Ideal)) (j : Fin 128) :
    (0 : EReal) ≤ bnVarR pre (ix1 j) := by
  unfold bnVarR rRowCount bnColSumR
  show (0 : EReal) ≤ Ideal.div
      (Host.reduceAdd (F := Ideal) (mulf (bnDevR pre) (bnDevR pre)) (constant S_ .f32 0x00000000#32)
        Cert.ReferenceIdeal.Gen.reducesTo_S50000x128_S128_d0 Cert.ReferenceIdeal.Gen.h_S_ (ix1 j))
      (broadcastInDim Cert.ReferenceIdeal.S128 ![] Cert.ReferenceIdeal.Gen.bcast_S_S128 (constant (F := Ideal) S_ .f32 0x47435000#32) (ix1 j))
  rw [bn_splat_apply]
  show (0 : EReal) ≤ Ideal.div _ (Ideal.ofBits .f32 0x47435000#32)
  rw [bn_ofBits_rowCount, Ideal.div_coe (by norm_num)]
  refine mul_nonneg ?_ (EReal.coe_nonneg.mpr (by norm_num))
  simp only [Host.reduceAdd, Ideal.hostReduceAdd_def]
  rw [Ideal.hostReduceAdd_single Cert.ReferenceIdeal.Gen.reducesTo_S50000x128_S128_d0 (by decide)]
  refine add_nonneg (le_of_eq Ideal.ofBits_zero_f32.symm) (Finset.sum_nonneg fun k _ => ?_)
  exact bn_sq_nonneg _

end Variance

/-! ## The stage: the kernel's normalised array is the reference's -/

section Stage
open Cert.KernelIdeal Cert.KernelIdeal.Gen

/-- The reference's deviation at (r, j) is the entry minus its column's mean. -/
theorem bnDevR_apply {F : FTy → Type} [FloatOps F] (pre : (⟨S50000x128, .f32⟩ : BufTy).Contents (Elt F)) (r : Fin 50000) (j : Fin 128) :
    bnDevR pre (ix2 r j) = FloatOps.subf (pre (ix2 r j)) (rColMean pre (ix1 j)) := by
  unfold bnDevR
  show FloatOps.subf (pre (ix2 r j)) (bnRowsR (rColMean pre) (ix2 r j)) = _
  rw [bnRowsR_apply]

/-- The kernel's row of shifts reads β at each column. -/
theorem bn_kBeta2_row {F : FTy → Type} [FloatOps F] (beta : (⟨S128, .f32⟩ : BufTy).Contents (Elt F)) (j : Fin 128) :
    kBeta2 beta (ix2 (0 : Fin 1) j) = beta (ix1 j) := by
  unfold kBeta2
  exact shapeCast_a_1a_apply beta shapeCasts_S128_S1x128 (0 : Fin 1) j

/-- The kernel's row of scales reads the reference's scale of each column: clamping a nonnegative variance at zero
    is the identity, and the rest is the same pointwise expression of the same variance. -/
theorem bn_kInvStd_row (pre : (⟨S50000x128, .f32⟩ : BufTy).Contents (Elt Ideal)) (gamma : (⟨S128, .f32⟩ : BufTy).Contents (Elt Ideal))
    (j : Fin 128) : kInvStd pre gamma (ix2 (0 : Fin 1) j) = bnInvStdR pre gamma (ix1 j) := by
  unfold kInvStd bnInvStdR
  show Ideal.div (shapeCast S1x128 gamma shapeCasts_S128_S1x128 (ix2 (0 : Fin 1) j))
      (Ideal.sqrt
        (max (bnVarK pre (ix2 (0 : Fin 1) j))
            (broadcastInDim S1x128 ![] bcast_S_S1x128 (constant (F := Ideal) S_ .f32 0x00000000#32) (ix2 (0 : Fin 1) j))
          + broadcastInDim S1x128 ![] bcast_S_S1x128 (constant (F := Ideal) S_ .f32 0x3727C5AC#32) (ix2 (0 : Fin 1) j)))
    = Ideal.div (gamma (ix1 j))
      (Ideal.sqrt
        (bnVarR pre (ix1 j)
          + broadcastInDim Cert.ReferenceIdeal.S128 ![] Cert.ReferenceIdeal.Gen.bcast_S_S128
              (constant (F := Ideal) S_ .f32 0x3727C5AC#32) (ix1 j)))
  rw [shapeCast_a_1a_apply, bn_splat_apply, bn_splat_apply, bn_splat_apply, bnVar_row]
  show Ideal.div (gamma (ix1 j))
      (Ideal.sqrt (max (bnVarR pre (ix1 j)) (Ideal.ofBits .f32 0x00000000#32) + Ideal.ofBits .f32 0x3727C5AC#32)) = _
  rw [Ideal.ofBits_zero_f32, max_eq_left (bnVarR_nonneg pre j)]
  rfl

theorem bn_eq (pre : (⟨S50000x128, .f32⟩ : BufTy).Contents (Elt Ideal)) (gamma beta : (⟨S128, .f32⟩ : BufTy).Contents (Elt Ideal)) :
    kBNR pre (kMean pre) (kInvStd pre gamma) (kBeta2 beta) = rBN pre gamma beta := by
  funext i
  obtain ⟨r, j, rfl⟩ : ∃ (r : Fin 50000) (j : Fin 128), i = ix2 r j := ⟨i 0, i 1, eq_ix2 i⟩
  rw [kBNR_apply, bn_kMean_row, bn_kInvStd_row, bn_kBeta2_row]
  unfold rBN
  show _ = FloatOps.maximumf
      (FloatOps.addf (FloatOps.mulf (bnDevR pre (ix2 r j)) (bnRowsR (bnInvStdR pre gamma) (ix2 r j))) (bnRowsR beta (ix2 r j)))
      (broadcastInDim Cert.ReferenceIdeal.S50000x128 ![] Cert.ReferenceIdeal.Gen.bcast_S_S50000x128
        (constant (F := Ideal) S_ .f32 0x00000000#32) (ix2 r j))
  rw [bnDevR_apply, bnRowsR_apply, bnRowsR_apply, bn_splat_apply]
  rfl

end Stage

end Cert.Proof.Hand.Stage

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«429563_j84585085928054_2_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.Hand.Stage.Pool.lean ====
/-
  The last stage of the network: the mean of the node features over each of the 512 graphs, the linear layer to two
  classes, and the sigmoid.

  The kernel side accumulates, tile of 2000 nodes by tile, the product of the transposed membership matrix
  (entry (n, g) is 1 when node n's graph word is g, else 0) with the node features, scales row g by the reciprocal
  1 / max (count g, 1), multiplies by the weights, adds the bias and applies the logistic function. The reference
  scatter-adds the feature rows into their graphs, divides by max (count g, 1), multiplies by the weights, adds the bias
  and applies 1 / (1 + exp (−x)). The two agree on every extended real: a scatter-add into row g is the sum over the
  nodes whose word is g, a product with 1 / b is the quotient by b for b ≥ 1, and the logistic function is that
  expression by definition.
-/
import proofs.«429563_j84585085928054_2_alg».proof.KernelIdeal
import proofs.«429563_j84585085928054_2_alg».proof.ReferenceIdeal
import proofs.«429563_j84585085928054_2_alg».proof.Proof.Gen.KernelIdeal
import proofs.«429563_j84585085928054_2_alg».proof.Proof.Gen.ReferenceIdeal
import proofs.«429563_j84585085928054_2_alg».proof.Proof.Gen.KernelIdeal.Skeleton
import proofs.«429563_j84585085928054_2_alg».proof.Proof.LibGatherScatter
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate

noncomputable section

open scoped BigOperators

namespace Cert.Proof.Hand.Stage

open Idealize.ShloMosaic Idealize.ShloMosaic.ValueIdx

/-! ## The kernel side: the host pieces around the pooling kernel -/

section KernelSide

open Cert.KernelIdeal Cert.KernelIdeal.Facts₀ Cert.KernelIdeal.Facts

/-- The graph word of every node as a column: the [50000] vector of words viewed [50000 × 1]. -/
def kBatch2 (batch : (⟨S50000, .i32⟩ : BufTy).Contents (Elt Ideal)) : (⟨S50000x1, .i32⟩ : BufTy).Contents (Elt Ideal) :=
  shapeCast S50000x1 batch shapeCasts_S50000_S50000x1

/-- The number of nodes of each graph: ones scatter-added, at each node's graph word, into 512 zeros. -/
def kGraphCount (batch : (⟨S50000, .i32⟩ : BufTy).Contents (Elt Ideal)) : (⟨S512, .f32⟩ : BufTy).Contents (Elt Ideal) :=
  Host.scatterAdd (F := Ideal) (φ := .f32) scatter_S512_S50000x1_S50000_n_0_0_1
    (broadcastInDim S512 ![] bcast_S_S512 (constant (F := Ideal) S_ .f32 0x00000000#32))
    (broadcastInDim S50000x1 ![0] bcast_S50000_S50000x1_0 batch)
    (broadcastInDim S50000 ![] bcast_S_S50000 (constant (F := Ideal) S_ .f32 0x3F800000#32))

/-- The reciprocal 1 / max (count, 1) of each graph's node count, as a [512 × 1] column. -/
def kInvCnt (batch : (⟨S50000, .i32⟩ : BufTy).Contents (Elt Ideal)) : (⟨S512x1, .f32⟩ : BufTy).Contents (Elt Ideal) :=
  shapeCast S512x1
    (Host.divf (F := Ideal) (φ := .f32) (broadcastInDim S512 ![] bcast_S_S512 (constant (F := Ideal) S_ .f32 0x3F800000#32))
      (maximumf (F := Ideal) (φ := .f32) (kGraphCount batch) (broadcastInDim S512 ![] bcast_S_S512 (constant (F := Ideal) S_ .f32 0x3F800000#32))))
    shapeCasts_S512_S512x1

/-- The bias of the linear layer as a [1 × 2] row. -/
def kBlin2 (blin : (⟨S2, .f32⟩ : BufTy).Contents (Elt Ideal)) : (⟨S1x2, .f32⟩ : BufTy).Contents (Elt Ideal) :=
  shapeCast S1x2 blin shapeCasts_S2_S1x2

/-- One entry of the membership matrix as the kernel's body computes it: the word compared for equality with the
    position of graph g along the graph axis, the one-bit answer widened to a word and read as a signed integer. -/
def onehot (w : BitVec 32) (g : Fin 512) : EReal :=
  FloatOps.sitofp (F := Ideal) .f32 ((IntOp.cmpi .eq w (BitVec.ofNat 32 g.val)).setWidth 32)

/-- The pooled, scaled, projected and squashed output at (g, j): the logistic function of
    Σₖ ((Σₙ [word n = g] · h (n, k)) · invcnt g) · wlin (k, j) + blin j. -/
def kPool (h : (⟨S50000x128, .f32⟩ : BufTy).Contents (Elt Ideal)) (b2 : (⟨S50000x1, .i32⟩ : BufTy).Contents (Elt Ideal))
    (invcnt : (⟨S512x1, .f32⟩ : BufTy).Contents (Elt Ideal)) (wlin : (⟨S128x2, .f32⟩ : BufTy).Contents (Elt Ideal))
    (blin2 : (⟨S1x2, .f32⟩ : BufTy).Contents (Elt Ideal)) : (⟨S512x2, .f32⟩ : BufTy).Contents (Elt Ideal) :=
  fun i => Ideal.logistic
    ((∑ k : Fin 128, ((∑ n : Fin 50000, onehot (b2 (ix2 n 0)) (i 0) * h (ix2 n k)) * invcnt (ix2 (i 0) 0)) * wlin (ix2 k (i 1)))
      + blin2 (ix2 0 (i 1)))

theorem kPool_apply (h : (⟨S50000x128, .f32⟩ : BufTy).Contents (Elt Ideal)) (b2 : (⟨S50000x1, .i32⟩ : BufTy).Contents (Elt Ideal))
    (invcnt : (⟨S512x1, .f32⟩ : BufTy).Contents (Elt Ideal)) (wlin : (⟨S128x2, .f32⟩ : BufTy).Contents (Elt Ideal))
    (blin2 : (⟨S1x2, .f32⟩ : BufTy).Contents (Elt Ideal)) (g : Fin 512) (j : Fin 2) :
    kPool h b2 invcnt wlin blin2 (ix2 g j) = Ideal.logistic
      ((∑ k : Fin 128, ((∑ n : Fin 50000, onehot (b2 (ix2 n 0)) g * h (ix2 n k)) * invcnt (ix2 g 0)) * wlin (ix2 k j))
        + blin2 (ix2 0 j)) := rfl

end KernelSide

/-! ## The pooling kernel's payloads at an index -/

section KernelPayloads

open Cert.KernelIdeal Cert.KernelIdeal.Facts₀ Cert.KernelIdeal.Facts

/-- The membership entry in closed form: 1 when the word is the position of graph g, else 0. -/
theorem onehot_eq (w : BitVec 32) (g : Fin 512) :
    onehot w g = if w = BitVec.ofNat 32 g.val then 1 else 0 := by
  unfold onehot
  show ((((BitVec.ofBool (w == BitVec.ofNat 32 g.val)).setWidth 32).toInt : ℝ) : EReal) = _
  by_cases h : w = BitVec.ofNat 32 g.val
  · rw [if_pos h, beq_iff_eq.mpr h]
    have h1 : ((BitVec.ofBool true).setWidth 32).toInt = 1 := by decide
    rw [h1]; simp
  · rw [if_neg h, beq_eq_false_iff_ne.mpr h]
    have h0 : ((BitVec.ofBool false).setWidth 32).toInt = 0 := by decide
    rw [h0]; simp

/-- A membership entry times a value keeps the value or drops it. -/
theorem onehot_mul (w : BitVec 32) (g : Fin 512) (x : EReal) :
    onehot w g * x = if w = BitVec.ofNat 32 g.val then x else 0 := by
  rw [onehot_eq]
  by_cases h : w = BitVec.ofNat 32 g.val
  · rw [if_pos h, if_pos h, one_mul]
  · rw [if_neg h, if_neg h, zero_mul]

/-- The logistic function applied to a vector reads elementwise. -/
theorem pool_logistic_apply {s : Shape} {φ : FTy} (x : FVec Ideal s φ) (i : s.Idx) :
    logistic x i = Ideal.logistic (x i) := rfl

/-- The scratch's first value: zero everywhere. -/
theorem pay4_1_apply (i : S512x128.Idx) : Gen.k4_pay1 (F := Ideal) i = 0 := by
  unfold Gen.k4_pay1
  simp only [shapeCast_self]
  show Ideal.ofBits .f32 0x00000000#32 = 0
  exact Ideal.ofBits_zero_f32

/-- A [512 × 1] column spread over 128 columns reads, at (g, k), the column at (g, 0). -/
theorem pool_spread_col_apply {α : Type} (v : S512x1.Idx → α) (g : Fin 512) (k : Fin 128) :
    broadcastTo S512x128 v broadcasts_S512x1_S512x128 (ix2 g k) = v (ix2 g 0) :=
  broadcastTo_apply v broadcasts_S512x1_S512x128 (ix2 g k) (ix2 g 0) (fun a => match a with
    | ⟨0, _⟩ => by show g.val = if (512 : Nat) = 1 then 0 else g.val; rw [if_neg (by decide)]
    | ⟨1, _⟩ => by show 0 = if (1 : Nat) = 1 then 0 else k.val; rw [if_pos rfl])

/-- A [1 × 2] row spread over 512 rows reads, at (g, j), the row at (0, j). -/
theorem pool_spread_row_apply {α : Type} (v : S1x2.Idx → α) (g : Fin 512) (j : Fin 2) :
    broadcastTo S512x2 v broadcasts_S1x2_S512x2 (ix2 g j) = v (ix2 0 j) :=
  broadcastTo_apply v broadcasts_S1x2_S512x2 (ix2 g j) (ix2 0 j) (fun a => match a with
    | ⟨0, _⟩ => by show 0 = if (1 : Nat) = 1 then 0 else g.val; rw [if_pos rfl]
    | ⟨1, _⟩ => by show j.val = if (2 : Nat) = 1 then 0 else j.val; rw [if_neg (by decide)])

/-- A [2000 × 1] column of words spread over 512 columns reads, at (p, g), the column at (p, 0). -/
theorem pool_spread_words_apply {α : Type} (v : S2000x1.Idx → α) (p : Fin 2000) (g : Fin 512) :
    broadcastTo S2000x512 v broadcasts_S2000x1_S2000x512 (ix2 p g) = v (ix2 p 0) :=
  broadcastTo_apply v broadcasts_S2000x1_S2000x512 (ix2 p g) (ix2 p 0) (fun a => match a with
    | ⟨0, _⟩ => by show p.val = if (2000 : Nat) = 1 then 0 else p.val; rw [if_neg (by decide)]
    | ⟨1, _⟩ => by show 0 = if (1 : Nat) = 1 then 0 else g.val; rw [if_pos rfl])

/-! ### The product with the weights: rows of the left operand against columns of the right -/

theorem lhs_klin_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs_klin_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs_klin_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs_klin_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The kernel's product of a [512 × 128] block with the [128 × 2] weights, onto zeros, at (g, j): the sum over the
    128 features of the block's row g against the weights' column j. -/
theorem klin_matmul_apply (a : FVec Ideal S512x128 .bf16) (b : FVec Ideal S128x2 .bf16) (g : Fin 512) (j : Fin 2) :
    matmul dot_S512x128_S128x2_S512x2_1_0_0_1_n_n none a b (constant (F := Ideal) S512x2 .f32 0x00000000#32) (ix2 g j)
      = ∑ k : Fin 128, a (ix2 g k) * b (ix2 k j) := by
  simp only [matmul]
  rw [Ideal.matmul_constant_zero_apply, ← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 g j) ((contrEquiv1 dot_S512x128_S128x2_S512x2_1_0_0_1_n_n 128 rfl rfl).symm k) = ix2 g k := funext fun a => Fin.ext (by
    match a with
    | ⟨0, _⟩ => exact lhs_klin_0 _ _
    | ⟨1, _⟩ => exact (lhs_klin_1 _ _).trans hk)
  have er : dot_S512x128_S128x2_S512x2_1_0_0_1_n_n.rhsIdx (ix2 g j) ((contrEquiv1 dot_S512x128_S128x2_S512x2_1_0_0_1_n_n 128 rfl rfl).symm k) = ix2 k j := funext fun a => Fin.ext (by
    match a with
    | ⟨0, _⟩ => exact (rhs_klin_0 _ _).trans hk
    | ⟨1, _⟩ => exact rhs_klin_1 _ _)
  rw [el, er]

/-- The output the last grid point stores, at (g, j): the logistic function of the scaled scratch's row g against the
    weights' column j, plus the bias at j. -/
theorem pay4_3_apply (v24 : Vec Ideal S512x128 .f32) (v25 : Vec Ideal S512x1 .f32) (v29 : Vec Ideal S128x2 .f32)
    (v33 : Vec Ideal S1x2 .f32) (g : Fin 512) (j : Fin 2) :
    Gen.k4_pay3 (F := Ideal) v24 v25 v29 v33 (ix2 g j)
      = Ideal.logistic ((∑ k : Fin 128, (v24 (ix2 g k) * v25 (ix2 g 0)) * v29 (ix2 k j)) + v33 (ix2 0 j)) := by
  unfold Gen.k4_pay3
  simp only [shapeCast_self]
  rw [pool_logistic_apply, addf_apply, klin_matmul_apply, pool_spread_row_apply]
  simp only [truncf_apply, mulf_apply, pool_spread_col_apply]

/-! ### The product of the transposed membership tile with the feature tile: columns against columns -/

theorem lhs_kacc_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs_kacc_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs_kacc_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs_kacc_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The kernel's product of a [2000 × 512] tile, transposed, with a [2000 × 128] tile, onto zeros, at (g, k): the sum
    over the tile's 2000 rows of the first tile's column g against the second tile's column k. -/
theorem kacc_matmul_apply (a : FVec Ideal S2000x512 .bf16) (b : FVec Ideal S2000x128 .bf16) (g : Fin 512) (k : Fin 128) :
    matmul dot_S2000x512_S2000x128_S512x128_0_0_1_1_n_n none a b (constant (F := Ideal) S512x128 .f32 0x00000000#32) (ix2 g k)
      = ∑ p : Fin 2000, a (ix2 p g) * b (ix2 p k) := by
  simp only [matmul]
  rw [Ideal.matmul_constant_zero_apply, ← Equiv.sum_comp (contrEquiv1 dot_S2000x512_S2000x128_S512x128_0_0_1_1_n_n 2000 rfl rfl).symm]
  refine Finset.sum_congr rfl fun p _ => ?_
  have hp := contrEquiv1_symm_val dot_S2000x512_S2000x128_S512x128_0_0_1_1_n_n 2000 rfl rfl p
  have el : dot_S2000x512_S2000x128_S512x128_0_0_1_1_n_n.lhsIdx (ix2 g k) ((contrEquiv1 dot_S2000x512_S2000x128_S512x128_0_0_1_1_n_n 2000 rfl rfl).symm p) = ix2 p g := funext fun a => Fin.ext (by
    match a with
    | ⟨0, _⟩ => exact (lhs_kacc_0 _ _).trans hp
    | ⟨1, _⟩ => exact lhs_kacc_1 _ _)
  have er : dot_S2000x512_S2000x128_S512x128_0_0_1_1_n_n.rhsIdx (ix2 g k) ((contrEquiv1 dot_S2000x512_S2000x128_S512x128_0_0_1_1_n_n 2000 rfl rfl).symm p) = ix2 p k := funext fun a => Fin.ext (by
    match a with
    | ⟨0, _⟩ => exact (rhs_kacc_0 _ _).trans hp
    | ⟨1, _⟩ => exact rhs_kacc_1 _ _)
  rw [el, er]

/-- What every grid point adds to the scratch, at (g, k): the scratch's entry plus the sum, over the tile's 2000 nodes,
    of the membership entry of node p in graph g times feature k of node p. -/
theorem pay4_2_apply (v3 : Vec Ideal S2000x128 .f32) (v6 : Vec Ideal S2000x1 .i32) (v15 : Vec Ideal S512x128 .f32)
    (g : Fin 512) (k : Fin 128) :
    Gen.k4_pay2 (F := Ideal) v3 v6 v15 (ix2 g k)
      = v15 (ix2 g k) + ∑ p : Fin 2000, onehot (v6 (ix2 p 0)) g * v3 (ix2 p k) := by
  unfold Gen.k4_pay2
  simp only [shapeCast_self]
  rw [addf_apply, kacc_matmul_apply]
  refine congrArg (v15 (ix2 g k) + ·) (Finset.sum_congr rfl fun p _ => ?_)
  rw [truncf_apply, truncf_apply, sitofp_apply, extui_apply]
  show FloatOps.sitofp (F := Ideal) .f32
      ((IntOp.cmpi .eq (broadcastTo S2000x512 v6 broadcasts_S2000x1_S2000x512 (ix2 p g))
        (iota .tc S2000x512 32 [1] iota_S2000x512_d1_w32 (ix2 p g))).setWidth 32) * v3 (ix2 p k) = _
  rw [pool_spread_words_apply, iota_single_apply]
  rfl

/-- The sum over the 50000 nodes, taken tile of 2000 by tile: the 25 tiles' sums add up to the whole sum. -/
theorem sum_tiles (f : Fin 50000 → EReal) :
    ∑ t : Fin 25, ∑ p : Fin 2000, f ⟨2000 * t.val + p.val, by have := t.isLt; have := p.isLt; omega⟩ = ∑ n : Fin 50000, f n := by
  have e : ∑ n : Fin 50000, f n = ∑ x : Fin 25 × Fin 2000, f (finProdFinEquiv x) :=
    (Equiv.sum_comp (finProdFinEquiv : Fin 25 × Fin 2000 ≃ Fin (25 * 2000)) f).symm
  rw [e, Fintype.sum_prod_type]
  refine Finset.sum_congr rfl fun t _ => Finset.sum_congr rfl fun p _ => ?_
  refine congrArg f (Fin.ext ?_)
  show 2000 * t.val + p.val = p.val + 2000 * t.val
  omega

end KernelPayloads

/-! ## The reference side -/

section ReferenceSide

open Cert.ReferenceIdeal Cert.ReferenceIdeal.Facts₀ Cert.ReferenceIdeal.Facts

/-- The per-graph sums of the feature rows: each row of h scatter-added, at its node's graph word, into a
    [512 × 128] table of zeros. -/
def rGraphSum (h : (⟨S50000x128, .f32⟩ : BufTy).Contents (Elt Ideal)) (batch : (⟨S50000, .i32⟩ : BufTy).Contents (Elt Ideal)) :
    (⟨S512x128, .f32⟩ : BufTy).Contents (Elt Ideal) :=
  Host.scatterAdd (F := Ideal) (φ := .f32) scatter_S512x128_S50000x1_S50000x128_1_0_0_1
    (broadcastInDim S512x128 ![] bcast_S_S512x128 (constant (F := Ideal) S_ .f32 0x00000000#32))
    (broadcastInDim S50000x1 ![0] bcast_S50000_S50000x1_0 batch)
    h

/-- The number of nodes of each graph, as the reference counts it. -/
def rGraphCount (batch : (⟨S50000, .i32⟩ : BufTy).Contents (Elt Ideal)) : (⟨S512, .f32⟩ : BufTy).Contents (Elt Ideal) :=
  Host.scatterAdd (F := Ideal) (φ := .f32) scatter_S512_S50000x1_S50000_n_0_0_1
    (broadcastInDim S512 ![] bcast_S_S512 (constant (F := Ideal) S_ .f32 0x00000000#32))
    (broadcastInDim S50000x1 ![0] bcast_S50000_S50000x1_0 batch)
    (broadcastInDim S50000 ![] bcast_S_S50000 (constant (F := Ideal) S_ .f32 0x3F800000#32))

/-- The divisor max (count, 1), spread over the 128 feature columns. -/
def rGraphDen (batch : (⟨S50000, .i32⟩ : BufTy).Contents (Elt Ideal)) : (⟨S512x128, .f32⟩ : BufTy).Contents (Elt Ideal) :=
  broadcastInDim S512x128 ![0, 1] bcast_S512x1_S512x128_0_1
    (broadcastInDim S512x1 ![0] bcast_S512_S512x1_0
      (maximumf (F := Ideal) (φ := .f32) (rGraphCount batch) (broadcastInDim S512 ![] bcast_S_S512 (constant (F := Ideal) S_ .f32 0x3F800000#32))))

/-- The mean feature row of each graph: the sums divided by max (count, 1). -/
def rGraphMean (h : (⟨S50000x128, .f32⟩ : BufTy).Contents (Elt Ideal)) (batch : (⟨S50000, .i32⟩ : BufTy).Contents (Elt Ideal)) :
    (⟨S512x128, .f32⟩ : BufTy).Contents (Elt Ideal) :=
  Host.divf (F := Ideal) (φ := .f32) (rGraphSum h batch) (rGraphDen batch)

/-- The linear layer: the means times the weights, plus the bias spread over the 512 graphs. -/
def rGraphLin (h : (⟨S50000x128, .f32⟩ : BufTy).Contents (Elt Ideal)) (batch : (⟨S50000, .i32⟩ : BufTy).Contents (Elt Ideal))
    (wlin : (⟨S128x2, .f32⟩ : BufTy).Contents (Elt Ideal)) (blin : (⟨S2, .f32⟩ : BufTy).Contents (Elt Ideal)) :
    (⟨S512x2, .f32⟩ : BufTy).Contents (Elt Ideal) :=
  addf (F := Ideal) (φ := .f32) (Host.dotGeneral (F := Ideal) (φ₁ := .f32) (φ₂ := .f32) dot_S512x128_S128x2_S512x2_1_0_0_1_n_n none (rGraphMean h batch) wlin)
    (broadcastInDim S512x2 ![0, 1] bcast_S1x2_S512x2_0_1 (broadcastInDim S1x2 ![1] bcast_S2_S1x2_1 blin))

/-- The reference's output: 1 / (1 + exp (−x)) of the linear layer, operation by operation. -/
def rPool (h : (⟨S50000x128, .f32⟩ : BufTy).Contents (Elt Ideal)) (batch : (⟨S50000, .i32⟩ : BufTy).Contents (Elt Ideal))
    (wlin : (⟨S128x2, .f32⟩ : BufTy).Contents (Elt Ideal)) (blin : (⟨S2, .f32⟩ : BufTy).Contents (Elt Ideal)) :
    (⟨S512x2, .f32⟩ : BufTy).Contents (Elt Ideal) :=
  Host.divf (F := Ideal) (φ := .f32) (broadcastInDim S512x2 ![] bcast_S_S512x2 (constant (F := Ideal) S_ .f32 0x3F800000#32))
    (addf (F := Ideal) (φ := .f32) (broadcastInDim S512x2 ![] bcast_S_S512x2 (constant (F := Ideal) S_ .f32 0x3F800000#32))
      (Host.exp (F := Ideal) (φ := .f32) (Host.negf (F := Ideal) (φ := .f32) (rGraphLin h batch wlin blin))))

end ReferenceSide

/-! ## The two sides agree -/

section Bridge

open Cert.ReferenceIdeal Cert.ReferenceIdeal.Facts₀ Cert.ReferenceIdeal.Facts
open Idealize.ShloMosaic.StableHlo.Predicate Cert.LibGatherScatter

/-- An [a] array viewed [a × 1] reads, at (i, u), the array at i. -/
theorem pool_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The scalar one spread to any shape reads 1 everywhere. -/
theorem pool_one_apply {T : Shape} (hb : (⟨0, ![]⟩ : Shape).BroadcastsInDim T ![]) (i : T.Idx) :
    broadcastInDim T ![] hb (constant (F := Ideal) ⟨0, ![]⟩ .f32 0x3F800000#32) i = 1 := by
  rw [broadcastInDim_scalar_apply, constant_apply, Ideal.ofBits_one_f32]

/-- The scalar zero spread to any shape reads 0 everywhere. -/
theorem pool_zero_apply {T : Shape} (hb : (⟨0, ![]⟩ : Shape).BroadcastsInDim T ![]) (i : T.Idx) :
    broadcastInDim T ![] hb (constant (F := Ideal) ⟨0, ![]⟩ .f32 0x00000000#32) i = 0 := by
  rw [broadcastInDim_scalar_apply, constant_apply, Ideal.ofBits_zero_f32]

/-- The column of graph words reads, at (n, 0), the word of node n. -/
theorem kBatch2_apply (batch : (⟨S50000, .i32⟩ : BufTy).Contents (Elt Ideal)) (n : Fin 50000) :
    kBatch2 batch (ix2 n 0) = batch (ix1 n) := by
  unfold kBatch2
  exact pool_shapeCast_a_a1_apply batch _ n 0

/-- The bias row reads, at (0, j), the bias at j. -/
theorem kBlin2_apply (blin : (⟨S2, .f32⟩ : BufTy).Contents (Elt Ideal)) (j : Fin 2) :
    kBlin2 blin (ix2 0 j) = blin (ix1 j) := by
  unfold kBlin2
  exact shapeCast_a_1a_apply blin _ 0 j

/-- The kernel side and the reference count the nodes of each graph by the same scatter-add. -/
theorem kGraphCount_eq (batch : (⟨S50000, .i32⟩ : BufTy).Contents (Elt Ideal)) : kGraphCount batch = rGraphCount batch := rfl

/-- The reciprocal column reads, at (g, 0), 1 / max (count g, 1). -/
theorem kInvCnt_apply (batch : (⟨S50000, .i32⟩ : BufTy).Contents (Elt Ideal)) (g : Fin 512) :
    kInvCnt batch (ix2 g 0) = Ideal.div 1 (max (rGraphCount batch (ix1 g)) 1) := by
  unfold kInvCnt
  rw [pool_shapeCast_a_a1_apply, hostDivf_apply, maximumf_apply, pool_one_apply, kGraphCount_eq]

/-- The divisor reads, at (g, k), max (count g, 1). -/
theorem rGraphDen_apply (batch : (⟨S50000, .i32⟩ : BufTy).Contents (Elt Ideal)) (g : Fin 512) (k : Fin 128) :
    rGraphDen batch (ix2 g k) = max (rGraphCount batch (ix1 g)) 1 := by
  unfold rGraphDen
  rw [broadcastInDim_apply _ bcast_S512x1_S512x128_0_1 _ (ix2 g k) (ix2 g 0) (fun a => match a with
      | ⟨0, _⟩ => by show g.val = if (512 : Nat) = 1 then 0 else g.val; rw [if_neg (by decide)]
      | ⟨1, _⟩ => by show 0 = if (1 : Nat) = 1 then 0 else k.val; rw [if_pos rfl]),
    broadcastInDim_apply _ bcast_S512_S512x1_0 _ (ix2 g 0) (ix1 g) (fun a => match a with
      | ⟨0, _⟩ => by show g.val = if (512 : Nat) = 1 then 0 else g.val; rw [if_neg (by decide)])]
  rw [maximumf_apply, pool_one_apply]

/-- A word read as a signed integer is g exactly when the word is the position of g. -/
theorem word_toInt_eq_iff (w : BitVec 32) (g : Fin 512) : w.toInt = (g.val : ℤ) ↔ w = BitVec.ofNat 32 g.val := by
  have hg := g.isLt
  have hw := w.isLt
  constructor
  · intro h
    apply BitVec.eq_of_toNat_eq
    rw [BitVec.toInt_eq_toNat_cond] at h
    rw [BitVec.toNat_ofNat]
    split at h <;> omega
  · rintro rfl
    rw [BitVec.toInt_eq_toNat_cond, BitVec.toNat_ofNat]
    split <;> omega

/-- The scatter-add of the feature rows reads, at (g, k), the sum over the nodes of the membership entry times
    feature k: zero plus the features of the nodes whose word is g, a word that names no graph adding nowhere. -/
theorem rGraphSum_apply (h : (⟨S50000x128, .f32⟩ : BufTy).Contents (Elt Ideal)) (batch : (⟨S50000, .i32⟩ : BufTy).Contents (Elt Ideal))
    (g : Fin 512) (k : Fin 128) :
    rGraphSum h batch (ix2 g k) = ∑ n : Fin 50000, onehot (batch (ix1 n)) g * h (ix2 n k) := by
  unfold rGraphSum
  rw [scatterAdd_rows_apply scatter_S512x128_S50000x1_S50000x128_1_0_0_1 rfl rfl rfl rfl]
  rw [pool_zero_apply, zero_add, Finset.sum_filter]
  refine Finset.sum_congr rfl fun n _ => ?_
  rw [onehot_mul, bcast_col1, ofFin_eq_ix1]
  exact if_congr (word_toInt_eq_iff _ _) rfl rfl

/-- The mean reads, at (g, k), the sum divided by max (count g, 1). -/
theorem rGraphMean_apply (h : (⟨S50000x128, .f32⟩ : BufTy).Contents (Elt Ideal)) (batch : (⟨S50000, .i32⟩ : BufTy).Contents (Elt Ideal))
    (g : Fin 512) (k : Fin 128) :
    rGraphMean h batch (ix2 g k) = Ideal.div (rGraphSum h batch (ix2 g k)) (max (rGraphCount batch (ix1 g)) 1) := by
  unfold rGraphMean
  rw [hostDivf_apply, rGraphDen_apply]

/-! ### The reference's product with the weights -/

theorem lhs_rlin_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide), dif_pos (show (0 : Fin S512x128.rank) ∈ dot_S512x128_S128x2_S512x2_1_0_0_1_n_n.lhsNonContracting by decide)]
  rfl
theorem lhs_rlin_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem rhs_rlin_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem rhs_rlin_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide), dif_pos (show (1 : Fin S128x2.rank) ∈ dot_S512x128_S128x2_S512x2_1_0_0_1_n_n.rhsNonContracting by decide)]
  rfl

/-- The reference's product of a [512 × 128] array with the [128 × 2] weights at (g, j): row g against column j. -/
theorem rlin_dot_apply (a : FVec Ideal S512x128 .f32) (b : FVec Ideal S128x2 .f32) (g : Fin 512) (j : Fin 2) :
    Host.dotGeneral (F := Ideal) (φ₁ := .f32) (φ₂ := .f32) dot_S512x128_S128x2_S512x2_1_0_0_1_n_n none a b (ix2 g j)
      = ∑ k : Fin 128, a (ix2 g k) * b (ix2 k j) := by
  simp only [Host.dotGeneral]
  rw [Ideal.dotGeneral_apply, ← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 g j) ((contrEquiv1 dot_S512x128_S128x2_S512x2_1_0_0_1_n_n 128 rfl rfl).symm k) = ix2 g k := funext fun a => Fin.ext (by
    match a with
    | ⟨0, _⟩ => exact lhs_rlin_0 _ _
    | ⟨1, _⟩ => exact (lhs_rlin_1 _ _).trans hk)
  have er : dot_S512x128_S128x2_S512x2_1_0_0_1_n_n.rhsIdx (ix2 g j) ((contrEquiv1 dot_S512x128_S128x2_S512x2_1_0_0_1_n_n 128 rfl rfl).symm k) = ix2 k j := funext fun a => Fin.ext (by
    match a with
    | ⟨0, _⟩ => exact (rhs_rlin_0 _ _).trans hk
    | ⟨1, _⟩ => exact rhs_rlin_1 _ _)
  rw [el, er]

/-- The linear layer reads, at (g, j), the mean row g against the weights' column j, plus the bias at j. -/
theorem rGraphLin_apply (h : (⟨S50000x128, .f32⟩ : BufTy).Contents (Elt Ideal)) (batch : (⟨S50000, .i32⟩ : BufTy).Contents (Elt Ideal))
    (wlin : (⟨S128x2, .f32⟩ : BufTy).Contents (Elt Ideal)) (blin : (⟨S2, .f32⟩ : BufTy).Contents (Elt Ideal)) (g : Fin 512) (j : Fin 2) :
    rGraphLin h batch wlin blin (ix2 g j) = (∑ k : Fin 128, rGraphMean h batch (ix2 g k) * wlin (ix2 k j)) + blin (ix1 j) := by
  unfold rGraphLin
  rw [addf_apply, rlin_dot_apply,
    broadcastInDim_apply _ bcast_S1x2_S512x2_0_1 _ (ix2 g j) (ix2 0 j) (fun a => match a with
      | ⟨0, _⟩ => by show 0 = if (1 : Nat) = 1 then 0 else g.val; rw [if_pos rfl]
      | ⟨1, _⟩ => by show j.val = if (2 : Nat) = 1 then 0 else j.val; rw [if_neg (by decide)]),
    broadcastInDim_apply _ bcast_S2_S1x2_1 _ (ix2 0 j) (ix1 j) (fun a => match a with
      | ⟨0, _⟩ => by show j.val = if (2 : Nat) = 1 then 0 else j.val; rw [if_neg (by decide)])]

/-- The reference's four operations after the linear layer are the logistic function: 1 / (1 + exp (−x)). -/
theorem rPool_apply (h : (⟨S50000x128, .f32⟩ : BufTy).Contents (Elt Ideal)) (batch : (⟨S50000, .i32⟩ : BufTy).Contents (Elt Ideal))
    (wlin : (⟨S128x2, .f32⟩ : BufTy).Contents (Elt Ideal)) (blin : (⟨S2, .f32⟩ : BufTy).Contents (Elt Ideal)) (g : Fin 512) (j : Fin 2) :
    rPool h batch wlin blin (ix2 g j) = Ideal.logistic (rGraphLin h batch wlin blin (ix2 g j)) := by
  unfold rPool
  rw [hostDivf_apply, addf_apply, pool_one_apply]
  simp only [Host.exp, Host.negf, Ideal.hostUnary_exp_def, Ideal.hostNegf_def, Ideal.negf_def, Ideal.logistic]

/-- A count raised to at least one is not zero. -/
theorem max_one_ne_zero (c : EReal) : max c 1 ≠ 0 := by
  have h01 : (0 : EReal) < 1 := by exact_mod_cast (zero_lt_one : (0 : ℝ) < 1)
  exact (lt_of_lt_of_le h01 (le_max_right c 1)).ne'

/-- THE STAGE. The pooling kernel's output formula on the kernel side's host pieces is the reference's output: the
    scatter-add of rows is the sum against the membership entries, the product with 1 / max (count, 1) is the quotient
    by max (count, 1), and 1 / (1 + exp (−x)) is the logistic function. -/
theorem pool_eq (h : (⟨S50000x128, .f32⟩ : BufTy).Contents (Elt Ideal)) (batch : (⟨S50000, .i32⟩ : BufTy).Contents (Elt Ideal))
    (wlin : (⟨S128x2, .f32⟩ : BufTy).Contents (Elt Ideal)) (blin : (⟨S2, .f32⟩ : BufTy).Contents (Elt Ideal)) :
    kPool h (kBatch2 batch) (kInvCnt batch) wlin (kBlin2 blin) = rPool h batch wlin blin := by
  funext i
  obtain ⟨g, j, rfl⟩ : ∃ (g : Fin 512) (j : Fin 2), i = ix2 g j := ⟨i 0, i 1, eq_ix2 i⟩
  rw [kPool_apply, rPool_apply, rGraphLin_apply, kBlin2_apply]
  refine congrArg Ideal.logistic (congrArg (· + blin (ix1 j)) (Finset.sum_congr rfl fun k _ => ?_))
  rw [rGraphMean_apply, kInvCnt_apply, Ideal.mul_one_div (max_one_ne_zero _), rGraphSum_apply]
  simp only [kBatch2_apply]

end Bridge

end Cert.Proof.Hand.Stage

end
-- ==== Proof.Hand.Val.HostK.lean ====
/-
  What each stretch of host operations of the kernel's program leaves in the arrays the next kernel region reads, as a
  function of the contents before the stretch. Each is the composition of the stretch's operations in program order,
  which is the corresponding stage function by unfolding: the edge list's two rows, the reciprocal clamped in-degree
  and the neighbour mean; the column mean, the scale over the standard deviation and the shift row of a batch
  normalisation; the bias rows; the graph index column and the reciprocal clamped graph sizes of the pooling.
-/
import proofs.«429563_j84585085928054_2_alg».proof.Proof.Gen.KernelIdeal.Launch
import Idealize.ShloMosaic.Lib.StableHlo.Run
import proofs.«429563_j84585085928054_2_alg».proof.Proof.Hand.Stage.Agg
import proofs.«429563_j84585085928054_2_alg».proof.Proof.Hand.Stage.MM
import proofs.«429563_j84585085928054_2_alg».proof.Proof.Hand.Stage.BN
import proofs.«429563_j84585085928054_2_alg».proof.Proof.Hand.Stage.Pool

noncomputable section

namespace Cert.KernelIdeal.Hand

open Idealize.ShloMosaic Idealize.ShloMosaic.TcCoe Idealize.SL.Sem Idealize.ShloMosaic.StableHlo
open Cert.KernelIdeal Cert.KernelIdeal.Gen Cert.Proof.Hand.Stage

/-! ## The first stretch: the edge list's rows, the reciprocal degree, the first aggregate, the bias row, the graph column -/

/-- After the first stretch the source-node array is row 0 of the edge list. -/
theorem host0_v1 (W : Valuation τ sig (Elt Ideal)) :
    StableHlo.after (hostOps0 (F := Ideal)) W (Proc.devRef .tc main_v1) = kSrc (W main_arg1) := by
  dsimp only [hostOps0]
  after_results_simp
  rfl

/-- After the first stretch the destination-node array is row 1 of the edge list. -/
theorem host0_v3 (W : Valuation τ sig (Elt Ideal)) :
    StableHlo.after (hostOps0 (F := Ideal)) W (Proc.devRef .tc main_v3) = kDst (W main_arg1) := by
  dsimp only [hostOps0]
  after_results_simp
  rfl

/-- After the first stretch the per-node factor is one over the in-degree clamped below by one. -/
theorem host0_v12 (W : Valuation τ sig (Elt Ideal)) :
    StableHlo.after (hostOps0 (F := Ideal)) W (Proc.devRef .tc main_v12) = kInvDeg (kDst (W main_arg1)) := by
  dsimp only [hostOps0]
  after_results_simp
  rfl

/-- After the first stretch the first layer's aggregate is the neighbour mean of the input features. -/
theorem host0_v27 (W : Valuation τ sig (Elt Ideal)) :
    StableHlo.after (hostOps0 (F := Ideal)) W (Proc.devRef .tc main_v27) = kAgg (W main_arg0) (kSrc (W main_arg1)) (kDst (W main_arg1)) (kInvDeg (kDst (W main_arg1))) := by
  dsimp only [hostOps0]
  after_results_simp
  rfl

/-- After the first stretch the first layer's bias is laid out as one row. -/
theorem host0_v28 (W : Valuation τ sig (Elt Ideal)) :
    StableHlo.after (hostOps0 (F := Ideal)) W (Proc.devRef .tc main_v28) = kBias2 (W main_arg5) := by
  dsimp only [hostOps0]
  after_results_simp
  rfl

/-- After the first stretch the graph index of every node is laid out as a column. -/
theorem host0_v4 (W : Valuation τ sig (Elt Ideal)) :
    StableHlo.after (hostOps0 (F := Ideal)) W (Proc.devRef .tc main_v4) = kBatch2 (W main_arg2) := by
  dsimp only [hostOps0]
  after_results_simp
  rfl

/-! ## The second stretch: the first batch normalisation's statistics -/

/-- After the second stretch: the column means of the first layer's affine output. -/
theorem host1_v33 (W : Valuation τ sig (Elt Ideal)) :
    StableHlo.after (hostOps1 (F := Ideal)) W (Proc.devRef .tc main_v33) = kMean (W main_v29) := by
  dsimp only [hostOps1]
  after_results_simp
  rfl

/-- After the second stretch: the first layer's scale over the square root of the clamped variance plus the small constant. -/
theorem host1_v47 (W : Valuation τ sig (Elt Ideal)) :
    StableHlo.after (hostOps1 (F := Ideal)) W (Proc.devRef .tc main_v47) = kInvStd (W main_v29) (W main_arg6) := by
  dsimp only [hostOps1]
  after_results_simp
  rfl

/-- After the second stretch: the first layer's shift as one row. -/
theorem host1_v48 (W : Valuation τ sig (Elt Ideal)) :
    StableHlo.after (hostOps1 (F := Ideal)) W (Proc.devRef .tc main_v48) = kBeta2 (W main_arg7) := by
  dsimp only [hostOps1]
  after_results_simp
  rfl

/-! ## The third stretch: the second aggregate and bias row -/

/-- After the third stretch the second layer's aggregate is the neighbour mean of the first layer's output, over the source, destination and reciprocal-degree arrays the first stretch left. -/
theorem host2_v64 (W : Valuation τ sig (Elt Ideal)) :
    StableHlo.after (hostOps2 (F := Ideal)) W (Proc.devRef .tc main_v64) = kAgg (W main_v49) (W main_v1) (W main_v3) (W main_v12) := by
  dsimp only [hostOps2]
  after_results_simp
  rfl

/-- After the third stretch the second layer's bias is laid out as one row. -/
theorem host2_v65 (W : Valuation τ sig (Elt Ideal)) :
    StableHlo.after (hostOps2 (F := Ideal)) W (Proc.devRef .tc main_v65) = kBias2 (W main_arg10) := by
  dsimp only [hostOps2]
  after_results_simp
  rfl

/-! ## The fourth stretch: the second batch normalisation's statistics -/

/-- After the fourth stretch: the column means of the second layer's affine output. -/
theorem host3_v70 (W : Valuation τ sig (Elt Ideal)) :
    StableHlo.after (hostOps3 (F := Ideal)) W (Proc.devRef .tc main_v70) = kMean (W main_v66) := by
  dsimp only [hostOps3]
  after_results_simp
  rfl

/-- After the fourth stretch: the second layer's scale over the square root of the clamped variance plus the small constant. -/
theorem host3_v84 (W : Valuation τ sig (Elt Ideal)) :
    StableHlo.after (hostOps3 (F := Ideal)) W (Proc.devRef .tc main_v84) = kInvStd (W main_v66) (W main_arg11) := by
  dsimp only [hostOps3]
  after_results_simp
  rfl

/-- After the fourth stretch: the second layer's shift as one row. -/
theorem host3_v85 (W : Valuation τ sig (Elt Ideal)) :
    StableHlo.after (hostOps3 (F := Ideal)) W (Proc.devRef .tc main_v85) = kBeta2 (W main_arg12) := by
  dsimp only [hostOps3]
  after_results_simp
  rfl

/-! ## The last stretch: the reciprocal graph sizes and the linear layer's bias row -/

/-- After the last stretch: one over each graph's node count clamped below by one, as a column. -/
theorem host4_v95 (W : Valuation τ sig (Elt Ideal)) :
    StableHlo.after (hostOps4 (F := Ideal)) W (Proc.devRef .tc main_v95) = kInvCnt (W main_arg2) := by
  dsimp only [hostOps4]
  after_results_simp
  rfl

/-- After the last stretch: the linear layer's bias as one row. -/
theorem host4_v96 (W : Valuation τ sig (Elt Ideal)) :
    StableHlo.after (hostOps4 (F := Ideal)) W (Proc.devRef .tc main_v96) = kBlin2 (W main_arg14) := by
  dsimp only [hostOps4]
  after_results_simp
  rfl

end Cert.KernelIdeal.Hand
-- ==== Proof.Hand.Val.Final0.lean ====
import proofs.«429563_j84585085928054_2_alg».proof.Proof.Hand.KI.Region0
import proofs.«429563_j84585085928054_2_alg».proof.Proof.Hand.Stage.MM
import Idealize.ShloMosaic.Lib.Pipeline.Value
import Idealize.ShloMosaic.Lib.ValueIdx

/-! # The first affine region's result array, whole

Point t of the grid writes back rows 5000 t .. 5000 t + 4999 of the result; the row tiles it read are
the same rows of the two operand arrays, and the weight and bias blocks are those arrays entire. So the
tile stored at point t is rows 5000 t .. of ONE function of the five arrays: at (r, j), the two
contractions of row r over the 128 features, added, plus the bias at j. The ten tiles cover the 50000
rows, so after the run the array is that function. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Hand.Stage (kMM kMM_apply pay0_apply)

variable (V : (c : Dev nD) → (b : Ref sig .tc) → Buf (Elt Ideal) ((c : Thread nD τ).loc b))

/-- Every access of the body starts at the origin of its buffer. -/
theorem origin0 : (![0, 0] : Fin 2 → Nat) = fun _ => 0 :=
  funext fun a => match a with | ⟨0, _⟩ => rfl | ⟨1, _⟩ => rfl

/-- The block index of each window at each grid point, decided over the ten points: the two row tiles
    and the result tile sit at row block t, column block 0; the weights and the bias at block (0, 0). -/
theorem blockIndices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a stored tile is the matching entry of the whole-array function: if row p of the two
    loaded row tiles is row r of the operand arrays, and the loaded weights and bias are the arrays
    entire, then the payload at (p, j) is the affine stage at (r, j). Both sides are the same two sums
    over the contracted features plus the bias entry. -/
theorem tile_entry0 (A X : (⟨S50000x128, .f32⟩ : BufTy).Contents (Elt Ideal))
    (WL WR : (⟨S128x128, .f32⟩ : BufTy).Contents (Elt Ideal)) (B : (⟨S1x128, .f32⟩ : BufTy).Contents (Elt Ideal))
    (a x : Vec Ideal S5000x128 .f32) (wl wr : Vec Ideal S128x128 .f32) (b : Vec Ideal S1x128 .f32)
    (r : Fin 50000) (p : Fin 5000) (j : Fin 128)
    (ha : ∀ k : Fin 128, a (ix2 p k) = A (ix2 r k)) (hx : ∀ k : Fin 128, x (ix2 p k) = X (ix2 r k))
    (hwl : wl = WL) (hwr : wr = WR) (hb : b = B) :
    k0_pay1 (F := Ideal) a x wl wr b (ix2 p j) = kMM A X WL WR B (ix2 r j) := by
  subst hwl hwr hb
  rw [pay0_apply, kMM_apply]
  simp only [ha, hx]

/-- What point t writes back is block t of the affine stage of the five arrays as the region finds them. -/
theorem flushed0_eq (c : Dev nD) (t : Fin cfg0.N) :
    (dat0 (F := Ideal) V c).flushed 5 t
      = ((cfg0.win 5).blk t).view.read (Elt Ideal)
          (kMM (V c main_v27) (V c main_arg0) (V c main_arg3) (V c main_arg4) (V c main_v28)) := by
  show (cfg0.win 5).cut (grid0.coords t) ((dat0 V c).after 5 t) = _
  rw [after0_5]
  unfold out0
  rw [View.canon_unit_zero origin0]
  simp only [View.ld_unit_zero (S := S5000x128) origin0, View.ld_unit_zero (S := S128x128) origin0,
    View.ld_unit_zero (S := S1x128) origin0]
  obtain ⟨e00, e01, e10, e11, e20, e21, e30, e31, e40, e41, e50, e51⟩ := blockIndices0 t
  have ht : t.val < 10 := by have h : t.val < grid0.N := t.isLt; rw [N_0] at h; exact h
  funext y
  obtain ⟨p, j, rfl⟩ : ∃ (p : Fin 5000) (j : Fin 128), y = ix2 p j := ⟨y 0, y 1, eq_ix2 y⟩
  have hp : p.val < 5000 := p.isLt
  show k0_pay1 (F := Ideal) (iblk0 V c 0 t) (iblk0 V c 1 t) (iblk0 V c 2 t) (iblk0 V c 3 t) (iblk0 V c 4 t) (ix2 p j)
    = kMM (V c main_v27) (V c main_arg0) (V c main_arg3) (V c main_arg4) (V c main_v28)
        (((cfg0.win 5).blk t).view.emb (ix2 p j))
  -- the result tile's entry (p, j) is the array's entry (5000 t + p, j)
  have hout : ((cfg0.win 5).blk t).view.emb (ix2 p j) = ix2 (⟨t.val * 5000 + p.val, by omega⟩ : Fin 50000) j := by
    funext ax; apply Fin.ext
    match ax with
    | ⟨0, _⟩ => show win0_5.index t (0 : Fin 2) * 5000 + 1 * p.val = t.val * 5000 + p.val; omega
    | ⟨1, _⟩ => show win0_5.index t (1 : Fin 2) * 128 + 1 * j.val = j.val; omega
  rw [hout]
  refine tile_entry0 (V c main_v27) (V c main_arg0) (V c main_arg3) (V c main_arg4) (V c main_v28)
    (iblk0 V c 0 t) (iblk0 V c 1 t) (iblk0 V c 2 t) (iblk0 V c 3 t) (iblk0 V c 4 t)
    ⟨t.val * 5000 + p.val, by omega⟩ p j ?_ ?_ ?_ ?_ ?_
  · -- row p of the aggregated tile is row 5000 t + p of its array
    intro k
    show V c main_v27 (((cfg0.win 0).blk t).view.emb (ix2 p k)) = _
    have h : ((cfg0.win 0).blk t).view.emb (ix2 p k) = ix2 (⟨t.val * 5000 + p.val, by omega⟩ : Fin 50000) k := by
      funext ax; apply Fin.ext
      match ax with
      | ⟨0, _⟩ => show win0_0.index t (0 : Fin 2) * 5000 + 1 * p.val = t.val * 5000 + p.val; omega
      | ⟨1, _⟩ => show win0_0.index t (1 : Fin 2) * 128 + 1 * k.val = k.val; omega
    rw [h]
  · -- and likewise of the node-features tile
    intro k
    show V c main_arg0 (((cfg0.win 1).blk t).view.emb (ix2 p k)) = _
    have h : ((cfg0.win 1).blk t).view.emb (ix2 p k) = ix2 (⟨t.val * 5000 + p.val, by omega⟩ : Fin 50000) k := by
      funext ax; apply Fin.ext
      match ax with
      | ⟨0, _⟩ => show win0_1.index t (0 : Fin 2) * 5000 + 1 * p.val = t.val * 5000 + p.val; omega
      | ⟨1, _⟩ => show win0_1.index t (1 : Fin 2) * 128 + 1 * k.val = k.val; omega
    rw [h]
  · -- the neighbour weights' block is the whole matrix
    funext z
    show V c main_arg3 (((cfg0.win 2).blk t).view.emb z) = V c main_arg3 z
    have h : ((cfg0.win 2).blk t).view.emb z = z := by
      funext ax; apply Fin.ext
      match ax with
      | ⟨0, _⟩ => show win0_2.index t (0 : Fin 2) * 128 + 1 * (z 0).val = (z 0).val; omega
      | ⟨1, _⟩ => show win0_2.index t (1 : Fin 2) * 128 + 1 * (z 1).val = (z 1).val; omega
    rw [h]
  · -- the root weights' block is the whole matrix
    funext z
    show V c main_arg4 (((cfg0.win 3).blk t).view.emb z) = V c main_arg4 z
    have h : ((cfg0.win 3).blk t).view.emb z = z := by
      funext ax; apply Fin.ext
      match ax with
      | ⟨0, _⟩ => show win0_3.index t (0 : Fin 2) * 128 + 1 * (z 0).val = (z 0).val; omega
      | ⟨1, _⟩ => show win0_3.index t (1 : Fin 2) * 128 + 1 * (z 1).val = (z 1).val; omega
    rw [h]
  · -- the bias block is the whole row
    funext z
    show V c main_v28 (((cfg0.win 4).blk t).view.emb z) = V c main_v28 z
    have h : ((cfg0.win 4).blk t).view.emb z = z := by
      funext ax; apply Fin.ext
      match ax with
      | ⟨0, _⟩ => show win0_4.index t (0 : Fin 2) * 1 + 1 * (z 0).val = (z 0).val; omega
      | ⟨1, _⟩ => show win0_4.index t (1 : Fin 2) * 128 + 1 * (z 1).val = (z 1).val; omega
    rw [h]

/-- An entry of the result array lies in point t's block exactly when, on each axis, its coordinate
    is in the block's range there. -/
theorem mem_resultBlock0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v29).slice (win0_5.rect t)).set ↔ _
  rw [View.set_slice_whole, Rect.mem_set_unit]
  exact Iff.rfl

/-- Every entry of the result is written back by some point: row r by point r / 5000. -/
theorem rows_covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have hlt : (i 0).val / 5000 < grid0.N := by omega
  obtain ⟨-, -, -, -, -, -, -, -, -, -, e50, e51⟩ := blockIndices0 ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_resultBlock0]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- The result array after the run: the affine stage of the five arrays as the region finds them. -/
theorem final0 (c : Dev nD) :
    (dat0 (F := Ideal) V c).arrAt 5 cfg0.N
      = kMM (V c main_v27) (V c main_arg0) (V c main_arg3) (V c main_arg4) (V c main_v28) :=
  (dat0 (F := Ideal) V c).arrAt_eq_of_cover 5 _ (fun t _ => flushed0_eq V c t) rows_covered0

end Cert.KernelIdeal.Hand

end
-- ==== Proof.Hand.Val.Final1.lean ====
import proofs.«429563_j84585085928054_2_alg».proof.Proof.Hand.KI.Region1
import proofs.«429563_j84585085928054_2_alg».proof.Proof.Hand.Stage.BN
import Idealize.ShloMosaic.Lib.Pipeline.Value
import Idealize.ShloMosaic.Lib.ValueIdx
import Idealize.ShloMosaic.Lib.Tactic

/-! # The normalise-and-rectify call number 1: its output array after the run, as one function of its inputs

Tile `t` of the call writes back rows `5000 t … 5000 t + 4999` of the output, each element
`max ((pre (r, j) − mean (0, j)) · invstd (0, j) + beta (0, j)) 0` of the arrays as the call found them. The ten
tiles' row ranges fill the 50000 rows, so the whole output array ends at that formula, index by index. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The zero offsets of a whole-buffer access, as a constant function. -/
theorem zeroOffsets1 : (![0, 0] : Fin 2 → Nat) = fun _ => 0 := funext fun a => by fin_cases a <;> rfl

/-! ## One element, one tile -/

/-- One element of the result: `max ((x − μ) · s + β) 0`. -/
def bnReluElt1 (x mu sd be : F .f32) : F .f32 :=
  FloatOps.maximumf (FloatOps.addf (FloatOps.mulf (FloatOps.subf x mu) sd) be) (Scalar.ofBits .f32 0x00000000#32)

/-- The whole array the call leaves: at row `r`, column `j`, the element formula of `pre (r, j)` and column `j` of
    the three rows. -/
def bnReluArr1 (pre : S50000x128.Idx → Elt F .f32) (mean invstd beta : S1x128.Idx → Elt F .f32) : S50000x128.Idx → Elt F .f32 :=
  fun i => bnReluElt1 (pre i) (mean (ix2 (0 : Fin 1) (i 1))) (invstd (ix2 (0 : Fin 1) (i 1))) (beta (ix2 (0 : Fin 1) (i 1)))

/-- A row broadcast down a tile, read at `j`, is the row at `j`'s column. -/
theorem rowDownTile1_apply (v : Vec F S1x128 .f32) (j : S5000x128.Idx) :
    broadcastTo S5000x128 v broadcasts_S1x128_S5000x128 j = v (ix2 (0 : Fin 1) (j 1)) :=
  broadcastTo_apply v broadcasts_S1x128_S5000x128 j (ix2 (0 : Fin 1) (j 1)) fun a => by
    match a with
    | ⟨0, _⟩ => rfl
    | ⟨1, _⟩ => rfl

/-- The body's payload at an element of the tile: the element formula of the tile's element and the rows' column. The
    shape casts are to the same shape, the three rows are broadcast down the tile, the zero is splat. -/
theorem pay1_at (x0 : Vec F S5000x128 .f32) (mu sd be : Vec F S1x128 .f32) (j : S5000x128.Idx) :
    k1_pay1 x0 mu sd be j
      = bnReluElt1 (x0 j) (mu (ix2 (0 : Fin 1) (j 1))) (sd (ix2 (0 : Fin 1) (j 1))) (be (ix2 (0 : Fin 1) (j 1))) := by
  unfold k1_pay1 bnReluElt1
  simp only [shapeCast_self]
  show FloatOps.maximumf (FloatOps.addf (FloatOps.mulf (FloatOps.subf (x0 j)
      (broadcastTo S5000x128 mu broadcasts_S1x128_S5000x128 j)) (broadcastTo S5000x128 sd broadcasts_S1x128_S5000x128 j))
      (broadcastTo S5000x128 be broadcasts_S1x128_S5000x128 j)) (Scalar.ofBits .f32 0x00000000#32) = _
  rw [rowDownTile1_apply, rowDownTile1_apply, rowDownTile1_apply]

/-! ## Where each window's block sits in its array -/

/-- The printed index maps, decided over the ten tiles: the pre-activation and output windows are at block row `t`,
    column block 0; the three row windows stay at block (0, 0). -/
theorem tileIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The pre-activation window's block at tile `t` is rows `5000 t … 5000 t + 4999` of its array. -/
theorem iblk1_pre_apply (V : (c : Dev nD) → (b : Ref sig .tc) → Buf (Elt F) ((c : Thread nD τ).loc b)) (c : Dev nD) (t : Fin cfg1.N)
    (x : S5000x128.Idx) (k : S50000x128.Idx) (hk0 : (k 0).val = 5000 * t.val + (x 0).val) (hk1 : (k 1).val = (x 1).val) :
    (iblk1 V c 0 t : Vec F S5000x128 .f32) x = (V c main_v29 : S50000x128.Idx → Elt F .f32) k := by
  obtain ⟨e00, e01, e10, e11, e20, e21, e30, e31, e40, e41⟩ := tileIndex1 t
  unfold iblk1
  rw [View.read_apply]
  show V c main_v29 _ = V c main_v29 _
  congr 1
  funext a
  apply Fin.ext
  match a with
  | ⟨0, _⟩ => show win1_0.index t 0 * 5000 + 1 * (x 0).val = (k 0).val; rw [e00, hk0]; omega
  | ⟨1, _⟩ => show win1_0.index t 1 * 128 + 1 * (x 1).val = (k 1).val; rw [e01, hk1]; omega

/-- The mean window's block at any tile is the whole row of its array. -/
theorem iblk1_mean_apply (V : (c : Dev nD) → (b : Ref sig .tc) → Buf (Elt F) ((c : Thread nD τ).loc b)) (c : Dev nD) (t : Fin cfg1.N)
    (x k : S1x128.Idx) (hk : (k 1).val = (x 1).val) :
    (iblk1 V c 1 t : Vec F S1x128 .f32) x = (V c main_v33 : S1x128.Idx → Elt F .f32) k := by
  obtain ⟨e00, e01, e10, e11, e20, e21, e30, e31, e40, e41⟩ := tileIndex1 t
  unfold iblk1
  rw [View.read_apply]
  show V c main_v33 _ = V c main_v33 _
  congr 1
  funext a
  apply Fin.ext
  have hx : (x 0).val < 1 := (x 0).isLt
  have hkk : (k 0).val < 1 := (k 0).isLt
  match a with
  | ⟨0, _⟩ => show win1_1.index t 0 * 1 + 1 * (x 0).val = (k 0).val; rw [e10]; omega
  | ⟨1, _⟩ => show win1_1.index t 1 * 128 + 1 * (x 1).val = (k 1).val; rw [e11, hk]; omega

/-- The reciprocal-standard-deviation window's block at any tile is the whole row of its array. -/
theorem iblk1_invstd_apply (V : (c : Dev nD) → (b : Ref sig .tc) → Buf (Elt F) ((c : Thread nD τ).loc b)) (c : Dev nD) (t : Fin cfg1.N)
    (x k : S1x128.Idx) (hk : (k 1).val = (x 1).val) :
    (iblk1 V c 2 t : Vec F S1x128 .f32) x = (V c main_v47 : S1x128.Idx → Elt F .f32) k := by
  obtain ⟨e00, e01, e10, e11, e20, e21, e30, e31, e40, e41⟩ := tileIndex1 t
  unfold iblk1
  rw [View.read_apply]
  show V c main_v47 _ = V c main_v47 _
  congr 1
  funext a
  apply Fin.ext
  have hx : (x 0).val < 1 := (x 0).isLt
  have hkk : (k 0).val < 1 := (k 0).isLt
  match a with
  | ⟨0, _⟩ => show win1_2.index t 0 * 1 + 1 * (x 0).val = (k 0).val; rw [e20]; omega
  | ⟨1, _⟩ => show win1_2.index t 1 * 128 + 1 * (x 1).val = (k 1).val; rw [e21, hk]; omega

/-- The shift window's block at any tile is the whole row of its array. -/
theorem iblk1_beta_apply (V : (c : Dev nD) → (b : Ref sig .tc) → Buf (Elt F) ((c : Thread nD τ).loc b)) (c : Dev nD) (t : Fin cfg1.N)
    (x k : S1x128.Idx) (hk : (k 1).val = (x 1).val) :
    (iblk1 V c 3 t : Vec F S1x128 .f32) x = (V c main_v48 : S1x128.Idx → Elt F .f32) k := by
  obtain ⟨e00, e01, e10, e11, e20, e21, e30, e31, e40, e41⟩ := tileIndex1 t
  unfold iblk1
  rw [View.read_apply]
  show V c main_v48 _ = V c main_v48 _
  congr 1
  funext a
  apply Fin.ext
  have hx : (x 0).val < 1 := (x 0).isLt
  have hkk : (k 0).val < 1 := (k 0).isLt
  match a with
  | ⟨0, _⟩ => show win1_3.index t 0 * 1 + 1 * (x 0).val = (k 0).val; rw [e30]; omega
  | ⟨1, _⟩ => show win1_3.index t 1 * 128 + 1 * (x 1).val = (k 1).val; rw [e31, hk]; omega

/-! ## What a tile writes back -/

/-- WHAT TILE `t` WRITES BACK is block `t` of the whole-array formula of the arrays as the call finds them: the
    output buffer holds the payload of the four input blocks; the pre-activation block and the output block sit at
    the same rows of their arrays, and every row window shows its whole row. -/
theorem flushed1_eq (V : (c : Dev nD) → (b : Ref sig .tc) → Buf (Elt F) ((c : Thread nD τ).loc b)) (c : Dev nD) (t : Fin cfg1.N) :
    (dat1 V c).flushed 4 t
      = ((cfg1.win 4).blk t).view.read (Elt F) (bnReluArr1 (V c main_v29) (V c main_v33) (V c main_v47) (V c main_v48)) := by
  show (cfg1.win 4).cut (grid1.coords t) ((dat1 V c).after 4 t) = _
  rw [after1_4]
  unfold out1
  rw [View.canon_unit_zero zeroOffsets1]
  simp only [View.ld_unit_zero (S := S5000x128) zeroOffsets1, View.ld_unit_zero (S := S1x128) zeroOffsets1]
  obtain ⟨e00, e01, e10, e11, e20, e21, e30, e31, e40, e41⟩ := tileIndex1 t
  funext j
  refine (pay1_at _ _ _ _ j).trans ?_
  show _ = bnReluElt1 (V c main_v29 (((cfg1.win 4).blk t).view.emb j)) (V c main_v33 (ix2 (0 : Fin 1) ((((cfg1.win 4).blk t).view.emb j) 1)))
      (V c main_v47 (ix2 (0 : Fin 1) ((((cfg1.win 4).blk t).view.emb j) 1))) (V c main_v48 (ix2 (0 : Fin 1) ((((cfg1.win 4).blk t).view.emb j) 1)))
  have hrow : ((((cfg1.win 4).blk t).view.emb j) 0).val = 5000 * t.val + (j 0).val := by
    show win1_4.index t 0 * 5000 + 1 * (j 0).val = _; rw [e40]; omega
  have hcol : ((((cfg1.win 4).blk t).view.emb j) 1).val = (j 1).val := by
    show win1_4.index t 1 * 128 + 1 * (j 1).val = _; rw [e41]; omega
  refine congr (congr (congr (congrArg bnReluElt1 ?_) ?_) ?_) ?_
  · exact iblk1_pre_apply V c t j _ hrow hcol
  · exact iblk1_mean_apply V c t _ _ hcol
  · exact iblk1_invstd_apply V c t _ _ hcol
  · exact iblk1_beta_apply V c t _ _ hcol

/-! ## The tiles fill the array -/

/-- An index of the output array is in tile `t`'s block iff each coordinate is in the block's range on its axis. -/
theorem mem_tile1 (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v49).slice (win1_4.rect t)).set ↔ _
  rw [View.set_slice_whole, Rect.mem_set_unit]
  exact Iff.rfl

/-- Row `r` of the output is in the block of tile `r / 5000`, which is written back like every tile's. -/
theorem tiles1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨e00, e01, e10, e11, e20, e21, e30, e31, e40, e41⟩ := tileIndex1 t
  refine ⟨t, flush1_4 t, ?_⟩
  rw [mem_tile1]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 128 ≤ (i 1).val ∧ (i 1).val < win1_4.index t (1 : Fin 2) * 128 + 128
    rw [e41]; omega

/-! ## The output array after the run -/

/-- The output array after the call's ten write-backs is the whole-array formula of the arrays as the call found them:
    every tile writes its block of it, and the tiles' blocks fill the array. -/
theorem final1_formula (V : (c : Dev nD) → (b : Ref sig .tc) → Buf (Elt F) ((c : Thread nD τ).loc b)) (c : Dev nD) :
    (dat1 V c).arrAt 4 cfg1.N = bnReluArr1 (V c main_v29) (V c main_v33) (V c main_v47) (V c main_v48) :=
  (dat1 V c).arrAt_eq_of_cover 4 (bnReluArr1 (V c main_v29) (V c main_v33) (V c main_v47) (V c main_v48))
    (fun t _ => flushed1_eq V c t) tiles1_cover

/-- The same, with the formula under the name the value bridge uses: the two are one term, element by element. -/
theorem final1 (V : (c : Dev nD) → (b : Ref sig .tc) → Buf (Elt Ideal) ((c : Thread nD τ).loc b)) (c : Dev nD) :
    (dat1 (F := Ideal) V c).arrAt 4 cfg1.N
      = Cert.Proof.Hand.Stage.kBNR (V c main_v29) (V c main_v33) (V c main_v47) (V c main_v48) :=
  (final1_formula (F := Ideal) V c).trans (funext fun i => rfl)

end Cert.KernelIdeal.Hand

end
-- ==== Proof.Hand.Val.Final2.lean ====
import proofs.«429563_j84585085928054_2_alg».proof.Proof.Hand.KI.Region2
import proofs.«429563_j84585085928054_2_alg».proof.Proof.Hand.Stage.MM
import Idealize.ShloMosaic.Lib.Pipeline.Value
import Idealize.ShloMosaic.Lib.ValueIdx

/-! # The second affine region's result array, whole

Point t of the grid writes back rows 5000 t .. 5000 t + 4999 of the result; the row tiles it read are
the same rows of the two operand arrays, and the weight and bias blocks are those arrays entire. So the
tile stored at point t is rows 5000 t .. of ONE function of the five arrays: at (r, j), the two
contractions of row r over the 128 features, added, plus the bias at j. The ten tiles cover the 50000
rows, so after the run the array is that function. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Hand.Stage (kMM kMM_apply pay2_apply)

variable (V : (c : Dev nD) → (b : Ref sig .tc) → Buf (Elt Ideal) ((c : Thread nD τ).loc b))

/-- Every access of the body starts at the origin of its buffer. -/
theorem origin2 : (![0, 0] : Fin 2 → Nat) = fun _ => 0 :=
  funext fun a => match a with | ⟨0, _⟩ => rfl | ⟨1, _⟩ => rfl

/-- The block index of each window at each grid point, decided over the ten points: the two row tiles
    and the result tile sit at row block t, column block 0; the weights and the bias at block (0, 0). -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of a stored tile is the matching entry of the whole-array function: if row p of the two
    loaded row tiles is row r of the operand arrays, and the loaded weights and bias are the arrays
    entire, then the payload at (p, j) is the affine stage at (r, j). Both sides are the same two sums
    over the contracted features plus the bias entry. -/
theorem tile_entry2 (A X : (⟨S50000x128, .f32⟩ : BufTy).Contents (Elt Ideal))
    (WL WR : (⟨S128x128, .f32⟩ : BufTy).Contents (Elt Ideal)) (B : (⟨S1x128, .f32⟩ : BufTy).Contents (Elt Ideal))
    (a x : Vec Ideal S5000x128 .f32) (wl wr : Vec Ideal S128x128 .f32) (b : Vec Ideal S1x128 .f32)
    (r : Fin 50000) (p : Fin 5000) (j : Fin 128)
    (ha : ∀ k : Fin 128, a (ix2 p k) = A (ix2 r k)) (hx : ∀ k : Fin 128, x (ix2 p k) = X (ix2 r k))
    (hwl : wl = WL) (hwr : wr = WR) (hb : b = B) :
    k2_pay1 (F := Ideal) a x wl wr b (ix2 p j) = kMM A X WL WR B (ix2 r j) := by
  subst hwl hwr hb
  rw [pay2_apply, kMM_apply]
  simp only [ha, hx]

/-- What point t writes back is block t of the affine stage of the five arrays as the region finds them. -/
theorem flushed2_eq (c : Dev nD) (t : Fin cfg2.N) :
    (dat2 (F := Ideal) V c).flushed 5 t
      = ((cfg2.win 5).blk t).view.read (Elt Ideal)
          (kMM (V c main_v64) (V c main_v49) (V c main_arg8) (V c main_arg9) (V c main_v65)) := by
  show (cfg2.win 5).cut (grid2.coords t) ((dat2 V c).after 5 t) = _
  rw [after2_5]
  unfold out2
  rw [View.canon_unit_zero origin2]
  simp only [View.ld_unit_zero (S := S5000x128) origin2, View.ld_unit_zero (S := S128x128) origin2,
    View.ld_unit_zero (S := S1x128) origin2]
  obtain ⟨e00, e01, e10, e11, e20, e21, e30, e31, e40, e41, e50, e51⟩ := blockIndices2 t
  have ht : t.val < 10 := by have h : t.val < grid2.N := t.isLt; rw [N_2] at h; exact h
  funext y
  obtain ⟨p, j, rfl⟩ : ∃ (p : Fin 5000) (j : Fin 128), y = ix2 p j := ⟨y 0, y 1, eq_ix2 y⟩
  have hp : p.val < 5000 := p.isLt
  show k2_pay1 (F := Ideal) (iblk2 V c 0 t) (iblk2 V c 1 t) (iblk2 V c 2 t) (iblk2 V c 3 t) (iblk2 V c 4 t) (ix2 p j)
    = kMM (V c main_v64) (V c main_v49) (V c main_arg8) (V c main_arg9) (V c main_v65)
        (((cfg2.win 5).blk t).view.emb (ix2 p j))
  -- the result tile's entry (p, j) is the array's entry (5000 t + p, j)
  have hout : ((cfg2.win 5).blk t).view.emb (ix2 p j) = ix2 (⟨t.val * 5000 + p.val, by omega⟩ : Fin 50000) j := by
    funext ax; apply Fin.ext
    match ax with
    | ⟨0, _⟩ => show win2_5.index t (0 : Fin 2) * 5000 + 1 * p.val = t.val * 5000 + p.val; omega
    | ⟨1, _⟩ => show win2_5.index t (1 : Fin 2) * 128 + 1 * j.val = j.val; omega
  rw [hout]
  refine tile_entry2 (V c main_v64) (V c main_v49) (V c main_arg8) (V c main_arg9) (V c main_v65)
    (iblk2 V c 0 t) (iblk2 V c 1 t) (iblk2 V c 2 t) (iblk2 V c 3 t) (iblk2 V c 4 t)
    ⟨t.val * 5000 + p.val, by omega⟩ p j ?_ ?_ ?_ ?_ ?_
  · -- row p of the aggregated tile is row 5000 t + p of its array
    intro k
    show V c main_v64 (((cfg2.win 0).blk t).view.emb (ix2 p k)) = _
    have h : ((cfg2.win 0).blk t).view.emb (ix2 p k) = ix2 (⟨t.val * 5000 + p.val, by omega⟩ : Fin 50000) k := by
      funext ax; apply Fin.ext
      match ax with
      | ⟨0, _⟩ => show win2_0.index t (0 : Fin 2) * 5000 + 1 * p.val = t.val * 5000 + p.val; omega
      | ⟨1, _⟩ => show win2_0.index t (1 : Fin 2) * 128 + 1 * k.val = k.val; omega
    rw [h]
  · -- and likewise of the tile of first-layer activations
    intro k
    show V c main_v49 (((cfg2.win 1).blk t).view.emb (ix2 p k)) = _
    have h : ((cfg2.win 1).blk t).view.emb (ix2 p k) = ix2 (⟨t.val * 5000 + p.val, by omega⟩ : Fin 50000) k := by
      funext ax; apply Fin.ext
      match ax with
      | ⟨0, _⟩ => show win2_1.index t (0 : Fin 2) * 5000 + 1 * p.val = t.val * 5000 + p.val; omega
      | ⟨1, _⟩ => show win2_1.index t (1 : Fin 2) * 128 + 1 * k.val = k.val; omega
    rw [h]
  · -- the neighbour weights' block is the whole matrix
    funext z
    show V c main_arg8 (((cfg2.win 2).blk t).view.emb z) = V c main_arg8 z
    have h : ((cfg2.win 2).blk t).view.emb z = z := by
      funext ax; apply Fin.ext
      match ax with
      | ⟨0, _⟩ => show win2_2.index t (0 : Fin 2) * 128 + 1 * (z 0).val = (z 0).val; omega
      | ⟨1, _⟩ => show win2_2.index t (1 : Fin 2) * 128 + 1 * (z 1).val = (z 1).val; omega
    rw [h]
  · -- the root weights' block is the whole matrix
    funext z
    show V c main_arg9 (((cfg2.win 3).blk t).view.emb z) = V c main_arg9 z
    have h : ((cfg2.win 3).blk t).view.emb z = z := by
      funext ax; apply Fin.ext
      match ax with
      | ⟨0, _⟩ => show win2_3.index t (0 : Fin 2) * 128 + 1 * (z 0).val = (z 0).val; omega
      | ⟨1, _⟩ => show win2_3.index t (1 : Fin 2) * 128 + 1 * (z 1).val = (z 1).val; omega
    rw [h]
  · -- the bias block is the whole row
    funext z
    show V c main_v65 (((cfg2.win 4).blk t).view.emb z) = V c main_v65 z
    have h : ((cfg2.win 4).blk t).view.emb z = z := by
      funext ax; apply Fin.ext
      match ax with
      | ⟨0, _⟩ => show win2_4.index t (0 : Fin 2) * 1 + 1 * (z 0).val = (z 0).val; omega
      | ⟨1, _⟩ => show win2_4.index t (1 : Fin 2) * 128 + 1 * (z 1).val = (z 1).val; omega
    rw [h]

/-- An entry of the result array lies in point t's block exactly when, on each axis, its coordinate
    is in the block's range there. -/
theorem mem_resultBlock2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v66).slice (win2_5.rect t)).set ↔ _
  rw [View.set_slice_whole, Rect.mem_set_unit]
  exact Iff.rfl

/-- Every entry of the result is written back by some point: row r by point r / 5000. -/
theorem rows_covered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have hlt : (i 0).val / 5000 < grid2.N := by omega
  obtain ⟨-, -, -, -, -, -, -, -, -, -, e50, e51⟩ := blockIndices2 ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_resultBlock2]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    omega

/-- The result array after the run: the affine stage of the five arrays as the region finds them. -/
theorem final2 (c : Dev nD) :
    (dat2 (F := Ideal) V c).arrAt 5 cfg2.N
      = kMM (V c main_v64) (V c main_v49) (V c main_arg8) (V c main_arg9) (V c main_v65) :=
  (dat2 (F := Ideal) V c).arrAt_eq_of_cover 5 _ (fun t _ => flushed2_eq V c t) rows_covered2

end Cert.KernelIdeal.Hand

end
-- ==== Proof.Hand.Val.Final3.lean ====
import proofs.«429563_j84585085928054_2_alg».proof.Proof.Hand.KI.Region3
import proofs.«429563_j84585085928054_2_alg».proof.Proof.Hand.Stage.BN
import Idealize.ShloMosaic.Lib.Pipeline.Value
import Idealize.ShloMosaic.Lib.ValueIdx
import Idealize.ShloMosaic.Lib.Tactic

/-! # The normalise-and-rectify call number 3: its output array after the run, as one function of its inputs

Tile `t` of the call writes back rows `5000 t … 5000 t + 4999` of the output, each element
`max ((pre (r, j) − mean (0, j)) · invstd (0, j) + beta (0, j)) 0` of the arrays as the call found them. The ten
tiles' row ranges fill the 50000 rows, so the whole output array ends at that formula, index by index. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The zero offsets of a whole-buffer access, as a constant function. -/
theorem zeroOffsets3 : (![0, 0] : Fin 2 → Nat) = fun _ => 0 := funext fun a => by fin_cases a <;> rfl

/-! ## One element, one tile -/

/-- One element of the result: `max ((x − μ) · s + β) 0`. -/
def bnReluElt3 (x mu sd be : F .f32) : F .f32 :=
  FloatOps.maximumf (FloatOps.addf (FloatOps.mulf (FloatOps.subf x mu) sd) be) (Scalar.ofBits .f32 0x00000000#32)

/-- The whole array the call leaves: at row `r`, column `j`, the element formula of `pre (r, j)` and column `j` of
    the three rows. -/
def bnReluArr3 (pre : S50000x128.Idx → Elt F .f32) (mean invstd beta : S1x128.Idx → Elt F .f32) : S50000x128.Idx → Elt F .f32 :=
  fun i => bnReluElt3 (pre i) (mean (ix2 (0 : Fin 1) (i 1))) (invstd (ix2 (0 : Fin 1) (i 1))) (beta (ix2 (0 : Fin 1) (i 1)))

/-- A row broadcast down a tile, read at `j`, is the row at `j`'s column. -/
theorem rowDownTile3_apply (v : Vec F S1x128 .f32) (j : S5000x128.Idx) :
    broadcastTo S5000x128 v broadcasts_S1x128_S5000x128 j = v (ix2 (0 : Fin 1) (j 1)) :=
  broadcastTo_apply v broadcasts_S1x128_S5000x128 j (ix2 (0 : Fin 1) (j 1)) fun a => by
    match a with
    | ⟨0, _⟩ => rfl
    | ⟨1, _⟩ => rfl

/-- The body's payload at an element of the tile: the element formula of the tile's element and the rows' column. The
    shape casts are to the same shape, the three rows are broadcast down the tile, the zero is splat. -/
theorem pay3_at (x0 : Vec F S5000x128 .f32) (mu sd be : Vec F S1x128 .f32) (j : S5000x128.Idx) :
    k3_pay1 x0 mu sd be j
      = bnReluElt3 (x0 j) (mu (ix2 (0 : Fin 1) (j 1))) (sd (ix2 (0 : Fin 1) (j 1))) (be (ix2 (0 : Fin 1) (j 1))) := by
  unfold k3_pay1 bnReluElt3
  simp only [shapeCast_self]
  show FloatOps.maximumf (FloatOps.addf (FloatOps.mulf (FloatOps.subf (x0 j)
      (broadcastTo S5000x128 mu broadcasts_S1x128_S5000x128 j)) (broadcastTo S5000x128 sd broadcasts_S1x128_S5000x128 j))
      (broadcastTo S5000x128 be broadcasts_S1x128_S5000x128 j)) (Scalar.ofBits .f32 0x00000000#32) = _
  rw [rowDownTile3_apply, rowDownTile3_apply, rowDownTile3_apply]

/-! ## Where each window's block sits in its array -/

/-- The printed index maps, decided over the ten tiles: the pre-activation and output windows are at block row `t`,
    column block 0; the three row windows stay at block (0, 0). -/
theorem tileIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The pre-activation window's block at tile `t` is rows `5000 t … 5000 t + 4999` of its array. -/
theorem iblk3_pre_apply (V : (c : Dev nD) → (b : Ref sig .tc) → Buf (Elt F) ((c : Thread nD τ).loc b)) (c : Dev nD) (t : Fin cfg3.N)
    (x : S5000x128.Idx) (k : S50000x128.Idx) (hk0 : (k 0).val = 5000 * t.val + (x 0).val) (hk1 : (k 1).val = (x 1).val) :
    (iblk3 V c 0 t : Vec F S5000x128 .f32) x = (V c main_v66 : S50000x128.Idx → Elt F .f32) k := by
  obtain ⟨e00, e01, e10, e11, e20, e21, e30, e31, e40, e41⟩ := tileIndex3 t
  unfold iblk3
  rw [View.read_apply]
  show V c main_v66 _ = V c main_v66 _
  congr 1
  funext a
  apply Fin.ext
  match a with
  | ⟨0, _⟩ => show win3_0.index t 0 * 5000 + 1 * (x 0).val = (k 0).val; rw [e00, hk0]; omega
  | ⟨1, _⟩ => show win3_0.index t 1 * 128 + 1 * (x 1).val = (k 1).val; rw [e01, hk1]; omega

/-- The mean window's block at any tile is the whole row of its array. -/
theorem iblk3_mean_apply (V : (c : Dev nD) → (b : Ref sig .tc) → Buf (Elt F) ((c : Thread nD τ).loc b)) (c : Dev nD) (t : Fin cfg3.N)
    (x k : S1x128.Idx) (hk : (k 1).val = (x 1).val) :
    (iblk3 V c 1 t : Vec F S1x128 .f32) x = (V c main_v70 : S1x128.Idx → Elt F .f32) k := by
  obtain ⟨e00, e01, e10, e11, e20, e21, e30, e31, e40, e41⟩ := tileIndex3 t
  unfold iblk3
  rw [View.read_apply]
  show V c main_v70 _ = V c main_v70 _
  congr 1
  funext a
  apply Fin.ext
  have hx : (x 0).val < 1 := (x 0).isLt
  have hkk : (k 0).val < 1 := (k 0).isLt
  match a with
  | ⟨0, _⟩ => show win3_1.index t 0 * 1 + 1 * (x 0).val = (k 0).val; rw [e10]; omega
  | ⟨1, _⟩ => show win3_1.index t 1 * 128 + 1 * (x 1).val = (k 1).val; rw [e11, hk]; omega

/-- The reciprocal-standard-deviation window's block at any tile is the whole row of its array. -/
theorem iblk3_invstd_apply (V : (c : Dev nD) → (b : Ref sig .tc) → Buf (Elt F) ((c : Thread nD τ).loc b)) (c : Dev nD) (t : Fin cfg3.N)
    (x k : S1x128.Idx) (hk : (k 1).val = (x 1).val) :
    (iblk3 V c 2 t : Vec F S1x128 .f32) x = (V c main_v84 : S1x128.Idx → Elt F .f32) k := by
  obtain ⟨e00, e01, e10, e11, e20, e21, e30, e31, e40, e41⟩ := tileIndex3 t
  unfold iblk3
  rw [View.read_apply]
  show V c main_v84 _ = V c main_v84 _
  congr 1
  funext a
  apply Fin.ext
  have hx : (x 0).val < 1 := (x 0).isLt
  have hkk : (k 0).val < 1 := (k 0).isLt
  match a with
  | ⟨0, _⟩ => show win3_2.index t 0 * 1 + 1 * (x 0).val = (k 0).val; rw [e20]; omega
  | ⟨1, _⟩ => show win3_2.index t 1 * 128 + 1 * (x 1).val = (k 1).val; rw [e21, hk]; omega

/-- The shift window's block at any tile is the whole row of its array. -/
theorem iblk3_beta_apply (V : (c : Dev nD) → (b : Ref sig .tc) → Buf (Elt F) ((c : Thread nD τ).loc b)) (c : Dev nD) (t : Fin cfg3.N)
    (x k : S1x128.Idx) (hk : (k 1).val = (x 1).val) :
    (iblk3 V c 3 t : Vec F S1x128 .f32) x = (V c main_v85 : S1x128.Idx → Elt F .f32) k := by
  obtain ⟨e00, e01, e10, e11, e20, e21, e30, e31, e40, e41⟩ := tileIndex3 t
  unfold iblk3
  rw [View.read_apply]
  show V c main_v85 _ = V c main_v85 _
  congr 1
  funext a
  apply Fin.ext
  have hx : (x 0).val < 1 := (x 0).isLt
  have hkk : (k 0).val < 1 := (k 0).isLt
  match a with
  | ⟨0, _⟩ => show win3_3.index t 0 * 1 + 1 * (x 0).val = (k 0).val; rw [e30]; omega
  | ⟨1, _⟩ => show win3_3.index t 1 * 128 + 1 * (x 1).val = (k 1).val; rw [e31, hk]; omega

/-! ## What a tile writes back -/

/-- WHAT TILE `t` WRITES BACK is block `t` of the whole-array formula of the arrays as the call finds them: the
    output buffer holds the payload of the four input blocks; the pre-activation block and the output block sit at
    the same rows of their arrays, and every row window shows its whole row. -/
theorem flushed3_eq (V : (c : Dev nD) → (b : Ref sig .tc) → Buf (Elt F) ((c : Thread nD τ).loc b)) (c : Dev nD) (t : Fin cfg3.N) :
    (dat3 V c).flushed 4 t
      = ((cfg3.win 4).blk t).view.read (Elt F) (bnReluArr3 (V c main_v66) (V c main_v70) (V c main_v84) (V c main_v85)) := by
  show (cfg3.win 4).cut (grid3.coords t) ((dat3 V c).after 4 t) = _
  rw [after3_4]
  unfold out3
  rw [View.canon_unit_zero zeroOffsets3]
  simp only [View.ld_unit_zero (S := S5000x128) zeroOffsets3, View.ld_unit_zero (S := S1x128) zeroOffsets3]
  obtain ⟨e00, e01, e10, e11, e20, e21, e30, e31, e40, e41⟩ := tileIndex3 t
  funext j
  refine (pay3_at _ _ _ _ j).trans ?_
  show _ = bnReluElt3 (V c main_v66 (((cfg3.win 4).blk t).view.emb j)) (V c main_v70 (ix2 (0 : Fin 1) ((((cfg3.win 4).blk t).view.emb j) 1)))
      (V c main_v84 (ix2 (0 : Fin 1) ((((cfg3.win 4).blk t).view.emb j) 1))) (V c main_v85 (ix2 (0 : Fin 1) ((((cfg3.win 4).blk t).view.emb j) 1)))
  have hrow : ((((cfg3.win 4).blk t).view.emb j) 0).val = 5000 * t.val + (j 0).val := by
    show win3_4.index t 0 * 5000 + 1 * (j 0).val = _; rw [e40]; omega
  have hcol : ((((cfg3.win 4).blk t).view.emb j) 1).val = (j 1).val := by
    show win3_4.index t 1 * 128 + 1 * (j 1).val = _; rw [e41]; omega
  refine congr (congr (congr (congrArg bnReluElt3 ?_) ?_) ?_) ?_
  · exact iblk3_pre_apply V c t j _ hrow hcol
  · exact iblk3_mean_apply V c t _ _ hcol
  · exact iblk3_invstd_apply V c t _ _ hcol
  · exact iblk3_beta_apply V c t _ _ hcol

/-! ## The tiles fill the array -/

/-- An index of the output array is in tile `t`'s block iff each coordinate is in the block's range on its axis. -/
theorem mem_tile3 (t : Fin cfg3.N) (i : S50000x128.Idx) :
    i ∈ ((cfg3.win 4).blk t).view.set
      ↔ ∀ a : Fin 2, win3_4.index t a * S5000x128.size a ≤ (i a).val ∧ (i a).val < win3_4.index t a * S5000x128.size a + S5000x128.size a := by
  show i ∈ ((View.whole main_v86).slice (win3_4.rect t)).set ↔ _
  rw [View.set_slice_whole, Rect.mem_set_unit]
  exact Iff.rfl

/-- Row `r` of the output is in the block of tile `r / 5000`, which is written back like every tile's. -/
theorem tiles3_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have ht : t.val = (i 0).val / 5000 := rfl
  obtain ⟨e00, e01, e10, e11, e20, e21, e30, e31, e40, e41⟩ := tileIndex3 t
  refine ⟨t, flush3_4 t, ?_⟩
  rw [mem_tile3]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 128 ≤ (i 1).val ∧ (i 1).val < win3_4.index t (1 : Fin 2) * 128 + 128
    rw [e41]; omega

/-! ## The output array after the run -/

/-- The output array after the call's ten write-backs is the whole-array formula of the arrays as the call found them:
    every tile writes its block of it, and the tiles' blocks fill the array. -/
theorem final3_formula (V : (c : Dev nD) → (b : Ref sig .tc) → Buf (Elt F) ((c : Thread nD τ).loc b)) (c : Dev nD) :
    (dat3 V c).arrAt 4 cfg3.N = bnReluArr3 (V c main_v66) (V c main_v70) (V c main_v84) (V c main_v85) :=
  (dat3 V c).arrAt_eq_of_cover 4 (bnReluArr3 (V c main_v66) (V c main_v70) (V c main_v84) (V c main_v85))
    (fun t _ => flushed3_eq V c t) tiles3_cover

/-- The same, with the formula under the name the value bridge uses: the two are one term, element by element. -/
theorem final3 (V : (c : Dev nD) → (b : Ref sig .tc) → Buf (Elt Ideal) ((c : Thread nD τ).loc b)) (c : Dev nD) :
    (dat3 (F := Ideal) V c).arrAt 4 cfg3.N
      = Cert.Proof.Hand.Stage.kBNR (V c main_v66) (V c main_v70) (V c main_v84) (V c main_v85) :=
  (final3_formula (F := Ideal) V c).trans (funext fun i => rfl)

end Cert.KernelIdeal.Hand

end
-- ==== Proof.Hand.Val.Scratch4.lean ====
import proofs.«429563_j84585085928054_2_alg».proof.Proof.Gen.KernelIdeal.Launch
import proofs.«429563_j84585085928054_2_alg».proof.Proof.Gen.KernelIdeal.Skeleton
import proofs.«429563_j84585085928054_2_alg».proof.Proof.Gen.KernelIdeal.Points
import proofs.«429563_j84585085928054_2_alg».proof.Proof.Hand.Stage.Pool
import Idealize.ShloMosaic.Lib.Pipeline.Value
import Idealize.ShloMosaic.Lib.ValueIdx

/-! # The pooling accumulator in closed form

The accumulator starts at zero and every grid point adds, at (g, k), the sum over its 2000 nodes of
[node p is in graph g] * feature k of node p. So after point n it holds the sum of those tile sums over
the points 0..n, and after the last of the 25 points the sum over all 50000 nodes, because the tiles
are consecutive runs of 2000 rows. The last point's output is then the pooled, scaled, projected and
squashed value of the whole arrays.

This file proves that over an abstract sequence obeying the accumulator's two equations, and reads each
window's block off its array; the pipeline's own sequence is plugged in elsewhere. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Hand.Stage (onehot kPool kPool_apply pay4_1_apply pay4_2_apply pay4_3_apply sum_tiles)

/-! ## The accumulator after point n: a sum of tile sums -/

/-- A sequence that starts at the zero accumulator plus the first tile's product and then adds each
    next tile's product holds, after point n, the tile products of points 0..n added up. By induction:
    zero is the additive identity, and the sum over 0..n+1 is the sum over 0..n plus the last term. -/
theorem scratch_partial4 (feat : ℕ → Vec Ideal S2000x128 .f32) (ids : ℕ → Vec Ideal S2000x1 .i32)
    (s : ℕ → Vec Ideal S512x128 .f32)
    (h0 : s 0 = k4_pay2 (F := Ideal) (feat 0) (ids 0) (k4_pay1 (F := Ideal)))
    (hs : ∀ n, n + 1 < 25 → s (n + 1) = k4_pay2 (F := Ideal) (feat (n + 1)) (ids (n + 1)) (s n))
    (g : Fin 512) (k : Fin 128) :
    ∀ n, n < 25 → s n (ix2 g k)
      = ∑ t ∈ Finset.range (n + 1), ∑ p : Fin 2000, onehot (ids t (ix2 p (0 : Fin 1))) g * feat t (ix2 p k)
  | 0, _ => by
    rw [h0, pay4_2_apply, pay4_1_apply, zero_add, Finset.sum_range_one]
  | n + 1, hn => by
    rw [hs n hn, pay4_2_apply, scratch_partial4 feat ids s h0 hs g k n (by omega), Finset.sum_range_succ _ (n + 1)]

/-- When tile t of the features and of the graph ids is rows 2000 t .. 2000 t + 1999 of whole arrays H
    and B2, the accumulator after the last point is the sum over all 50000 nodes: the 25 tile sums are
    the whole sum cut into consecutive runs. -/
theorem scratch_total4 (H : (⟨S50000x128, .f32⟩ : BufTy).Contents (Elt Ideal))
    (B2 : (⟨S50000x1, .i32⟩ : BufTy).Contents (Elt Ideal))
    (feat : ℕ → Vec Ideal S2000x128 .f32) (ids : ℕ → Vec Ideal S2000x1 .i32) (s : ℕ → Vec Ideal S512x128 .f32)
    (h0 : s 0 = k4_pay2 (F := Ideal) (feat 0) (ids 0) (k4_pay1 (F := Ideal)))
    (hs : ∀ n, n + 1 < 25 → s (n + 1) = k4_pay2 (F := Ideal) (feat (n + 1)) (ids (n + 1)) (s n))
    (hfeat : ∀ (t : Fin 25) (p : Fin 2000) (k : Fin 128),
      feat t.val (ix2 p k) = H (ix2 (⟨2000 * t.val + p.val, by have := t.isLt; have := p.isLt; omega⟩ : Fin 50000) k))
    (hids : ∀ (t : Fin 25) (p : Fin 2000),
      ids t.val (ix2 p (0 : Fin 1)) = B2 (ix2 (⟨2000 * t.val + p.val, by have := t.isLt; have := p.isLt; omega⟩ : Fin 50000) (0 : Fin 1)))
    (g : Fin 512) (k : Fin 128) :
    s 24 (ix2 g k) = ∑ n : Fin 50000, onehot (B2 (ix2 n (0 : Fin 1))) g * H (ix2 n k) := by
  rw [scratch_partial4 feat ids s h0 hs g k 24 (by omega),
    Finset.sum_range (fun t => ∑ p : Fin 2000, onehot (ids t (ix2 p (0 : Fin 1))) g * feat t (ix2 p k)),
    ← sum_tiles (fun n => onehot (B2 (ix2 n (0 : Fin 1))) g * H (ix2 n k))]
  refine Finset.sum_congr rfl fun t _ => Finset.sum_congr rfl fun p _ => ?_
  rw [hfeat, hids]

/-- The last point's output at (g, j), from an accumulator that holds the whole-array sums: exactly the
    pooled output of the whole arrays there. Both sides are the logistic of the same sum over the 128
    features plus the bias entry. -/
theorem pooled_entry4 (H : (⟨S50000x128, .f32⟩ : BufTy).Contents (Elt Ideal))
    (B2 : (⟨S50000x1, .i32⟩ : BufTy).Contents (Elt Ideal))
    (inv : (⟨S512x1, .f32⟩ : BufTy).Contents (Elt Ideal)) (wlin : (⟨S128x2, .f32⟩ : BufTy).Contents (Elt Ideal))
    (blin : (⟨S1x2, .f32⟩ : BufTy).Contents (Elt Ideal))
    (acc : Vec Ideal S512x128 .f32)
    (hacc : ∀ (g : Fin 512) (k : Fin 128), acc (ix2 g k) = ∑ n : Fin 50000, onehot (B2 (ix2 n (0 : Fin 1))) g * H (ix2 n k))
    (g : Fin 512) (j : Fin 2) :
    k4_pay3 (F := Ideal) acc inv wlin blin (ix2 g j) = kPool H B2 inv wlin blin (ix2 g j) := by
  rw [pay4_3_apply, kPool_apply]
  simp only [hacc]

/-! ## Each window's block, read off its array -/

/-- Every access of the body starts at the origin of its buffer. -/
theorem origin4 : (![0, 0] : Fin 2 → Nat) = fun _ => 0 :=
  funext fun a => match a with | ⟨0, _⟩ => rfl | ⟨1, _⟩ => rfl

/-- The block index of each window at each grid point, decided over the 25 points: the feature and id
    tiles sit at row block t; the inverse counts, the linear layer, its bias and the output at block (0, 0). -/
theorem blockIndices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- Row p of point t's feature tile is row 2000 t + p of the feature array. -/
theorem featRows4 (c : Dev nD) (t : Fin cfg4.N) (p : Fin 2000) (k : Fin 128) (r : Fin 50000)
    (hr : r.val = 2000 * t.val + p.val) :
    ((cfg4.win 0).blk t).view.read (Elt Ideal) (V c (Pipeline.arrRef spec4 0)) (ix2 p k) = V c main_v86 (ix2 r k) := by
  obtain ⟨e00, e01, -⟩ := blockIndices4 t
  show V c main_v86 (((cfg4.win 0).blk t).view.emb (ix2 p k)) = _
  have h : ((cfg4.win 0).blk t).view.emb (ix2 p k) = ix2 r k := by
    funext ax; apply Fin.ext
    match ax with
    | ⟨0, _⟩ => show win4_0.index t (0 : Fin 2) * 2000 + 1 * p.val = r.val; omega
    | ⟨1, _⟩ => show win4_0.index t (1 : Fin 2) * 128 + 1 * k.val = k.val; omega
  rw [h]

/-- Row p of point t's graph-id tile is row 2000 t + p of the graph-id column. -/
theorem idRows4 (c : Dev nD) (t : Fin cfg4.N) (p : Fin 2000) (r : Fin 50000)
    (hr : r.val = 2000 * t.val + p.val) :
    ((cfg4.win 1).blk t).view.read (Elt Ideal) (V c (Pipeline.arrRef spec4 1)) (ix2 p (0 : Fin 1))
      = V c main_v4 (ix2 r (0 : Fin 1)) := by
  obtain ⟨-, -, e10, e11, -⟩ := blockIndices4 t
  show V c main_v4 (((cfg4.win 1).blk t).view.emb (ix2 p (0 : Fin 1))) = _
  have h : ((cfg4.win 1).blk t).view.emb (ix2 p (0 : Fin 1)) = ix2 r (0 : Fin 1) := by
    funext ax; apply Fin.ext
    match ax with
    | ⟨0, _⟩ => show win4_1.index t (0 : Fin 2) * 2000 + 1 * p.val = r.val; omega
    | ⟨1, _⟩ => show win4_1.index t (1 : Fin 2) * 1 + 1 * 0 = 0; omega
  rw [h]

/-- The inverse counts' block is the whole column, -/
theorem invWhole4 (c : Dev nD) (t : Fin cfg4.N) :
    ((cfg4.win 2).blk t).view.read (Elt Ideal) (V c (Pipeline.arrRef spec4 2)) = V c main_v95 := by
  obtain ⟨-, -, -, -, e20, e21, -⟩ := blockIndices4 t
  funext z
  show V c main_v95 (((cfg4.win 2).blk t).view.emb z) = V c main_v95 z
  have h : ((cfg4.win 2).blk t).view.emb z = z := by
    funext ax; apply Fin.ext
    match ax with
    | ⟨0, _⟩ => show win4_2.index t (0 : Fin 2) * 512 + 1 * (z 0).val = (z 0).val; omega
    | ⟨1, _⟩ => show win4_2.index t (1 : Fin 2) * 1 + 1 * (z 1).val = (z 1).val; omega
  rw [h]

/-- the linear layer's block the whole matrix, -/
theorem linWhole4 (c : Dev nD) (t : Fin cfg4.N) :
    ((cfg4.win 3).blk t).view.read (Elt Ideal) (V c (Pipeline.arrRef spec4 3)) = V c main_arg13 := by
  obtain ⟨-, -, -, -, -, -, e30, e31, -⟩ := blockIndices4 t
  funext z
  show V c main_arg13 (((cfg4.win 3).blk t).view.emb z) = V c main_arg13 z
  have h : ((cfg4.win 3).blk t).view.emb z = z := by
    funext ax; apply Fin.ext
    match ax with
    | ⟨0, _⟩ => show win4_3.index t (0 : Fin 2) * 128 + 1 * (z 0).val = (z 0).val; omega
    | ⟨1, _⟩ => show win4_3.index t (1 : Fin 2) * 2 + 1 * (z 1).val = (z 1).val; omega
  rw [h]

/-- and its bias' block the whole row. -/
theorem biasWhole4 (c : Dev nD) (t : Fin cfg4.N) :
    ((cfg4.win 4).blk t).view.read (Elt Ideal) (V c (Pipeline.arrRef spec4 4)) = V c main_v96 := by
  obtain ⟨-, -, -, -, -, -, -, -, e40, e41, -⟩ := blockIndices4 t
  funext z
  show V c main_v96 (((cfg4.win 4).blk t).view.emb z) = V c main_v96 z
  have h : ((cfg4.win 4).blk t).view.emb z = z := by
    funext ax; apply Fin.ext
    match ax with
    | ⟨0, _⟩ => show win4_4.index t (0 : Fin 2) * 1 + 1 * (z 0).val = (z 0).val; omega
    | ⟨1, _⟩ => show win4_4.index t (1 : Fin 2) * 2 + 1 * (z 1).val = (z 1).val; omega
  rw [h]

/-! ## The output block is the whole output array -/

/-- Every entry of the output array lies in the one block the last point writes back. -/
theorem mem_outBlock4 (t : Fin cfg4.N) (i : S512x2.Idx) : i ∈ ((cfg4.win 5).blk t).view.set := by
  obtain ⟨-, -, -, -, -, -, -, -, -, -, e50, e51⟩ := blockIndices4 t
  have hi0 : (i 0).val < 512 := (i 0).isLt
  have hi1 : (i 1).val < 2 := (i 1).isLt
  show i ∈ ((View.whole main_v97).slice (win4_5.rect t)).set
  rw [View.set_slice_whole, Rect.mem_set_unit]
  intro a
  match a with
  | ⟨0, _⟩ =>
    show win4_5.index t (0 : Fin 2) * 512 ≤ (i 0).val ∧ (i 0).val < win4_5.index t (0 : Fin 2) * 512 + 512
    omega
  | ⟨1, _⟩ =>
    show win4_5.index t (1 : Fin 2) * 2 ≤ (i 1).val ∧ (i 1).val < win4_5.index t (1 : Fin 2) * 2 + 2
    omega

/-- The entry (g, j) of the output block at any point is the entry (g, j) of the array. -/
theorem outEmb4 (t : Fin cfg4.N) (g : Fin 512) (j : Fin 2) :
    ((cfg4.win 5).blk t).view.emb (ix2 g j) = ix2 g j := by
  obtain ⟨-, -, -, -, -, -, -, -, -, -, e50, e51⟩ := blockIndices4 t
  funext ax; apply Fin.ext
  match ax with
  | ⟨0, _⟩ => show win4_5.index t (0 : Fin 2) * 512 + 1 * g.val = g.val; omega
  | ⟨1, _⟩ => show win4_5.index t (1 : Fin 2) * 2 + 1 * j.val = j.val; omega

end Cert.KernelIdeal.Hand

end
-- ==== Proof.Hand.Val.Final4.lean ====
import proofs.«429563_j84585085928054_2_alg».proof.Proof.Hand.KI.Region4
import proofs.«429563_j84585085928054_2_alg».proof.Proof.Hand.Val.Scratch4

/-! # The pooling region's result array, whole

The output window's one block is the whole 512x2 array and only the last grid point writes it back. What
that point stores is the last payload of the accumulator after all 25 points and of the inverse counts,
the linear layer and its bias, whose blocks are those arrays entire. The accumulator after the last point
is the whole-array sum (the closed form of the accumulator's recursion, with each tile read as its rows
of the feature and graph-id arrays), so the stored block is the pooled output of the arrays as the region
finds them, and so is the array after the run. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.Hand.Stage (onehot kPool)

variable (V : (c : Dev nD) → (b : Ref sig .tc) → Buf (Elt Ideal) ((c : Thread nD τ).loc b))

/-! ## The pipeline's tiles and accumulator as sequences over all naturals

Past the grid the sequences repeat the last point's value; only their first 25 terms are ever read. -/

def featSeq4 (c : Dev nD) (n : ℕ) : Vec Ideal S2000x128 .f32 :=
  if h : n < cfg4.N then iblk4 V c 0 ⟨n, h⟩ else iblk4 V c 0 lastPt4

def idSeq4 (c : Dev nD) (n : ℕ) : Vec Ideal S2000x1 .i32 :=
  if h : n < cfg4.N then iblk4 V c 1 ⟨n, h⟩ else iblk4 V c 1 lastPt4

def accSeq4 (c : Dev nD) (n : ℕ) : Vec Ideal S512x128 .f32 :=
  if h : n < cfg4.N then acc4 V c n h else acc4 V c 24 lastLt4

/-- The accumulator after the first point: the first tiles' product added to zero. -/
theorem accSeq4_zero (c : Dev nD) :
    accSeq4 V c 0 = k4_pay2 (F := Ideal) (featSeq4 V c 0) (idSeq4 V c 0) (k4_pay1 (F := Ideal)) := by
  have h0 : 0 < cfg4.N := by decide
  simp only [accSeq4, featSeq4, idSeq4, dif_pos h0]
  exact acc4_zero V c h0

/-- The accumulator after each later point: that point's tiles' product added to what the point before left. -/
theorem accSeq4_succ (c : Dev nD) (n : ℕ) (hn : n + 1 < 25) :
    accSeq4 V c (n + 1) = k4_pay2 (F := Ideal) (featSeq4 V c (n + 1)) (idSeq4 V c (n + 1)) (accSeq4 V c n) := by
  have h1 : n + 1 < cfg4.N := by have e : cfg4.N = 25 := N_4; rw [e]; exact hn
  have h2 : n < cfg4.N := Nat.lt_of_succ_lt h1
  simp only [accSeq4, featSeq4, idSeq4, dif_pos h1, dif_pos h2]
  exact acc4_succ V c n h1

/-- The accumulator after the last point, at (g, k): the sum over all 50000 nodes of the node's membership
    in graph g times its feature k, read off the graph-id column and the feature array. -/
theorem acc4_total (c : Dev nD) (g : Fin 512) (k : Fin 128) :
    acc4 V c 24 lastLt4 (ix2 g k)
      = ∑ n : Fin 50000, onehot (V c main_v4 (ix2 n (0 : Fin 1))) g * V c main_v86 (ix2 n k) := by
  have e : acc4 V c 24 lastLt4 = accSeq4 V c 24 := by
    simp only [accSeq4, dif_pos lastLt4]
  rw [e]
  refine scratch_total4 (V c main_v86) (V c main_v4) (featSeq4 V c) (idSeq4 V c) (accSeq4 V c)
    (accSeq4_zero V c) (accSeq4_succ V c) ?_ ?_ g k
  · intro t p k'
    have ht : t.val < cfg4.N := by have e : cfg4.N = 25 := N_4; rw [e]; exact t.isLt
    simp only [featSeq4, dif_pos ht]
    exact featRows4 V c ⟨t.val, ht⟩ p k' _ rfl
  · intro t p
    have ht : t.val < cfg4.N := by have e : cfg4.N = 25 := N_4; rw [e]; exact t.isLt
    simp only [idSeq4, dif_pos ht]
    exact idRows4 V c ⟨t.val, ht⟩ p _ rfl

/-- The last point's output at (g, j), with the three resident inputs given up to equality. -/
theorem pooled_entry4_of (H : (⟨S50000x128, .f32⟩ : BufTy).Contents (Elt Ideal))
    (B2 : (⟨S50000x1, .i32⟩ : BufTy).Contents (Elt Ideal))
    (inv : (⟨S512x1, .f32⟩ : BufTy).Contents (Elt Ideal)) (wlin : (⟨S128x2, .f32⟩ : BufTy).Contents (Elt Ideal))
    (blin : (⟨S1x2, .f32⟩ : BufTy).Contents (Elt Ideal))
    (acc : Vec Ideal S512x128 .f32) (x2 : Vec Ideal S512x1 .f32) (x3 : Vec Ideal S128x2 .f32) (x4 : Vec Ideal S1x2 .f32)
    (hacc : ∀ (g : Fin 512) (k : Fin 128), acc (ix2 g k) = ∑ n : Fin 50000, onehot (B2 (ix2 n (0 : Fin 1))) g * H (ix2 n k))
    (h2 : x2 = inv) (h3 : x3 = wlin) (h4 : x4 = blin) (g : Fin 512) (j : Fin 2) :
    k4_pay3 (F := Ideal) acc x2 x3 x4 (ix2 g j) = kPool H B2 inv wlin blin (ix2 g j) := by
  subst h2 h3 h4
  exact pooled_entry4 H B2 x2 x3 x4 acc hacc g j

/-- The output window is not clipped: what is moved of its buffer is the buffer, whatever it holds. -/
theorem cut_out4 (t : Fin cfg4.N) (X : Vec Ideal S512x2 .f32) : (cfg4.win 5).cut (grid4.coords t) X = X := rfl

/-- The output window's block is the whole array: read through it, any array gives its own entries. -/
theorem read_outBlock4 (t : Fin cfg4.N) (G : (⟨S512x2, .f32⟩ : BufTy).Contents (Elt Ideal)) (g : Fin 512) (j : Fin 2) :
    ((cfg4.win 5).blk t).view.read (Elt Ideal) G (ix2 g j) = G (ix2 g j) := by
  show G (((cfg4.win 5).blk t).view.emb (ix2 g j)) = _
  rw [outEmb4 t g j]

/-- What a point writes back of the output window is the pooled output of the arrays as the region finds
    them, read through the window's one block. -/
theorem flushed4_eq (c : Dev nD) (t : Fin cfg4.N) :
    (dat4 (F := Ideal) V c).flushed 5 t
      = ((cfg4.win 5).blk t).view.read (Elt Ideal)
          (kPool (V c main_v86) (V c main_v4) (V c main_v95) (V c main_arg13) (V c main_v96)) := by
  show (cfg4.win 5).cut (grid4.coords t) ((dat4 V c).after 5 t) = _
  rw [after4_5, cut_out4]
  funext y
  obtain ⟨g, j, rfl⟩ : ∃ (g : Fin 512) (j : Fin 2), y = ix2 g j := ⟨y 0, y 1, eq_ix2 y⟩
  rw [read_outBlock4 t _ g j]
  unfold out4
  exact pooled_entry4_of (V c main_v86) (V c main_v4) (V c main_v95) (V c main_arg13) (V c main_v96)
    (acc4 V c 24 lastLt4) (iblk4 V c 2 lastPt4) (iblk4 V c 3 lastPt4) (iblk4 V c 4 lastPt4)
    (acc4_total V c) (invWhole4 V c lastPt4) (linWhole4 V c lastPt4) (biasWhole4 V c lastPt4) g j

/-- The output array after the run: the pooled output of the arrays as the region finds them. The last
    point's block covers every entry. -/
theorem final4 (c : Dev nD) :
    (dat4 (F := Ideal) V c).arrAt 5 cfg4.N
      = kPool (V c main_v86) (V c main_v4) (V c main_v95) (V c main_arg13) (V c main_v96) :=
  (dat4 (F := Ideal) V c).arrAt_eq_of_cover 5 _ (fun t _ => flushed4_eq V c t)
    (fun i => ⟨lastPt4, (flush4_5 lastPt4).mpr rfl, mem_outBlock4 lastPt4 i⟩)

end Cert.KernelIdeal.Hand

end
-- ==== Proof.Hand.Val.ChainR.lean ====
/-
  The reference program is one straight line of host operations, and its result is the composition of four kinds of
  stage applied twice and once: the neighbour aggregate, the two matrix products with the bias, the batch
  normalisation with the ReLU (each of these for both layers), and the pooled linear layer with the sigmoid. Here
  the operations' composed term is folded into that composition, one stage at a time: each equation is the
  unfolding of the definitions on both sides.
-/
import proofs.«429563_j84585085928054_2_alg».proof.Proof.Gen.ReferenceIdeal.Read
import proofs.«429563_j84585085928054_2_alg».proof.Proof.Hand.Stage.Agg
import proofs.«429563_j84585085928054_2_alg».proof.Proof.Hand.Stage.MM
import proofs.«429563_j84585085928054_2_alg».proof.Proof.Hand.Stage.BN
import proofs.«429563_j84585085928054_2_alg».proof.Proof.Hand.Stage.Pool

noncomputable section

namespace Cert.Proof.Hand

open Idealize.ShloMosaic Idealize.SL.Sem
open Cert.ReferenceIdeal Cert.ReferenceIdeal.Read Cert.Proof.Hand.Stage

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x128, .f32⟩ : BufTy).Contents (Elt Ideal)) (x5 x6 x7 : (⟨S128, .f32⟩ : BufTy).Contents (Elt Ideal)) (x8 x9 : (⟨S128x128, .f32⟩ : BufTy).Contents (Elt Ideal)) (x10 x11 x12 : (⟨S128, .f32⟩ : BufTy).Contents (Elt Ideal)) (x13 : (⟨S128x2, .f32⟩ : BufTy).Contents (Elt Ideal)) (x14 : (⟨S2, .f32⟩ : BufTy).Contents (Elt Ideal))

/-- The first layer's aggregate: the mean over each node's incoming edges of the source rows of the input. -/
theorem ref_agg1 : val_main_v22 (F := Ideal) x0 x1 = rAgg x0 (rSrc x1) (rDst x1) := rfl
/-- The first layer's pre-activation. -/
theorem ref_pre1 : val_main_v28 (F := Ideal) x0 x1 x3 x4 x5 = rMM (val_main_v22 (F := Ideal) x0 x1) x0 x3 x4 x5 := rfl
/-- The first layer's output. -/
theorem ref_h1 : val_main_v52 (F := Ideal) x0 x1 x3 x4 x5 x6 x7 = rBN (val_main_v28 (F := Ideal) x0 x1 x3 x4 x5) x6 x7 := rfl
/-- The second layer's aggregate, of the first layer's output over the same edges. -/
theorem ref_agg2 : val_main_v71 (F := Ideal) x0 x1 x3 x4 x5 x6 x7
    = rAgg (val_main_v52 (F := Ideal) x0 x1 x3 x4 x5 x6 x7) (rSrc x1) (rDst x1) := rfl
/-- The second layer's pre-activation. -/
theorem ref_pre2 : val_main_v77 (F := Ideal) x0 x1 x3 x4 x5 x6 x7 x8 x9 x10
    = rMM (val_main_v71 (F := Ideal) x0 x1 x3 x4 x5 x6 x7) (val_main_v52 (F := Ideal) x0 x1 x3 x4 x5 x6 x7) x8 x9 x10 := rfl
/-- The second layer's output. -/
theorem ref_h2 : val_main_v101 (F := Ideal) x0 x1 x3 x4 x5 x6 x7 x8 x9 x10 x11 x12
    = rBN (val_main_v77 (F := Ideal) x0 x1 x3 x4 x5 x6 x7 x8 x9 x10) x11 x12 := rfl
/-- The result: the per-graph mean of the second layer's output through the linear layer and the sigmoid. -/
theorem ref_out : val_main_v123 (F := Ideal) x0 x1 x2 x3 x4 x5 x6 x7 x8 x9 x10 x11 x12 x13 x14
    = rPool (val_main_v101 (F := Ideal) x0 x1 x3 x4 x5 x6 x7 x8 x9 x10 x11 x12) x2 x13 x14 := rfl

/-- The first layer's output as the composition of its three stages. -/
def refLayer1 : (⟨S50000x128, .f32⟩ : BufTy).Contents (Elt Ideal) :=
  rBN (rMM (rAgg x0 (rSrc x1) (rDst x1)) x0 x3 x4 x5) x6 x7

/-- The reference's result as the composition of the seven stages. -/
theorem ref_result : val_main_v123 (F := Ideal) x0 x1 x2 x3 x4 x5 x6 x7 x8 x9 x10 x11 x12 x13 x14
    = rPool (rBN (rMM (rAgg (refLayer1 x0 x1 x3 x4 x5 x6 x7) (rSrc x1) (rDst x1)) (refLayer1 x0 x1 x3 x4 x5 x6 x7) x8 x9 x10) x11 x12) x2 x13 x14 := by
  rw [ref_out, ref_h2, ref_pre2, ref_agg2, ref_h1, ref_pre1, ref_agg1]
  rfl

end Cert.Proof.Hand

end
-- ==== Proof.Hand.Val.Bridge.lean ====
/-
  The whole network on both sides, as compositions of the stages. One GraphSAGE layer is the neighbour mean, the
  affine map on the mean and the node's own features, and the batch normalisation with the ReLU; the network is two
  layers over the same edge list and then the per-graph mean through the linear layer and the sigmoid. The kernel's
  program and the reference compute each stage differently, and the stage equations say each pair agrees on extended
  reals; composing them stage by stage, the kernel's network is the reference's result.
-/
import proofs.«429563_j84585085928054_2_alg».proof.Proof.Hand.Stage.Agg
import proofs.«429563_j84585085928054_2_alg».proof.Proof.Hand.Stage.MM
import proofs.«429563_j84585085928054_2_alg».proof.Proof.Hand.Stage.BN
import proofs.«429563_j84585085928054_2_alg».proof.Proof.Hand.Stage.Pool
import proofs.«429563_j84585085928054_2_alg».proof.Proof.Hand.Val.ChainR

noncomputable section

namespace Cert.Proof.Hand

open Idealize.ShloMosaic Idealize.SL.Sem
open Cert.Proof.Hand.Stage

/-! ## One layer -/

/-- One layer as the kernel's program computes it: the affine stage of the neighbour mean and the features, normalised
    with the statistics of that same affine output, shifted, and clamped below at zero. -/
def kLayer (feat : (⟨Cert.KernelIdeal.S50000x128, .f32⟩ : BufTy).Contents (Elt Ideal)) (ei : (⟨Cert.KernelIdeal.S2x800000, .i32⟩ : BufTy).Contents (Elt Ideal))
    (wl wr : (⟨Cert.KernelIdeal.S128x128, .f32⟩ : BufTy).Contents (Elt Ideal)) (b gamma beta : (⟨Cert.KernelIdeal.S128, .f32⟩ : BufTy).Contents (Elt Ideal)) :
    (⟨Cert.KernelIdeal.S50000x128, .f32⟩ : BufTy).Contents (Elt Ideal) :=
  kBNR (F := Ideal)
    (kMM (kAgg feat (kSrc ei) (kDst ei) (kInvDeg (kDst ei))) feat wl wr (kBias2 b))
    (kMean (F := Ideal) (kMM (kAgg feat (kSrc ei) (kDst ei) (kInvDeg (kDst ei))) feat wl wr (kBias2 b)))
    (kInvStd (F := Ideal) (kMM (kAgg feat (kSrc ei) (kDst ei) (kInvDeg (kDst ei))) feat wl wr (kBias2 b)) gamma)
    (kBeta2 (F := Ideal) beta)

/-- One layer as the reference computes it. -/
def rLayer (feat : (⟨Cert.ReferenceIdeal.S50000x128, .f32⟩ : BufTy).Contents (Elt Ideal)) (ei : (⟨Cert.ReferenceIdeal.S2x800000, .i32⟩ : BufTy).Contents (Elt Ideal))
    (wl wr : (⟨Cert.ReferenceIdeal.S128x128, .f32⟩ : BufTy).Contents (Elt Ideal)) (b gamma beta : (⟨Cert.ReferenceIdeal.S128, .f32⟩ : BufTy).Contents (Elt Ideal)) :
    (⟨Cert.ReferenceIdeal.S50000x128, .f32⟩ : BufTy).Contents (Elt Ideal) :=
  rBN (F := Ideal) (rMM (rAgg feat (rSrc ei) (rDst ei)) feat wl wr b) gamma beta

/-- The two layers agree: the aggregates, the edge list's rows, the affine stages and the normalisations do, in turn. -/
theorem layer_eq (feat : (⟨Cert.KernelIdeal.S50000x128, .f32⟩ : BufTy).Contents (Elt Ideal)) (ei : (⟨Cert.KernelIdeal.S2x800000, .i32⟩ : BufTy).Contents (Elt Ideal))
    (wl wr : (⟨Cert.KernelIdeal.S128x128, .f32⟩ : BufTy).Contents (Elt Ideal)) (b gamma beta : (⟨Cert.KernelIdeal.S128, .f32⟩ : BufTy).Contents (Elt Ideal)) :
    kLayer feat ei wl wr b gamma beta = rLayer feat ei wl wr b gamma beta := by
  unfold kLayer rLayer
  rw [agg_eq, src_eq, dst_eq, mm_eq, bn_eq]

/-! ## The network -/

section Network
open Cert.ReferenceIdeal

/-- The kernel's network: two layers over the same edge list, then the pooled linear layer with the sigmoid, over the
    graph column, the reciprocal graph sizes and the bias row the host prepares. -/
def kNet (x0 : (⟨S50000x128, .f32⟩ : BufTy).Contents (Elt Ideal)) (x1 : (⟨S2x800000, .i32⟩ : BufTy).Contents (Elt Ideal)) (x2 : (⟨S50000, .i32⟩ : BufTy).Contents (Elt Ideal))
    (x3 x4 : (⟨S128x128, .f32⟩ : BufTy).Contents (Elt Ideal)) (x5 x6 x7 : (⟨S128, .f32⟩ : BufTy).Contents (Elt Ideal)) (x8 x9 : (⟨S128x128, .f32⟩ : BufTy).Contents (Elt Ideal))
    (x10 x11 x12 : (⟨S128, .f32⟩ : BufTy).Contents (Elt Ideal)) (x13 : (⟨S128x2, .f32⟩ : BufTy).Contents (Elt Ideal)) (x14 : (⟨S2, .f32⟩ : BufTy).Contents (Elt Ideal)) :
    (⟨S512x2, .f32⟩ : BufTy).Contents (Elt Ideal) :=
  kPool (kLayer (kLayer x0 x1 x3 x4 x5 x6 x7) x1 x8 x9 x10 x11 x12) (kBatch2 x2) (kInvCnt x2) x13 (kBlin2 x14)

/-- The kernel's network is the reference's result: each layer by `layer_eq`, the pooling by its stage equation, and
    the reference's line of operations is that composition by unfolding. -/
theorem net_eq (x0 : (⟨S50000x128, .f32⟩ : BufTy).Contents (Elt Ideal)) (x1 : (⟨S2x800000, .i32⟩ : BufTy).Contents (Elt Ideal)) (x2 : (⟨S50000, .i32⟩ : BufTy).Contents (Elt Ideal))
    (x3 x4 : (⟨S128x128, .f32⟩ : BufTy).Contents (Elt Ideal)) (x5 x6 x7 : (⟨S128, .f32⟩ : BufTy).Contents (Elt Ideal)) (x8 x9 : (⟨S128x128, .f32⟩ : BufTy).Contents (Elt Ideal))
    (x10 x11 x12 : (⟨S128, .f32⟩ : BufTy).Contents (Elt Ideal)) (x13 : (⟨S128x2, .f32⟩ : BufTy).Contents (Elt Ideal)) (x14 : (⟨S2, .f32⟩ : BufTy).Contents (Elt Ideal)) :
    kNet x0 x1 x2 x3 x4 x5 x6 x7 x8 x9 x10 x11 x12 x13 x14 = Cert.ReferenceIdeal.Read.val_main_v123 (F := Ideal) x0 x1 x2 x3 x4 x5 x6 x7 x8 x9 x10 x11 x12 x13 x14 :=
  calc kNet x0 x1 x2 x3 x4 x5 x6 x7 x8 x9 x10 x11 x12 x13 x14
      = rPool (rLayer (rLayer x0 x1 x3 x4 x5 x6 x7) x1 x8 x9 x10 x11 x12) x2 x13 x14 := by
        unfold kNet
        rw [layer_eq, layer_eq, pool_eq]
    _ = Cert.ReferenceIdeal.Read.val_main_v123 (F := Ideal) x0 x1 x2 x3 x4 x5 x6 x7 x8 x9 x10 x11 x12 x13 x14 :=
        (ref_result x0 x1 x2 x3 x4 x5 x6 x7 x8 x9 x10 x11 x12 x13 x14).symm

end Network

end Cert.Proof.Hand
-- ==== Proof.Hand.Val.ChainK.lean ====
/-
  The kernel program's result as a composition of stages. Each kernel region's result array is the stage's
  whole-array function of the arrays the region read; each of those is either an argument, read back unchanged
  through every earlier item of the program (no item writes an argument, and no item writes again what an earlier
  host stretch or region left), or the value a host stretch computed from earlier arrays. Reading the boundaries
  forward from the launch memory: region 0 leaves the first layer's affine output, region 1 the first layer,
  region 2 the second layer's affine output over the first layer and the same edge list, region 3 the second
  layer, and region 4 the per-graph mean through the linear layer and the sigmoid — the network of the fifteen
  launch arrays.
-/
import proofs.«429563_j84585085928054_2_alg».proof.Proof.Hand.KI.Fold
import proofs.«429563_j84585085928054_2_alg».proof.Proof.Hand.Val.HostK
import proofs.«429563_j84585085928054_2_alg».proof.Proof.Hand.Val.Final0
import proofs.«429563_j84585085928054_2_alg».proof.Proof.Hand.Val.Final1
import proofs.«429563_j84585085928054_2_alg».proof.Proof.Hand.Val.Final2
import proofs.«429563_j84585085928054_2_alg».proof.Proof.Hand.Val.Final3
import proofs.«429563_j84585085928054_2_alg».proof.Proof.Hand.Val.Final4
import proofs.«429563_j84585085928054_2_alg».proof.Proof.Hand.Val.Bridge

set_option maxRecDepth 16384

noncomputable section

namespace Cert.KernelIdeal.Hand

open Cert.KernelIdeal Cert.KernelIdeal.Gen Cert.Proof.Hand.Stage
open Idealize.ShloMosaic Idealize.ShloMosaic.TcCoe Idealize.SL.Sem

variable (m : (ℓ : Loc nD τ sig) → Buf (Elt Ideal) ℓ)

/-! ## A buffer an item does not write is as before the item -/

theorem B1_of (c : Dev nD) (r : Ref sig .tc) (h : r ∉ (hostOps0_W : List (Ref sig .tc))) : B1 m c r = Gen.V0 m c r :=
  StableHlo.after_of_writes_sub hostOps0 _ hostOps0_writes h
theorem B2_of (c : Dev nD) (r : Ref sig .tc) (h : r ∉ ([main_v29] : List (Ref sig .tc))) : B2 m c r = B1 m c r :=
  Function.update_of_ne (StableHlo.devRef_ne_of_ne (List.ne_of_not_mem_cons h)) _ _
theorem B3_of (c : Dev nD) (r : Ref sig .tc) (h : r ∉ (hostOps1_W : List (Ref sig .tc))) : B3 m c r = B2 m c r :=
  StableHlo.after_of_writes_sub hostOps1 _ hostOps1_writes h
theorem B4_of (c : Dev nD) (r : Ref sig .tc) (h : r ∉ ([main_v49] : List (Ref sig .tc))) : B4 m c r = B3 m c r :=
  Function.update_of_ne (StableHlo.devRef_ne_of_ne (List.ne_of_not_mem_cons h)) _ _
theorem B5_of (c : Dev nD) (r : Ref sig .tc) (h : r ∉ (hostOps2_W : List (Ref sig .tc))) : B5 m c r = B4 m c r :=
  StableHlo.after_of_writes_sub hostOps2 _ hostOps2_writes h
theorem B6_of (c : Dev nD) (r : Ref sig .tc) (h : r ∉ ([main_v66] : List (Ref sig .tc))) : B6 m c r = B5 m c r :=
  Function.update_of_ne (StableHlo.devRef_ne_of_ne (List.ne_of_not_mem_cons h)) _ _
theorem B7_of (c : Dev nD) (r : Ref sig .tc) (h : r ∉ (hostOps3_W : List (Ref sig .tc))) : B7 m c r = B6 m c r :=
  StableHlo.after_of_writes_sub hostOps3 _ hostOps3_writes h
theorem B8_of (c : Dev nD) (r : Ref sig .tc) (h : r ∉ ([main_v86] : List (Ref sig .tc))) : B8 m c r = B7 m c r :=
  Function.update_of_ne (StableHlo.devRef_ne_of_ne (List.ne_of_not_mem_cons h)) _ _
theorem B9_of (c : Dev nD) (r : Ref sig .tc) (h : r ∉ (hostOps4_W : List (Ref sig .tc))) : B9 m c r = B8 m c r :=
  StableHlo.after_of_writes_sub hostOps4 _ hostOps4_writes h

/-- A buffer that nothing after the first host stretch writes holds, at every later boundary, what that stretch left. -/
theorem B_since1 (c : Dev nD) (r : Ref sig .tc) (h1 : r ∉ (hostOps1_W : List (Ref sig .tc)))
    (h2 : r ∉ (hostOps2_W : List (Ref sig .tc))) (h3 : r ∉ (hostOps3_W : List (Ref sig .tc))) (h4 : r ∉ (hostOps4_W : List (Ref sig .tc)))
    (g1 : r ∉ ([main_v29] : List (Ref sig .tc))) (g2 : r ∉ ([main_v49] : List (Ref sig .tc))) (g3 : r ∉ ([main_v66] : List (Ref sig .tc))) (g4 : r ∉ ([main_v86] : List (Ref sig .tc))) :
    B2 m c r = B1 m c r ∧ B3 m c r = B1 m c r ∧ B4 m c r = B1 m c r ∧ B5 m c r = B1 m c r ∧ B6 m c r = B1 m c r
    ∧ B7 m c r = B1 m c r ∧ B8 m c r = B1 m c r ∧ B9 m c r = B1 m c r := by
  have e2 := B2_of m c r g1
  have e3 := (B3_of m c r h1).trans e2
  have e4 := (B4_of m c r g2).trans e3
  have e5 := (B5_of m c r h2).trans e4
  have e6 := (B6_of m c r g3).trans e5
  have e7 := (B7_of m c r h3).trans e6
  have e8 := (B8_of m c r g4).trans e7
  have e9 := (B9_of m c r h4).trans e8
  exact ⟨e2, e3, e4, e5, e6, e7, e8, e9⟩

/-- A buffer that no item of the program writes — an argument — is as launched at every boundary. -/
theorem B_arg (c : Dev nD) (r : Ref sig .tc) (h0 : r ∉ (hostOps0_W : List (Ref sig .tc))) (h1 : r ∉ (hostOps1_W : List (Ref sig .tc)))
    (h2 : r ∉ (hostOps2_W : List (Ref sig .tc))) (h3 : r ∉ (hostOps3_W : List (Ref sig .tc))) (h4 : r ∉ (hostOps4_W : List (Ref sig .tc)))
    (g1 : r ∉ ([main_v29] : List (Ref sig .tc))) (g2 : r ∉ ([main_v49] : List (Ref sig .tc))) (g3 : r ∉ ([main_v66] : List (Ref sig .tc))) (g4 : r ∉ ([main_v86] : List (Ref sig .tc))) :
    B1 m c r = m ((c : Thread nD τ).loc r) ∧ B2 m c r = m ((c : Thread nD τ).loc r) ∧ B3 m c r = m ((c : Thread nD τ).loc r)
    ∧ B4 m c r = m ((c : Thread nD τ).loc r) ∧ B5 m c r = m ((c : Thread nD τ).loc r) ∧ B6 m c r = m ((c : Thread nD τ).loc r)
    ∧ B7 m c r = m ((c : Thread nD τ).loc r) ∧ B8 m c r = m ((c : Thread nD τ).loc r) ∧ B9 m c r = m ((c : Thread nD τ).loc r) := by
  have e1 : B1 m c r = m ((c : Thread nD τ).loc r) := B1_of m c r h0
  obtain ⟨e2, e3, e4, e5, e6, e7, e8, e9⟩ := B_since1 m c r h1 h2 h3 h4 g1 g2 g3 g4
  exact ⟨e1, e2.trans e1, e3.trans e1, e4.trans e1, e5.trans e1, e6.trans e1, e7.trans e1, e8.trans e1, e9.trans e1⟩

/-! ## The arguments the regions and the later host stretches read, where they are read -/

theorem B1_arg0 (c : Dev nD) : B1 m c main_arg0 = (m ((c : Thread nD τ).loc main_arg0)) := (B_arg m c main_arg0 (by decide) (by decide) (by decide) (by decide) (by decide) (by decide) (by decide) (by decide) (by decide)).1
theorem B1_arg3 (c : Dev nD) : B1 m c main_arg3 = (m ((c : Thread nD τ).loc main_arg3)) := (B_arg m c main_arg3 (by decide) (by decide) (by decide) (by decide) (by decide) (by decide) (by decide) (by decide) (by decide)).1
theorem B1_arg4 (c : Dev nD) : B1 m c main_arg4 = (m ((c : Thread nD τ).loc main_arg4)) := (B_arg m c main_arg4 (by decide) (by decide) (by decide) (by decide) (by decide) (by decide) (by decide) (by decide) (by decide)).1
theorem B2_arg6 (c : Dev nD) : B2 m c main_arg6 = (m ((c : Thread nD τ).loc main_arg6)) := (B_arg m c main_arg6 (by decide) (by decide) (by decide) (by decide) (by decide) (by decide) (by decide) (by decide) (by decide)).2.1
theorem B2_arg7 (c : Dev nD) : B2 m c main_arg7 = (m ((c : Thread nD τ).loc main_arg7)) := (B_arg m c main_arg7 (by decide) (by decide) (by decide) (by decide) (by decide) (by decide) (by decide) (by decide) (by decide)).2.1
theorem B5_arg8 (c : Dev nD) : B5 m c main_arg8 = (m ((c : Thread nD τ).loc main_arg8)) := (B_arg m c main_arg8 (by decide) (by decide) (by decide) (by decide) (by decide) (by decide) (by decide) (by decide) (by decide)).2.2.2.2.1
theorem B5_arg9 (c : Dev nD) : B5 m c main_arg9 = (m ((c : Thread nD τ).loc main_arg9)) := (B_arg m c main_arg9 (by decide) (by decide) (by decide) (by decide) (by decide) (by decide) (by decide) (by decide) (by decide)).2.2.2.2.1
theorem B4_arg10 (c : Dev nD) : B4 m c main_arg10 = (m ((c : Thread nD τ).loc main_arg10)) := (B_arg m c main_arg10 (by decide) (by decide) (by decide) (by decide) (by decide) (by decide) (by decide) (by decide) (by decide)).2.2.2.1
theorem B6_arg11 (c : Dev nD) : B6 m c main_arg11 = (m ((c : Thread nD τ).loc main_arg11)) := (B_arg m c main_arg11 (by decide) (by decide) (by decide) (by decide) (by decide) (by decide) (by decide) (by decide) (by decide)).2.2.2.2.2.1
theorem B6_arg12 (c : Dev nD) : B6 m c main_arg12 = (m ((c : Thread nD τ).loc main_arg12)) := (B_arg m c main_arg12 (by decide) (by decide) (by decide) (by decide) (by decide) (by decide) (by decide) (by decide) (by decide)).2.2.2.2.2.1

/-! ## What the first host stretch leaves, read where later items read it -/

theorem B1_v27 (c : Dev nD) : B1 m c main_v27 = (kAgg (m ((c : Thread nD τ).loc main_arg0)) (kSrc (m ((c : Thread nD τ).loc main_arg1))) (kDst (m ((c : Thread nD τ).loc main_arg1))) (kInvDeg (kDst (m ((c : Thread nD τ).loc main_arg1))))) := host0_v27 (Gen.V0 m c)
theorem B1_v28 (c : Dev nD) : B1 m c main_v28 = kBias2 (m ((c : Thread nD τ).loc main_arg5)) := host0_v28 (Gen.V0 m c)
theorem B1_v1 (c : Dev nD) : B1 m c main_v1 = kSrc (m ((c : Thread nD τ).loc main_arg1)) := host0_v1 (Gen.V0 m c)
theorem B1_v3 (c : Dev nD) : B1 m c main_v3 = kDst (m ((c : Thread nD τ).loc main_arg1)) := host0_v3 (Gen.V0 m c)
theorem B1_v12 (c : Dev nD) : B1 m c main_v12 = kInvDeg (kDst (m ((c : Thread nD τ).loc main_arg1))) := host0_v12 (Gen.V0 m c)

/-- The edge list's two rows and the reciprocal degrees are still, before the second aggregate, what the first
    stretch left: nothing in between writes them. -/
theorem B4_v1 (c : Dev nD) : B4 m c main_v1 = kSrc (m ((c : Thread nD τ).loc main_arg1)) :=
  (B_since1 m c main_v1 (by decide) (by decide) (by decide) (by decide) (by decide) (by decide) (by decide) (by decide)).2.2.1.trans (B1_v1 m c)
theorem B4_v3 (c : Dev nD) : B4 m c main_v3 = kDst (m ((c : Thread nD τ).loc main_arg1)) :=
  (B_since1 m c main_v3 (by decide) (by decide) (by decide) (by decide) (by decide) (by decide) (by decide) (by decide)).2.2.1.trans (B1_v3 m c)
theorem B4_v12 (c : Dev nD) : B4 m c main_v12 = kInvDeg (kDst (m ((c : Thread nD τ).loc main_arg1))) :=
  (B_since1 m c main_v12 (by decide) (by decide) (by decide) (by decide) (by decide) (by decide) (by decide) (by decide)).2.2.1.trans (B1_v12 m c)

/-! ## Region 0: the first layer's affine output -/

theorem o2_eq (c : Dev nD) : o2 m c = (kMM (kAgg (m ((c : Thread nD τ).loc main_arg0)) (kSrc (m ((c : Thread nD τ).loc main_arg1))) (kDst (m ((c : Thread nD τ).loc main_arg1))) (kInvDeg (kDst (m ((c : Thread nD τ).loc main_arg1))))) (m ((c : Thread nD τ).loc main_arg0)) (m ((c : Thread nD τ).loc main_arg3)) (m ((c : Thread nD τ).loc main_arg4)) (kBias2 (m ((c : Thread nD τ).loc main_arg5)))) := by
  unfold o2
  rw [final0 (E1 m) c]
  show kMM (B1 m c main_v27) (B1 m c main_arg0) (B1 m c main_arg3) (B1 m c main_arg4) (B1 m c main_v28) = _
  rw [B1_v27, B1_v28, B1_arg0, B1_arg3, B1_arg4]

theorem B2_v29 (c : Dev nD) : B2 m c main_v29 = (kMM (kAgg (m ((c : Thread nD τ).loc main_arg0)) (kSrc (m ((c : Thread nD τ).loc main_arg1))) (kDst (m ((c : Thread nD τ).loc main_arg1))) (kInvDeg (kDst (m ((c : Thread nD τ).loc main_arg1))))) (m ((c : Thread nD τ).loc main_arg0)) (m ((c : Thread nD τ).loc main_arg3)) (m ((c : Thread nD τ).loc main_arg4)) (kBias2 (m ((c : Thread nD τ).loc main_arg5)))) :=
  (Function.update_self _ _ _).trans (o2_eq m c)

/-! ## Region 1: the first layer's output -/

theorem B3_v29 (c : Dev nD) : B3 m c main_v29 = (kMM (kAgg (m ((c : Thread nD τ).loc main_arg0)) (kSrc (m ((c : Thread nD τ).loc main_arg1))) (kDst (m ((c : Thread nD τ).loc main_arg1))) (kInvDeg (kDst (m ((c : Thread nD τ).loc main_arg1))))) (m ((c : Thread nD τ).loc main_arg0)) (m ((c : Thread nD τ).loc main_arg3)) (m ((c : Thread nD τ).loc main_arg4)) (kBias2 (m ((c : Thread nD τ).loc main_arg5)))) :=
  (B3_of m c main_v29 (by decide)).trans (B2_v29 m c)
theorem B3_v33 (c : Dev nD) : B3 m c main_v33 = kMean (kMM (kAgg (m ((c : Thread nD τ).loc main_arg0)) (kSrc (m ((c : Thread nD τ).loc main_arg1))) (kDst (m ((c : Thread nD τ).loc main_arg1))) (kInvDeg (kDst (m ((c : Thread nD τ).loc main_arg1))))) (m ((c : Thread nD τ).loc main_arg0)) (m ((c : Thread nD τ).loc main_arg3)) (m ((c : Thread nD τ).loc main_arg4)) (kBias2 (m ((c : Thread nD τ).loc main_arg5)))) :=
  (host1_v33 (B2 m c)).trans (by rw [B2_v29])
theorem B3_v47 (c : Dev nD) : B3 m c main_v47 = kInvStd (kMM (kAgg (m ((c : Thread nD τ).loc main_arg0)) (kSrc (m ((c : Thread nD τ).loc main_arg1))) (kDst (m ((c : Thread nD τ).loc main_arg1))) (kInvDeg (kDst (m ((c : Thread nD τ).loc main_arg1))))) (m ((c : Thread nD τ).loc main_arg0)) (m ((c : Thread nD τ).loc main_arg3)) (m ((c : Thread nD τ).loc main_arg4)) (kBias2 (m ((c : Thread nD τ).loc main_arg5)))) (m ((c : Thread nD τ).loc main_arg6)) :=
  (host1_v47 (B2 m c)).trans (by rw [B2_v29, B2_arg6])
theorem B3_v48 (c : Dev nD) : B3 m c main_v48 = kBeta2 (m ((c : Thread nD τ).loc main_arg7)) :=
  (host1_v48 (B2 m c)).trans (by rw [B2_arg7])

/-- What region 1 leaves: the first layer of the input. -/
theorem o4_eq (c : Dev nD) : o4 m c = (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  unfold o4
  rw [final1 (E3 m) c]
  show kBNR (B3 m c main_v29) (B3 m c main_v33) (B3 m c main_v47) (B3 m c main_v48) = _
  rw [B3_v29, B3_v33, B3_v47, B3_v48]
  rfl

theorem B4_v49 (c : Dev nD) : B4 m c main_v49 = (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (Function.update_self _ _ _).trans (o4_eq m c)

/-! ## Region 2: the second layer's affine output -/

theorem B5_v49 (c : Dev nD) : B5 m c main_v49 = (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (B5_of m c main_v49 (by decide)).trans (B4_v49 m c)
theorem B5_v64 (c : Dev nD) : B5 m c main_v64 = (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) :=
  (host2_v64 (B4 m c)).trans (by rw [B4_v49, B4_v1, B4_v3, B4_v12])
theorem B5_v65 (c : Dev nD) : B5 m c main_v65 = kBias2 (m ((c : Thread nD τ).loc main_arg10)) :=
  (host2_v65 (B4 m c)).trans (by rw [B4_arg10])

theorem o6_eq (c : Dev nD) : o6 m c = (kMM (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (kBias2 (m ((c : Thread nD τ).loc main_arg10)))) := by
  unfold o6
  rw [final2 (E5 m) c]
  show kMM (B5 m c main_v64) (B5 m c main_v49) (B5 m c main_arg8) (B5 m c main_arg9) (B5 m c main_v65) = _
  rw [B5_v64, B5_v49, B5_arg8, B5_arg9, B5_v65]

theorem B6_v66 (c : Dev nD) : B6 m c main_v66 = (kMM (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (kBias2 (m ((c : Thread nD τ).loc main_arg10)))) :=
  (Function.update_self _ _ _).trans (o6_eq m c)

/-! ## Region 3: the second layer's output -/

theorem B7_v66 (c : Dev nD) : B7 m c main_v66 = (kMM (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (kBias2 (m ((c : Thread nD τ).loc main_arg10)))) :=
  (B7_of m c main_v66 (by decide)).trans (B6_v66 m c)
theorem B7_v70 (c : Dev nD) : B7 m c main_v70 = kMean (kMM (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (kBias2 (m ((c : Thread nD τ).loc main_arg10)))) :=
  (host3_v70 (B6 m c)).trans (by rw [B6_v66])
theorem B7_v84 (c : Dev nD) : B7 m c main_v84 = kInvStd (kMM (kAgg (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (kSrc (m ((c : Thread nD τ).loc main_arg1))) (kDst (m ((c : Thread nD τ).loc main_arg1))) (kInvDeg (kDst (m ((c : Thread nD τ).loc main_arg1))))) (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (kBias2 (m ((c : Thread nD τ).loc main_arg10)))) (m ((c : Thread nD τ).loc main_arg11)) :=
  (host3_v84 (B6 m c)).trans (by rw [B6_v66, B6_arg11])
theorem B7_v85 (c : Dev nD) : B7 m c main_v85 = kBeta2 (m ((c : Thread nD τ).loc main_arg12)) :=
  (host3_v85 (B6 m c)).trans (by rw [B6_arg12])

/-- What region 3 leaves: the second layer of the first layer's output, over the same edge list. -/
theorem o8_eq (c : Dev nD) : o8 m c = (Cert.Proof.Hand.kLayer (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12))) := by
  unfold o8
  rw [final3 (E7 m) c]
  show kBNR (B7 m c main_v66) (B7 m c main_v70) (B7 m c main_v84) (B7 m c main_v85) = _
  rw [B7_v66, B7_v70, B7_v84, B7_v85]
  rfl

theorem B8_v86 (c : Dev nD) : B8 m c main_v86 = (Cert.Proof.Hand.kLayer (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12))) :=
  (Function.update_self _ _ _).trans (o8_eq m c)

/-! ## Region 4: the pooled linear layer and the sigmoid -/

theorem B9_v86 (c : Dev nD) : B9 m c main_v86 = (Cert.Proof.Hand.kLayer (Cert.Proof.Hand.kLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12))) :=
  (B9_of m c main_v86 (by decide)).trans (B8_v86 m c)
theorem B1_v4 (c : Dev nD) : B1 m c main_v4 = kBatch2 (m ((c : Thread nD τ).loc main_arg2)) := host0_v4 (Gen.V0 m c)
/-- The graph column is still, before the pooling, what the first stretch left. -/
theorem B9_v4 (c : Dev nD) : B9 m c main_v4 = kBatch2 (m ((c : Thread nD τ).loc main_arg2)) :=
  (B_since1 m c main_v4 (by decide) (by decide) (by decide) (by decide) (by decide) (by decide) (by decide) (by decide)).2.2.2.2.2.2.2.trans (B1_v4 m c)
theorem B8_arg2 (c : Dev nD) : B8 m c main_arg2 = (m ((c : Thread nD τ).loc main_arg2)) := (B_arg m c main_arg2 (by decide) (by decide) (by decide) (by decide) (by decide) (by decide) (by decide) (by decide) (by decide)).2.2.2.2.2.2.2.1
theorem B8_arg14 (c : Dev nD) : B8 m c main_arg14 = (m ((c : Thread nD τ).loc main_arg14)) := (B_arg m c main_arg14 (by decide) (by decide) (by decide) (by decide) (by decide) (by decide) (by decide) (by decide) (by decide)).2.2.2.2.2.2.2.1
theorem B9_arg13 (c : Dev nD) : B9 m c main_arg13 = (m ((c : Thread nD τ).loc main_arg13)) := (B_arg m c main_arg13 (by decide) (by decide) (by decide) (by decide) (by decide) (by decide) (by decide) (by decide) (by decide)).2.2.2.2.2.2.2.2
theorem B9_v95 (c : Dev nD) : B9 m c main_v95 = kInvCnt (m ((c : Thread nD τ).loc main_arg2)) :=
  (host4_v95 (B8 m c)).trans (by rw [B8_arg2])
theorem B9_v96 (c : Dev nD) : B9 m c main_v96 = kBlin2 (m ((c : Thread nD τ).loc main_arg14)) :=
  (host4_v96 (B8 m c)).trans (by rw [B8_arg14])

/-- The program's result is the network of its fifteen launch arrays. -/
theorem o10_eq (c : Dev nD) : o10 m c = Cert.Proof.Hand.kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold o10
  rw [final4 (E9 m) c]
  show kPool (B9 m c main_v86) (B9 m c main_v4) (B9 m c main_v95) (B9 m c main_arg13) (B9 m c main_v96) = _
  rw [B9_v86, B9_v4, B9_v95, B9_arg13, B9_v96]
  rfl

end Cert.KernelIdeal.Hand

end
-- ==== Proof.Hand.Algebraic.lean ====
/-
  The two idealised programs compute one function of the arguments. On the kernel's side the result array ends at what
  the pool region leaves, which read back through @main is the composition of the kernel's stages; on the
  reference's side the run ends at the composition of the host operations, folded into the reference's stages. Stage
  by stage the two agree on every extended real: the neighbour mean as a product with the reciprocal of the degree
  against a quotient by it, the two matrix products with the bias added in another order, the batch normalisation
  whose clamped variance is the variance because a mean of squares is not negative, and the per-graph mean as a
  product of indicators with the rows against an accumulation of the rows at their graph.
-/
import proofs.«429563_j84585085928054_2_alg».proof.Defs
import proofs.«429563_j84585085928054_2_alg».proof.Proof.Gen.KernelIdeal
import proofs.«429563_j84585085928054_2_alg».proof.Proof.Gen.ReferenceIdeal
import proofs.«429563_j84585085928054_2_alg».proof.Proof.Gen.Pre_finite_inputs
import proofs.«429563_j84585085928054_2_alg».proof.Proof.Gen.ReferenceIdeal.Run
import proofs.«429563_j84585085928054_2_alg».proof.Proof.Gen.ReferenceIdeal.Read
import proofs.«429563_j84585085928054_2_alg».proof.Proof.Hand.KI.RunVal
import proofs.«429563_j84585085928054_2_alg».proof.Proof.Hand.Val.ChainK
import proofs.«429563_j84585085928054_2_alg».proof.Proof.Hand.Val.Bridge

noncomputable section

open Idealize.ShloMosaic Idealize.ShloMosaic.TcCoe Idealize.SL.Sem

namespace Cert.Proof.Hand

/-- From memories that agree on the fifteen arguments both idealised programs run to the end, leave the arguments
    unchanged, and end with the same 512 × 2 array of extended reals. -/
theorem algebraic : Cert.algebraic_KernelIdeal_ReferenceIdeal := by
  intro m ρ m' ρ' _ hagree
  refine ⟨Cert.KernelIdeal.Hand.o10 m, Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v123_eq, h0, h1, h2, h3, h4, h5, h6, h7, h8, h9, h10, h11, h12, h13, h14,
    Cert.KernelIdeal.Hand.o10_eq]
  exact (net_eq _ _ _ _ _ _ _ _ _ _ _ _ _ _ _).symm

end Cert.Proof.Hand

end
-- ==== Proof.lean ====
/-
  The certificate's five claims. The word-level kernel program and its idealisation are the same text read at two
  float instances, and their frames are one argument: @main is ten items, five stretches of host operations and
  five kernel regions, and no item writes an argument array, so every argument ends as launched; each region's
  pipeline stages its windows block by block around a body that loads whole blocks, computes and stores one whole
  block, the pool region besides carrying its accumulator across the grid. The reference is a straight line of host
  operations. The idealisation rewrote nothing, so it preserves the kernel trivially. And at the ideal instance the
  two programs compute the same function of the arguments.
-/
import proofs.«429563_j84585085928054_2_alg».proof.Defs
import proofs.«429563_j84585085928054_2_alg».proof.Proof.Gen.Kernel
import proofs.«429563_j84585085928054_2_alg».proof.Proof.Gen.KernelIdeal
import proofs.«429563_j84585085928054_2_alg».proof.Proof.Gen.ReferenceIdeal
import proofs.«429563_j84585085928054_2_alg».proof.Proof.Gen.Pre_finite_inputs
import proofs.«429563_j84585085928054_2_alg».proof.Proof.Hand.K.Frame
import proofs.«429563_j84585085928054_2_alg».proof.Proof.Hand.KI.Frame
import proofs.«429563_j84585085928054_2_alg».proof.Proof.Hand.RefRun
import proofs.«429563_j84585085928054_2_alg».proof.Proof.Hand.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Hand.frame_ri,
    trivial,
    Cert.Proof.Hand.algebraic⟩

end Cert.Proof

end
